-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S512x512 : Shape := ⟨2, ![512, 512]⟩
abbrev S18 : Shape := ⟨1, ![18]⟩
abbrev S16 : Shape := ⟨1, ![16]⟩
abbrev S14 : Shape := ⟨1, ![14]⟩
abbrev S_ : Shape := ⟨0, ![]⟩
abbrev S1 : Shape := ⟨1, ![1]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v15 : BitVec 32 := Scalar.muli v2 c8_i32_7
  let v16 : BitVec 32 := Scalar.addi c0_i32 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v17 : BitVec 32 := Scalar.muli v9 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_11 : BitVec 32 := 8#32
  let v21 : BitVec 32 := Scalar.muli v10 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_16 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v11 : BitVec 32 := Scalar.muli v2 c512_i32
  let v27 : BitVec 32 := Scalar.addi v11 c0_i32_16
  let c0_i32_25 : BitVec 32 := 0#32
  ![v27.toNat, 0]
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v28 : BitVec 32 := Scalar.muli v2 c8_i32_19
  let v29 : BitVec 32 := Scalar.addi c0_i32_20 v28
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_21 : BitVec 32 := 4#32
  let v30 : BitVec 32 := Scalar.muli v9 c4_i32_21
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.muli v8 c1_i32_22
  let v33 : BitVec 32 := Scalar.addi v31 v32
  v33.toNat
def k0_dev4 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v41 : BitVec 32 := Scalar.muli v2 c8_i32_28
  let v42 : BitVec 32 := Scalar.addi c0_i32_29 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_30 : BitVec 32 := 4#32
  let v43 : BitVec 32 := Scalar.muli v9 c4_i32_30
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v45 : BitVec 32 := Scalar.muli v8 c1_i32_31
  let v46 : BitVec 32 := Scalar.addi v44 v45
  v46.toNat
def k0_dev5 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v54 : BitVec 32 := Scalar.muli v2 c8_i32_37
  let v55 : BitVec 32 := Scalar.addi c0_i32_38 v54
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_39 : BitVec 32 := 4#32
  let v56 : BitVec 32 := Scalar.muli v9 c4_i32_39
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v58 : BitVec 32 := Scalar.muli v8 c1_i32_40
  let v59 : BitVec 32 := Scalar.addi v57 v58
  v59.toNat
def k0_dev6 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v67 : BitVec 32 := Scalar.muli v2 c8_i32_45
  let v68 : BitVec 32 := Scalar.addi c0_i32_46 v67
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_47 : BitVec 32 := 4#32
  let v69 : BitVec 32 := Scalar.muli v9 c4_i32_47
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v71 : BitVec 32 := Scalar.muli v8 c1_i32_48
  let v72 : BitVec 32 := Scalar.addi v70 v71
  v72.toNat
def k0_dev7 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v80 : BitVec 32 := Scalar.muli v2 c8_i32_54
  let v81 : BitVec 32 := Scalar.addi c0_i32_55 v80
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v82 : BitVec 32 := Scalar.muli v9 c4_i32_56
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v84 : BitVec 32 := Scalar.muli v8 c1_i32_57
  let v85 : BitVec 32 := Scalar.addi v83 v84
  v85.toNat
def k0_dev8 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v93 : BitVec 32 := Scalar.muli v2 c8_i32_62
  let v94 : BitVec 32 := Scalar.addi c0_i32_63 v93
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_64 : BitVec 32 := 4#32
  let v95 : BitVec 32 := Scalar.muli v9 c4_i32_64
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v97 : BitVec 32 := Scalar.muli v8 c1_i32_65
  let v98 : BitVec 32 := Scalar.addi v96 v97
  v98.toNat
def k0_dev9 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v106 : BitVec 32 := Scalar.muli v2 c8_i32_70
  let v107 : BitVec 32 := Scalar.addi c0_i32_71 v106
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_72 : BitVec 32 := 4#32
  let v108 : BitVec 32 := Scalar.muli v9 c4_i32_72
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v110 : BitVec 32 := Scalar.muli v8 c1_i32_73
  let v111 : BitVec 32 := Scalar.addi v109 v110
  v111.toNat
def k0_dev10 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v119 : BitVec 32 := Scalar.muli v2 c8_i32_78
  let v120 : BitVec 32 := Scalar.addi c0_i32_79 v119
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_80 : BitVec 32 := 4#32
  let v121 : BitVec 32 := Scalar.muli v9 c4_i32_80
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v123 : BitVec 32 := Scalar.muli v8 c1_i32_81
  let v124 : BitVec 32 := Scalar.addi v122 v123
  v124.toNat
def k0_dev11 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v132 : BitVec 32 := Scalar.muli v2 c8_i32_87
  let v133 : BitVec 32 := Scalar.addi c0_i32_88 v132
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_89 : BitVec 32 := 4#32
  let v134 : BitVec 32 := Scalar.muli v9 c4_i32_89
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v136 : BitVec 32 := Scalar.muli v8 c1_i32_90
  let v137 : BitVec 32 := Scalar.addi v135 v136
  v137.toNat
def k0_dev12 (d0 : Dev nD) : Nat :=
  let c0_i32_96 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_95 : BitVec 32 := 8#32
  let v145 : BitVec 32 := Scalar.muli v2 c8_i32_95
  let v146 : BitVec 32 := Scalar.addi c0_i32_96 v145
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_97 : BitVec 32 := 4#32
  let v147 : BitVec 32 := Scalar.muli v9 c4_i32_97
  let v148 : BitVec 32 := Scalar.addi v146 v147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v149 : BitVec 32 := Scalar.muli v8 c1_i32_98
  let v150 : BitVec 32 := Scalar.addi v148 v149
  v150.toNat
def k0_dev13 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v158 : BitVec 32 := Scalar.muli v2 c8_i32_103
  let v159 : BitVec 32 := Scalar.addi c0_i32_104 v158
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_105 : BitVec 32 := 4#32
  let v160 : BitVec 32 := Scalar.muli v9 c4_i32_105
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v162 : BitVec 32 := Scalar.muli v8 c1_i32_106
  let v163 : BitVec 32 := Scalar.addi v161 v162
  v163.toNat
def k0_dev14 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v171 : BitVec 32 := Scalar.muli v2 c8_i32_111
  let v172 : BitVec 32 := Scalar.addi c0_i32_112 v171
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_113 : BitVec 32 := 4#32
  let v173 : BitVec 32 := Scalar.muli v9 c4_i32_113
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v175 : BitVec 32 := Scalar.muli v8 c1_i32_114
  let v176 : BitVec 32 := Scalar.addi v174 v175
  v176.toNat
def k0_dev15 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v184 : BitVec 32 := Scalar.muli v2 c8_i32_119
  let v185 : BitVec 32 := Scalar.addi c0_i32_120 v184
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_121 : BitVec 32 := 4#32
  let v186 : BitVec 32 := Scalar.muli v9 c4_i32_121
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v188 : BitVec 32 := Scalar.muli v8 c1_i32_122
  let v189 : BitVec 32 := Scalar.addi v187 v188
  v189.toNat
def k0_dev16 (d0 : Dev nD) : Nat :=
  let c0_i32_128 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_127 : BitVec 32 := 8#32
  let v197 : BitVec 32 := Scalar.muli v2 c8_i32_127
  let v198 : BitVec 32 := Scalar.addi c0_i32_128 v197
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_129 : BitVec 32 := 4#32
  let v199 : BitVec 32 := Scalar.muli v9 c4_i32_129
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v201 : BitVec 32 := Scalar.muli v8 c1_i32_130
  let v202 : BitVec 32 := Scalar.addi v200 v201
  v202.toNat
def k0_dev17 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v210 : BitVec 32 := Scalar.muli v2 c8_i32_135
  let v211 : BitVec 32 := Scalar.addi c0_i32_136 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_137 : BitVec 32 := 4#32
  let v212 : BitVec 32 := Scalar.muli v9 c4_i32_137
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v214 : BitVec 32 := Scalar.muli v8 c1_i32_138
  let v215 : BitVec 32 := Scalar.addi v213 v214
  v215.toNat
def k0_dev18 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v223 : BitVec 32 := Scalar.muli v2 c8_i32_143
  let v224 : BitVec 32 := Scalar.addi c0_i32_144 v223
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_145 : BitVec 32 := 4#32
  let v225 : BitVec 32 := Scalar.muli v9 c4_i32_145
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v227 : BitVec 32 := Scalar.muli v8 c1_i32_146
  let v228 : BitVec 32 := Scalar.addi v226 v227
  v228.toNat
def k0_off2 (d0 : Dev nD) (c448_i32_150 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c512_i32_5 : BitVec 32 := 512#32
  let v13 : BitVec 32 := Scalar.muli v12 c512_i32_5
  let v235 : BitVec 32 := Scalar.addi v13 c448_i32_150
  let c0_i32_158 : BitVec 32 := 0#32
  ![v235.toNat, 0]
def k0_dev19 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v236 : BitVec 32 := Scalar.muli v2 c8_i32_152
  let v237 : BitVec 32 := Scalar.addi c0_i32_153 v236
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_154 : BitVec 32 := 4#32
  let v238 : BitVec 32 := Scalar.muli v9 c4_i32_154
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v240 : BitVec 32 := Scalar.muli v8 c1_i32_155
  let v241 : BitVec 32 := Scalar.addi v239 v240
  v241.toNat
def k0_dev20 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v249 : BitVec 32 := Scalar.muli v2 c8_i32_161
  let v250 : BitVec 32 := Scalar.addi c0_i32_162 v249
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_163 : BitVec 32 := 4#32
  let v251 : BitVec 32 := Scalar.muli v9 c4_i32_163
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v253 : BitVec 32 := Scalar.muli v8 c1_i32_164
  let v254 : BitVec 32 := Scalar.addi v252 v253
  v254.toNat
def k0_dev21 (d0 : Dev nD) : Nat :=
  let c0_i32_180 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_179 : BitVec 32 := 8#32
  let v271 : BitVec 32 := Scalar.muli v10 c8_i32_179
  let v272 : BitVec 32 := Scalar.addi c0_i32_180 v271
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_181 : BitVec 32 := 4#32
  let v273 : BitVec 32 := Scalar.muli v5 c4_i32_181
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v275 : BitVec 32 := Scalar.muli v8 c1_i32_182
  let v276 : BitVec 32 := Scalar.addi v274 v275
  v276.toNat
def k0_off3 (d0 : Dev nD) (c0_i32_187 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v11 : BitVec 32 := Scalar.muli v2 c512_i32
  let v283 : BitVec 32 := Scalar.addi v11 c0_i32_187
  let v284 : Index := Scalar.indexCast v283
  let c0 : Index := 0#32
  ![v284.toNat, 0]
def k0_dev22 (d0 : Dev nD) : Nat :=
  let c0_i32_203 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_202 : BitVec 32 := 8#32
  let v301 : BitVec 32 := Scalar.muli v10 c8_i32_202
  let v302 : BitVec 32 := Scalar.addi c0_i32_203 v301
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_204 : BitVec 32 := 4#32
  let v303 : BitVec 32 := Scalar.muli v5 c4_i32_204
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v305 : BitVec 32 := Scalar.muli v8 c1_i32_205
  let v306 : BitVec 32 := Scalar.addi v304 v305
  v306.toNat
def k0_dev23 (d0 : Dev nD) : Nat :=
  let c0_i32_226 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_225 : BitVec 32 := 8#32
  let v331 : BitVec 32 := Scalar.muli v10 c8_i32_225
  let v332 : BitVec 32 := Scalar.addi c0_i32_226 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v333 : BitVec 32 := Scalar.muli v5 c4_i32_227
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v335 : BitVec 32 := Scalar.muli v8 c1_i32_228
  let v336 : BitVec 32 := Scalar.addi v334 v335
  v336.toNat
def k0_dev24 (d0 : Dev nD) : Nat :=
  let c0_i32_249 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_248 : BitVec 32 := 8#32
  let v361 : BitVec 32 := Scalar.muli v10 c8_i32_248
  let v362 : BitVec 32 := Scalar.addi c0_i32_249 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v363 : BitVec 32 := Scalar.muli v5 c4_i32_250
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v365 : BitVec 32 := Scalar.muli v8 c1_i32_251
  let v366 : BitVec 32 := Scalar.addi v364 v365
  v366.toNat
def k0_dev25 (d0 : Dev nD) : Nat :=
  let c0_i32_272 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_271 : BitVec 32 := 8#32
  let v391 : BitVec 32 := Scalar.muli v10 c8_i32_271
  let v392 : BitVec 32 := Scalar.addi c0_i32_272 v391
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_273 : BitVec 32 := 4#32
  let v393 : BitVec 32 := Scalar.muli v5 c4_i32_273
  let v394 : BitVec 32 := Scalar.addi v392 v393
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v395 : BitVec 32 := Scalar.muli v8 c1_i32_274
  let v396 : BitVec 32 := Scalar.addi v394 v395
  v396.toNat
def k0_dev26 (d0 : Dev nD) : Nat :=
  let c0_i32_295 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_294 : BitVec 32 := 8#32
  let v421 : BitVec 32 := Scalar.muli v10 c8_i32_294
  let v422 : BitVec 32 := Scalar.addi c0_i32_295 v421
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v423 : BitVec 32 := Scalar.muli v5 c4_i32_296
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v425 : BitVec 32 := Scalar.muli v8 c1_i32_297
  let v426 : BitVec 32 := Scalar.addi v424 v425
  v426.toNat
def k0_dev27 (d0 : Dev nD) : Nat :=
  let c0_i32_318 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_317 : BitVec 32 := 8#32
  let v451 : BitVec 32 := Scalar.muli v10 c8_i32_317
  let v452 : BitVec 32 := Scalar.addi c0_i32_318 v451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_319 : BitVec 32 := 4#32
  let v453 : BitVec 32 := Scalar.muli v5 c4_i32_319
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_320 : BitVec 32 := 1#32
  let v455 : BitVec 32 := Scalar.muli v8 c1_i32_320
  let v456 : BitVec 32 := Scalar.addi v454 v455
  v456.toNat
def k0_dev28 (d0 : Dev nD) : Nat :=
  let c0_i32_341 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_340 : BitVec 32 := 8#32
  let v481 : BitVec 32 := Scalar.muli v10 c8_i32_340
  let v482 : BitVec 32 := Scalar.addi c0_i32_341 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_342 : BitVec 32 := 4#32
  let v483 : BitVec 32 := Scalar.muli v5 c4_i32_342
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v485 : BitVec 32 := Scalar.muli v8 c1_i32_343
  let v486 : BitVec 32 := Scalar.addi v484 v485
  v486.toNat
def k0_dev29 (d0 : Dev nD) : Nat :=
  let c0_i32_364 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_363 : BitVec 32 := 8#32
  let v511 : BitVec 32 := Scalar.muli v10 c8_i32_363
  let v512 : BitVec 32 := Scalar.addi c0_i32_364 v511
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_365 : BitVec 32 := 4#32
  let v513 : BitVec 32 := Scalar.muli v5 c4_i32_365
  let v514 : BitVec 32 := Scalar.addi v512 v513
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v515 : BitVec 32 := Scalar.muli v8 c1_i32_366
  let v516 : BitVec 32 := Scalar.addi v514 v515
  v516.toNat
def k0_dev30 (d0 : Dev nD) : Nat :=
  let c0_i32_387 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_386 : BitVec 32 := 8#32
  let v541 : BitVec 32 := Scalar.muli v10 c8_i32_386
  let v542 : BitVec 32 := Scalar.addi c0_i32_387 v541
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v543 : BitVec 32 := Scalar.muli v5 c4_i32_388
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v545 : BitVec 32 := Scalar.muli v8 c1_i32_389
  let v546 : BitVec 32 := Scalar.addi v544 v545
  v546.toNat
def k0_dev31 (d0 : Dev nD) : Nat :=
  let c0_i32_410 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_409 : BitVec 32 := 8#32
  let v571 : BitVec 32 := Scalar.muli v10 c8_i32_409
  let v572 : BitVec 32 := Scalar.addi c0_i32_410 v571
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_411 : BitVec 32 := 4#32
  let v573 : BitVec 32 := Scalar.muli v5 c4_i32_411
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_412 : BitVec 32 := 1#32
  let v575 : BitVec 32 := Scalar.muli v8 c1_i32_412
  let v576 : BitVec 32 := Scalar.addi v574 v575
  v576.toNat
def k0_dev32 (d0 : Dev nD) : Nat :=
  let c0_i32_433 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_432 : BitVec 32 := 8#32
  let v601 : BitVec 32 := Scalar.muli v10 c8_i32_432
  let v602 : BitVec 32 := Scalar.addi c0_i32_433 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_434 : BitVec 32 := 4#32
  let v603 : BitVec 32 := Scalar.muli v5 c4_i32_434
  let v604 : BitVec 32 := Scalar.addi v602 v603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v605 : BitVec 32 := Scalar.muli v8 c1_i32_435
  let v606 : BitVec 32 := Scalar.addi v604 v605
  v606.toNat
def k0_dev33 (d0 : Dev nD) : Nat :=
  let c0_i32_456 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_455 : BitVec 32 := 8#32
  let v631 : BitVec 32 := Scalar.muli v10 c8_i32_455
  let v632 : BitVec 32 := Scalar.addi c0_i32_456 v631
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_457 : BitVec 32 := 4#32
  let v633 : BitVec 32 := Scalar.muli v5 c4_i32_457
  let v634 : BitVec 32 := Scalar.addi v632 v633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v635 : BitVec 32 := Scalar.muli v8 c1_i32_458
  let v636 : BitVec 32 := Scalar.addi v634 v635
  v636.toNat
def k0_dev34 (d0 : Dev nD) : Nat :=
  let c0_i32_479 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_478 : BitVec 32 := 8#32
  let v661 : BitVec 32 := Scalar.muli v10 c8_i32_478
  let v662 : BitVec 32 := Scalar.addi c0_i32_479 v661
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_480 : BitVec 32 := 4#32
  let v663 : BitVec 32 := Scalar.muli v5 c4_i32_480
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v665 : BitVec 32 := Scalar.muli v8 c1_i32_481
  let v666 : BitVec 32 := Scalar.addi v664 v665
  v666.toNat
def k0_off4 (d0 : Dev nD) (c0_i32_526 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c512_i32_5 : BitVec 32 := 512#32
  let v13 : BitVec 32 := Scalar.muli v12 c512_i32_5
  let v727 : BitVec 32 := Scalar.addi v13 c0_i32_526
  let v728 : Index := Scalar.indexCast v727
  let c0_527 : Index := 0#32
  ![v728.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S18_S1_0 : ∀ a, (![0] : Fin 1 → Nat) a + S1.size a ≤ S18.size a
  squeezes_S1_S_ : S1.Squeezes S_
  inb_S16_S1_0 : ∀ a, (![0] : Fin 1 → Nat) a + S1.size a ≤ S16.size a
  inb_S512x512_S32x512_0_0 : ∀ a, (![0, 0] : Fin 2 → Nat) a + S32x512.size a ≤ S512x512.size a
  inb_S18_S1_1 : ∀ a, (![1] : Fin 1 → Nat) a + S1.size a ≤ S18.size a
  inb_S16_S1_1 : ∀ a, (![1] : Fin 1 → Nat) a + S1.size a ≤ S16.size a
  inb_S512x512_S32x512_32_0 : ∀ a, (![32, 0] : Fin 2 → Nat) a + S32x512.size a ≤ S512x512.size a
  inb_S18_S1_2 : ∀ a, (![2] : Fin 1 → Nat) a + S1.size a ≤ S18.size a
  inb_S16_S1_2 : ∀ a, (![2] : Fin 1 → Nat) a + S1.size a ≤ S16.size a
  inb_S512x512_S32x512_64_0 : ∀ a, (![64, 0] : Fin 2 → Nat) a + S32x512.size a ≤ S512x512.size a
  inb_S18_S1_3 : ∀ a, (![3] : Fin 1 → Nat) a + S1.size a ≤ S18.size a
  inb_S16_S1_3 : ∀ a, (![3] : Fin 1 → Nat) a + S1.size a ≤ S16.size a
  inb_S512x512_S32x512_96_0 : ∀ a, (![96, 0] : Fin 2 → Nat) a + S32x512.size a ≤ S512x512.size a
  inb_S18_S1_4 : ∀ a, (![4] : Fin 1 → Nat) a + S1.size a ≤ S18.size a
  inb_S16_S1_4 : ∀ a, (![4] : Fin 1 → Nat) a + S1.size a ≤ S16.size a
  inb_S512x512_S32x512_128_0 : ∀ a, (![128, 0] : Fin 2 → Nat) a + S32x512.size a ≤ S512x512.size a
  inb_S18_S1_5 : ∀ a, (![5] : Fin 1 → Nat) a + S1.size a ≤ S18.size a
  inb_S16_S1_5 : ∀ a, (![5] : Fin 1 → Nat) a + S1.size a ≤ S16.size a
  inb_S512x512_S32x512_160_0 : ∀ a, (![160, 0] : Fin 2 → Nat) a + S32x512.size a ≤ S512x512.size a
  inb_S18_S1_6 : ∀ a, (![6] : Fin 1 → Nat) a + S1.size a ≤ S18.size a
  inb_S16_S1_6 : ∀ a, (![6] : Fin 1 → Nat) a + S1.size a ≤ S16.size a
  inb_S512x512_S32x512_192_0 : ∀ a, (![192, 0] : Fin 2 → Nat) a + S32x512.size a ≤ S512x512.size a
  inb_S18_S1_7 : ∀ a, (![7] : Fin 1 → Nat) a + S1.size a ≤ S18.size a
  inb_S16_S1_7 : ∀ a, (![7] : Fin 1 → Nat) a + S1.size a ≤ S16.size a
  inb_S512x512_S32x512_224_0 : ∀ a, (![224, 0] : Fin 2 → Nat) a + S32x512.size a ≤ S512x512.size a
  inb_S18_S1_8 : ∀ a, (![8] : Fin 1 → Nat) a + S1.size a ≤ S18.size a
  inb_S16_S1_8 : ∀ a, (![8] : Fin 1 → Nat) a + S1.size a ≤ S16.size a
  inb_S512x512_S32x512_256_0 : ∀ a, (![256, 0] : Fin 2 → Nat) a + S32x512.size a ≤ S512x512.size a
  inb_S18_S1_9 : ∀ a, (![9] : Fin 1 → Nat) a + S1.size a ≤ S18.size a
  inb_S16_S1_9 : ∀ a, (![9] : Fin 1 → Nat) a + S1.size a ≤ S16.size a
  inb_S512x512_S32x512_288_0 : ∀ a, (![288, 0] : Fin 2 → Nat) a + S32x512.size a ≤ S512x512.size a
  inb_S18_S1_10 : ∀ a, (![10] : Fin 1 → Nat) a + S1.size a ≤ S18.size a
  inb_S16_S1_10 : ∀ a, (![10] : Fin 1 → Nat) a + S1.size a ≤ S16.size a
  inb_S512x512_S32x512_320_0 : ∀ a, (![320, 0] : Fin 2 → Nat) a + S32x512.size a ≤ S512x512.size a
  inb_S18_S1_11 : ∀ a, (![11] : Fin 1 → Nat) a + S1.size a ≤ S18.size a
  inb_S16_S1_11 : ∀ a, (![11] : Fin 1 → Nat) a + S1.size a ≤ S16.size a
  inb_S512x512_S32x512_352_0 : ∀ a, (![352, 0] : Fin 2 → Nat) a + S32x512.size a ≤ S512x512.size a
  inb_S18_S1_12 : ∀ a, (![12] : Fin 1 → Nat) a + S1.size a ≤ S18.size a
  inb_S16_S1_12 : ∀ a, (![12] : Fin 1 → Nat) a + S1.size a ≤ S16.size a
  inb_S512x512_S32x512_384_0 : ∀ a, (![384, 0] : Fin 2 → Nat) a + S32x512.size a ≤ S512x512.size a
  inb_S18_S1_13 : ∀ a, (![13] : Fin 1 → Nat) a + S1.size a ≤ S18.size a
  inb_S16_S1_13 : ∀ a, (![13] : Fin 1 → Nat) a + S1.size a ≤ S16.size a
  inb_S512x512_S32x512_416_0 : ∀ a, (![416, 0] : Fin 2 → Nat) a + S32x512.size a ≤ S512x512.size a
  inb_S18_S1_14 : ∀ a, (![14] : Fin 1 → Nat) a + S1.size a ≤ S18.size a
  inb_S16_S1_14 : ∀ a, (![14] : Fin 1 → Nat) a + S1.size a ≤ S16.size a
  inb_S512x512_S32x512_448_0 : ∀ a, (![448, 0] : Fin 2 → Nat) a + S32x512.size a ≤ S512x512.size a
  inb_S18_S1_15 : ∀ a, (![15] : Fin 1 → Nat) a + S1.size a ≤ S18.size a
  inb_S16_S1_15 : ∀ a, (![15] : Fin 1 → Nat) a + S1.size a ≤ S16.size a
  inb_S512x512_S32x512_480_0 : ∀ a, (![480, 0] : Fin 2 → Nat) a + S32x512.size a ≤ S512x512.size a
  inb_S18_S1_16 : ∀ a, (![16] : Fin 1 → Nat) a + S1.size a ≤ S18.size a
  inb_S18_S1_17 : ∀ a, (![17] : Fin 1 → Nat) a + S1.size a ≤ S18.size a
  inb_S14_S1_0 : ∀ a, (![0] : Fin 1 → Nat) a + S1.size a ≤ S14.size a
  h_S32x512 : 0 < S32x512.numel
  shapeCasts_S32x512_S32x512 : S32x512.ShapeCasts S32x512
  inb_S14_S1_1 : ∀ a, (![1] : Fin 1 → Nat) a + S1.size a ≤ S14.size a
  inb_S14_S1_2 : ∀ a, (![2] : Fin 1 → Nat) a + S1.size a ≤ S14.size a
  inb_S14_S1_3 : ∀ a, (![3] : Fin 1 → Nat) a + S1.size a ≤ S14.size a
  inb_S14_S1_4 : ∀ a, (![4] : Fin 1 → Nat) a + S1.size a ≤ S14.size a
  inb_S14_S1_5 : ∀ a, (![5] : Fin 1 → Nat) a + S1.size a ≤ S14.size a
  inb_S14_S1_6 : ∀ a, (![6] : Fin 1 → Nat) a + S1.size a ≤ S14.size a
  inb_S14_S1_7 : ∀ a, (![7] : Fin 1 → Nat) a + S1.size a ≤ S14.size a
  inb_S14_S1_8 : ∀ a, (![8] : Fin 1 → Nat) a + S1.size a ≤ S14.size a
  inb_S14_S1_9 : ∀ a, (![9] : Fin 1 → Nat) a + S1.size a ≤ S14.size a
  inb_S14_S1_10 : ∀ a, (![10] : Fin 1 → Nat) a + S1.size a ≤ S14.size a
  inb_S14_S1_11 : ∀ a, (![11] : Fin 1 → Nat) a + S1.size a ≤ S14.size a
  inb_S14_S1_12 : ∀ a, (![12] : Fin 1 → Nat) a + S1.size a ≤ S14.size a
  inb_S14_S1_13 : ∀ a, (![13] : Fin 1 → Nat) a + S1.size a ≤ S14.size a
  hcc0_scratch2 : 2 + S18.numel ≤ 66
  hcc0_scratch3 : 20 + S16.numel ≤ 66
  hcc0_scratch4 : 36 + S14.numel ≤ 66
  hcc0_scratch5 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (32 * r.val))) a + S32x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off2_inb : ∀ d0 : Dev nD, ∀ (r : Fin 2), ∀ a, (k0_off2 d0 (BitVec.ofNat 32 (448 + 32 * r.val))) a + S32x512.size a ≤ S1024x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off3_inb : ∀ d0 : Dev nD, ∀ (r : Fin 16), ∀ a, (k0_off3 d0 (BitVec.ofNat 32 (32 * r.val))) a + S32x512.size a ≤ S1024x512.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off4_inb : ∀ d0 : Dev nD, ∀ (r : Fin 16), ∀ a, (k0_off4 d0 (BitVec.ofNat 32 (32 * r.val))) a + S32x512.size a ≤ S1024x512.size a
  hstage0_0 : ∀ j, (stage0_0 j).IsWhole
  hstage0_1 : ∀ j, (stage0_1 j).IsWhole

variable [Facts₀]

abbrev cc0_scratch2 : DmaSems sig S18 := SemArray.consecutive 2 S18 hcc0_scratch2
abbrev cc0_scratch3 : DmaSems sig S16 := SemArray.consecutive 20 S16 hcc0_scratch3
abbrev cc0_scratch4 : DmaSems sig S14 := SemArray.consecutive 36 S14 hcc0_scratch4
abbrev cc0_scratch5 : DmaSems sig S16 := SemArray.consecutive 50 S16 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel

variable [Facts₀]

class Facts : Prop extends Facts₀ where

variable [Facts]
-- ==== Proof.Proto.lean ====
import proofs.«900710_g7700000000000711_dist_ar_v7x_xyz2x2x4_y_m1024_n512_f32_1_alg».proof.Proof.Gen.KernelIdeal
import proofs.«900710_g7700000000000711_dist_ar_v7x_xyz2x2x4_y_m1024_n512_f32_1_alg».proof.Proof.Gen.KernelIdeal.Skeleton
import proofs.«900710_g7700000000000711_dist_ar_v7x_xyz2x2x4_y_m1024_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ
abbrev 𝒱₀ : Variants := Variants.none

abbrev EP : Emb (UR sig nD τ) (MT nD τ sig Unit (Elt F) ℕ UU ℕ) := embL
abbrev ER : Emb UB (MT nD τ sig Unit (Elt F) ℕ UU ℕ) := embR

/-! ## The mesh

Device `d` sits at `(x, y, z) = (d / 8, (d / 4) % 2, d % 4)`. Its partner along `y` flips the middle
coordinate, its partner along `x` the first. -/

def yp (c : Dev nD) : Dev nD :=
  ⟨(8 * (c.val / 8) + c.val % 4 + 4) - 4 * ((c.val / 4) % 2), by have h : c.val < 16 := c.isLt; show _ < 16; omega⟩
def xp (c : Dev nD) : Dev nD :=
  ⟨(4 * ((c.val / 4) % 2) + c.val % 4 + 8) - 8 * (c.val / 8), by have h : c.val < 16 := c.isLt; show _ < 16; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide
theorem yp_div (c : Dev nD) : (yp c).val / 8 = c.val / 8 := by revert c; decide
theorem xp_div (c : Dev nD) : (xp c).val / 8 = 1 - c.val / 8 := by revert c; decide
theorem div8_le (c : Dev nD) : c.val / 8 ≤ 1 := by have h : c.val < 16 := c.isLt; omega

def ypE : Dev nD ≃ Dev nD := ⟨yp, yp, yp_yp, yp_yp⟩
def xpE : Dev nD ≃ Dev nD := ⟨xp, xp, xp_xp, xp_xp⟩

/-! ## Memrefs, chunks and cells -/

abbrev xS : Memref sig .tc .vmem S1024x512 .f32 := Memref.whole cc0_stg0_0
abbrev oS : Memref sig .tc .vmem S1024x512 .f32 := Memref.whole cc0_stg1_0
abbrev yB : Memref sig .tc .vmem S512x512 .f32 := Memref.whole cc0_scratch0
abbrev xB : Memref sig .tc .vmem S512x512 .f32 := Memref.whole cc0_scratch1

theorem chunk_inb (k : ℕ) : ∀ a, (![32 * (k % 16), 0] : Fin 2 → Nat) a + S32x512.size a ≤ S512x512.size a := by
  intro a; have h : k % 16 < 16 := Nat.mod_lt _ (by decide)
  fin_cases a
  · show 32 * (k % 16) + 32 ≤ 512; omega
  · show 0 + 512 ≤ 512; omega

/-- Rows `32 k … 32 k + 31` of a 512-row scratch buffer. -/
abbrev chunkR (k : ℕ) : Rect S512x512 := Rect.unit (s := S512x512) ![32 * (k % 16), 0] S32x512.size (chunk_inb k)
abbrev yCh (k : ℕ) : Memref sig .tc .vmem S32x512 .f32 := yB.slice (chunkR k) (fun _ => rfl)
abbrev xCh (k : ℕ) : Memref sig .tc .vmem S32x512 .f32 := xB.slice (chunkR k) (fun _ => rfl)

abbrev f16 (k : ℕ) : Fin 16 := ⟨k % 16, Nat.mod_lt _ (by decide)⟩
abbrev f2 (r : ℕ) : Fin 2 := ⟨r % 2, Nat.mod_lt _ (by decide)⟩

/-- The rows of this device's block that it sends to its `y` partner in chunk `k` (its own half), -/
abbrev xRow1 (c : Dev nD) (k : ℕ) : Memref sig .tc .vmem S32x512 .f32 :=
  xS.slice (Rect.unit (s := S1024x512) (k0_off1 c (BitVec.ofNat 32 (32 * (f16 k).val))) S32x512.size (k0_off1_inb c (f16 k))) (fun _ => rfl)
/-- and the rows of the other half it sends there directly (chunks 14 and 15). -/
abbrev xRow2 (c : Dev nD) (r : ℕ) : Memref sig .tc .vmem S32x512 .f32 :=
  xS.slice (Rect.unit (s := S1024x512) (k0_off2 c (BitVec.ofNat 32 (448 + 32 * (f2 r).val))) S32x512.size (k0_off2_inb c (f2 r))) (fun _ => rfl)

abbrev barS : Sem sig := (SemArray.scalar (sig.barrier 0 rfl) : Sems sig S_).sem
abbrev barCell (c : Dev nD) : GSem nD τ sig := ((c : Thread nD τ), .reg barS)
/-- DMA semaphore number `n`. -/
def dsem (n : ℕ) : DmaSem sig := ⟨n % 66, Nat.mod_lt _ (by decide)⟩
abbrev dcell (c : Dev nD) (n : ℕ) : GSem nD τ sig := ((c : Thread nD τ), .dma (dsem n))
abbrev ySendC (c : Dev nD) (k : ℕ) := dcell c (2 + k)
abbrev yRecvC (c : Dev nD) (k : ℕ) := dcell c (20 + k)
abbrev xSendC (c : Dev nD) (k : ℕ) := dcell c (36 + k)
abbrev xRecvC (c : Dev nD) (k : ℕ) := dcell c (50 + k)

/-- The credit of one 32-row transfer. -/
abbrev N32 : ℕ := (yCh 0 : Memref sig .tc .vmem S32x512 .f32).view.dmaCredit
theorem N32_pos : 0 < N32 := View.dmaCredit_pos _ (by decide)
theorem credit_y (k : ℕ) : (yCh k : Memref sig .tc .vmem S32x512 .f32).view.dmaCredit = N32 := rfl
theorem credit_x (k : ℕ) : (xCh k : Memref sig .tc .vmem S32x512 .f32).view.dmaCredit = N32 := rfl

example : ((SemArray.slice cc0_scratch2 (Rect.unit (s := S18) ![3] S1.size inb_S18_S1_3)).squeeze S_ squeezes_S1_S_).sem = dsem (2 + 3) := rfl
example : ((SemArray.slice cc0_scratch5 (Rect.unit (s := S16) ![15] S1.size inb_S16_S1_15)).squeeze S_ squeezes_S1_S_).sem = dsem (50 + 15) := rfl

end Cert.KernelIdeal.Hand
end
-- ==== Proof.Sched.lean ====
import proofs.«900710_g7700000000000711_dist_ar_v7x_xyz2x2x4_y_m1024_n512_f32_1_alg».proof.Proof.Proto

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `d`'s block of the input as its staging buffer holds it. -/
def xin (d : Dev nD) : (cc0_stg0_0 : Ref sig .tc).ty.Contents (Elt F) :=
  (win0_0.blk (0 : Fin 1)).view.read (Elt F) (m ((d : Thread nD τ).loc main_arg0))

/-- Row `b + i₀` (column `i₁`) of a 1024-row block, for `i` an index of a 512-row buffer. -/
def rowAt (b : ℕ) (i : S512x512.Idx) : S1024x512.Idx := fun a => match a with
  | ⟨0, _⟩ => ⟨(b + (i 0).val) % 1024, by show _ < 1024; exact Nat.mod_lt _ (by decide)⟩
  | ⟨1, _⟩ => ⟨(i 1).val, by have h : (i 1).val < 512 := (i 1).isLt; exact h⟩

/-- What device `o`'s first landing buffer ends holding: its `y` partner's rows of `o`'s own half. -/
def ybufVal (o : Dev nD) : Buf (Elt F) ((o : Thread nD τ).loc cc0_scratch0) :=
  fun i => xin m (yp o) (rowAt (512 * (o.val / 8)) i)
/-- What its second landing buffer ends holding: the other half's rows of the `y` partner's block — chunks 0 to 13
    forwarded by the `x` partner from ITS `y` partner, chunks 14 and 15 sent by the `y` partner directly. -/
def xbufVal (o : Dev nD) : Buf (Elt F) ((o : Thread nD τ).loc cc0_scratch1) :=
  fun i => if (i 0).val < 448 then xin m (yp (xp o)) (rowAt (512 - 512 * (o.val / 8)) i) else xin m (yp o) (rowAt (512 - 512 * (o.val / 8)) i)

/-- The other summand of the result at row `i₀`: the `y` partner's block there — read from the `x` partner's `y` partner
    where it came forwarded. -/
def parVal (c : Dev nD) : (cc0_stg1_0 : Ref sig .tc).ty.Contents (Elt F) :=
  fun i => if (i 0).val / 512 = c.val / 8 then xin m (yp c) i else if (i 0).val % 512 < 448 then xin m (yp (xp c)) i else xin m (yp c) i
/-- The kernel's result on device `c`: its block plus its `y` partner's. -/
def outVal (c : Dev nD) : (cc0_stg1_0 : Ref sig .tc).ty.Contents (Elt F) :=
  fun i => FloatOps.addf (xin m c i) (parVal m c i)

/-! ## The schedule

One round. A barrier cell has two duties of one unit: `false`, paid by the `y` partner, which hands over its first landing
buffer (in sixteen chunks) and chunks 14, 15 of its second; `true`, paid by the `x` partner, which hands over chunks 0–13 of its
second landing buffer. Every DMA cell from number 2 on has the one duty `false` of a chunk's credit: a send cell's hands the
source rows back, a receive cell's hands over the chunk landed. -/

def barPayY (o : Dev nD) : sProp 𝕄 :=
  iprop((bigSep Finset.univ fun k : Fin 16 => iprop(∃ f, (yCh k.val).view.loc (yp o : Thread nD τ) ↦[(yCh k.val).view.set]{fullShare} f))
    ∗ bigSep Finset.univ fun r : Fin 2 => iprop(∃ f, (xCh (14 + r.val)).view.loc (yp o : Thread nD τ) ↦[(xCh (14 + r.val)).view.set]{fullShare} f))
def barPayX (o : Dev nD) : sProp 𝕄 :=
  bigSep Finset.univ fun k : Fin 14 => iprop(∃ f, (xCh k.val).view.loc (xp o : Thread nD τ) ↦[(xCh k.val).view.set]{fullShare} f)

def ySendPay (o : Dev nD) (k : ℕ) : sProp 𝕄 := (xRow1 o k).view.loc (o : Thread nD τ) ↦[(xRow1 o k).view.set]{fullShare.right} xin m o
def tSendPay (o : Dev nD) (r : ℕ) : sProp 𝕄 := (xRow2 o r).view.loc (o : Thread nD τ) ↦[(xRow2 o r).view.set]{fullShare.right} xin m o
def yRecvPay (o : Dev nD) (k : ℕ) : sProp 𝕄 := (yCh k).view.loc (o : Thread nD τ) ↦[(yCh k).view.set]{fullShare} ybufVal m o
def xSendPay (o : Dev nD) (k : ℕ) : sProp 𝕄 := (yCh k).view.loc (o : Thread nD τ) ↦[(yCh k).view.set]{fullShare.right} ybufVal m o
def xRecvPay (o : Dev nD) (k : ℕ) : sProp 𝕄 := (xCh k).view.loc (o : Thread nD τ) ↦[(xCh k).view.set]{fullShare} xbufVal m o

def dmaPay (o : Dev nD) (n : ℕ) : sProp 𝕄 :=
  if n < 2 then iprop(emp) else if n < 18 then ySendPay m o (n - 2) else if n < 20 then tSendPay m o (n - 18)
  else if n < 36 then yRecvPay m o (n - 20) else if n < 50 then xSendPay m o (n - 36) else xRecvPay m o (n - 50)

def sched : Rounds.Schedule (GSem nD τ sig) Bool 𝕄 where
  duties g r := if r = 0 then (match g.2 with | .reg _ => Finset.univ | .dma j => if 2 ≤ j.val then {false} else ∅) else ∅
  amount g _ _ := match g.2 with | .reg _ => 1 | .dma _ => N32
  payload g _ d := match g.2 with
    | .reg _ => if d then barPayX g.1.1 else barPayY g.1.1
    | .dma j => dmaPay m g.1.1 j.val
  amount_pos g _ _ _ := by
    cases g.2 with
    | reg _ => exact Nat.one_pos
    | dma _ => exact N32_pos

instance sched_payload_storable (g : GSem nD τ sig) (r : ℕ) (d : Bool) :
    BI.Storable (upEmb : UEmb _ 𝕄) ((sched (F := F) m).payload g r d) := by
  show BI.Storable upEmb (match g.2 with
    | .reg _ => if d then barPayX g.1.1 else barPayY g.1.1
    | .dma j => dmaPay m g.1.1 j.val)
  unfold barPayX barPayY dmaPay ySendPay tSendPay yRecvPay xSendPay xRecvPay
  (repeat' split) <;> infer_instance

end Cert.KernelIdeal.Hand
end
-- ==== Proof.Data.lean ====
import proofs.«900710_g7700000000000711_dist_ar_v7x_xyz2x2x4_y_m1024_n512_f32_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells, indexed -/

/-- Device `d`'s 65 cells of the protocol: its barrier cell, then DMA semaphores 2 … 65. -/
abbrev kcell (dn : Dev nD × Fin 65) : GSem nD τ sig := if dn.2.val = 0 then barCell dn.1 else dcell dn.1 (dn.2.val + 1)

/-! ## What a device owes

At launch a device owes one unit to each partner's barrier cell and a chunk's credit to the receive cell of every transfer
it will make: sixteen into the `y` partner's first buffer, two into its second, fourteen into the `x` partner's second.
`owedAt` is what is left once the first `nY`, `nT`, `nF` of them are made and the signals `b₁`, `b₂` sent. -/

def owedAt (c : Dev nD) (b₁ b₂ : Bool) (nY nT nF : ℕ) : CellTallies nD τ sig Unit :=
  (if b₁ then 0 else tallyAt (barCell (yp c)) () 1) + (if b₂ then 0 else tallyAt (barCell (xp c)) () 1)
    + (∑ k ∈ Finset.Ico nY 16, tallyAt (yRecvC (yp c) k) () N32)
    + (∑ r ∈ Finset.Ico nT 2, tallyAt (xRecvC (yp c) (14 + r)) () N32)
    + (∑ k ∈ Finset.Ico nF 14, tallyAt (xRecvC (xp c) k) () N32)

def O₀ (c : Dev nD) : CellTallies nD τ sig Unit := owedAt c false false 0 0 0

def L (g : GSem nD τ sig) : Finset Unit := if g.1.2 = .tc then {()} else ∅
/-- barrier cells at 1, the first buffer's receive cells at 2, the second's at 3, everything else (staging, send) at 0. -/
def lv (g : GSem nD τ sig) (_ : Unit) : ℕ := match g.2 with
  | .reg _ => 1
  | .dma j => if 20 ≤ j.val ∧ j.val < 36 then 2 else if 50 ≤ j.val then 3 else 0

/-! ## The ghost state a device starts from -/

/-- Every cell's invariant, under the names the launch allocated, and that round 0 of every cell is reached. -/
def records (K : Dev nD × Fin 65 → ℕ) : sProp 𝕄 :=
  iprop((bigSep Finset.univ fun dn : Dev nD × Fin 65 => cellInv ER (sched m) (K dn) (kcell dn))
    ∗ bigSep Finset.univ fun dn : Dev nD × Fin 65 => reached ER (kcell dn) 0)

instance records_persistent (K : Dev nD × Fin 65 → ℕ) : BI.Persistent (records m K) := by unfold records; infer_instance

/-- The tokens of the duties device `c` pays: the two barrier signals, the receive cell of each of its 32 transfers, and its own
    32 send cells. -/
def payToks (c : Dev nD) : sProp 𝕄 :=
  iprop(dutyTok ER (barCell (yp c)) 0 false ∗ dutyTok ER (barCell (xp c)) 0 true
    ∗ (bigSep Finset.univ fun k : Fin 16 => dutyTok ER (yRecvC (yp c) k.val) 0 false)
    ∗ (bigSep Finset.univ fun r : Fin 2 => dutyTok ER (xRecvC (yp c) (14 + r.val)) 0 false)
    ∗ (bigSep Finset.univ fun k : Fin 14 => dutyTok ER (xRecvC (xp c) k.val) 0 false)
    ∗ (bigSep Finset.univ fun k : Fin 18 => dutyTok ER (ySendC c k.val) 0 false)
    ∗ (bigSep Finset.univ fun k : Fin 14 => dutyTok ER (xSendC c k.val) 0 false))

/-- Its positions: round 0 of each of its own 65 cells, nothing consumed. -/
def positions (c : Dev nD) : sProp 𝕄 := bigSep Finset.univ fun n : Fin 65 => atPos ER (kcell (c, n)) 0 ∅ 0

def ghost (K : Dev nD × Fin 65 → ℕ) (c : Dev nD) : sProp 𝕄 := iprop(records m K ∗ positions c ∗ payToks c)

/-- The credit its own receive cells are dealt at launch (what its partners owe them): the barrier's two units, a chunk's
    credit for each of its 32 receive cells. -/
def creds (c : Dev nD) : sProp 𝕄 :=
  iprop(cred (tallyAt (barCell c) () 2)
    ∗ (bigSep Finset.univ fun k : Fin 16 => cred (tallyAt (yRecvC c k.val) () N32))
    ∗ (bigSep Finset.univ fun k : Fin 16 => cred (tallyAt (xRecvC c k.val) () N32)))

def start (c : Dev nD) : sProp 𝕄 := iprop((∃ K, ghost m K c) ∗ creds c ∗ levAts L lv)

/-- The two landing buffers, whole, at some contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ bufs c)
/-- After the point: the landing buffers back, the 64 own DMA cells closed at zero. -/
def Φ₁ (c : Dev nD) : sProp 𝕄 := iprop(bufs c ∗ bigSep Finset.univ fun n : Fin 64 => semVal (dcell c (n.val + 2)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => outVal m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, -/
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- and what it ends with. -/
def bodyPost (c : Dev nD) : sProp 𝕄 :=
  iprop(Φ₁ c ∗ (dats m ρ 0 c).owesAt () t₀.succ ∗ stg c cc0_stg0_0 (xin m c) ∗ stg c cc0_stg1_0 (outVal m c))

end Cert.KernelIdeal.Hand
end
-- ==== Proof.Tables.lean ====
import proofs.«900710_g7700000000000711_dist_ar_v7x_xyz2x2x4_y_m1024_n512_f32_1_alg».proof.Proof.Data

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The schedule's tables -/

section Tables
variable (c : Dev nD)

omit [FloatOps F] in
theorem dsem_val (n : ℕ) (h66 : n < 66) : (dsem n).val = n := Nat.mod_eq_of_lt h66

theorem duties_bar : (sched (F := F) m).duties (barCell c) 0 = Finset.univ := by
  dsimp only [sched]; exact if_pos rfl
theorem duties_dma (n : ℕ) (h2 : 2 ≤ n) (h66 : n < 66) : (sched (F := F) m).duties (dcell c n) 0 = {false} := by
  dsimp only [sched]; rw [if_pos rfl]; exact if_pos (by rw [dsem_val n h66]; exact h2)
theorem duties_later (g : GSem nD τ sig) : ∀ r, 1 ≤ r → (sched (F := F) m).duties g r = ∅ := by
  intro r hr; dsimp only [sched]; exact if_neg (by omega)
theorem amount_bar (d : Bool) : (sched (F := F) m).amount (barCell c) 0 d = 1 := by
  rfl
theorem amount_dma (n : ℕ) (d : Bool) : (sched (F := F) m).amount (dcell c n) 0 d = N32 := by
  rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (n : ℕ) (h2 : 2 ≤ n) (h66 : n < 66) : (sched (F := F) m).expect (dcell c n) 0 = N32 := by
  unfold Schedule.expect Schedule.amountOf; rw [duties_dma m c n h2 h66, Finset.sum_singleton, amount_dma]
theorem payload_bar_false : (sched (F := F) m).payload (barCell c) 0 false = barPayY c := by
  dsimp only [sched]; exact if_neg Bool.false_ne_true
theorem payload_bar_true : (sched (F := F) m).payload (barCell c) 0 true = barPayX c := by
  dsimp only [sched]; exact if_pos rfl
theorem payload_ySend (k : ℕ) (hk : k < 16) (d : Bool) : (sched (F := F) m).payload (ySendC c k) 0 d = ySendPay m c k := by
  show dmaPay m c (dsem (2 + k)).val = _
  rw [dsem_val _ (by omega)]; unfold dmaPay
  rw [if_neg (by omega), if_pos (by omega), Nat.add_sub_cancel_left]
theorem payload_tSend (r : ℕ) (hr : r < 2) (d : Bool) : (sched (F := F) m).payload (ySendC c (16 + r)) 0 d = tSendPay m c r := by
  show dmaPay m c (dsem (2 + (16 + r))).val = _
  rw [dsem_val _ (by omega)]; unfold dmaPay
  rw [if_neg (by omega), if_neg (by omega), if_pos (by omega), show 2 + (16 + r) - 18 = r from by omega]
theorem payload_yRecv (k : ℕ) (hk : k < 16) (d : Bool) : (sched (F := F) m).payload (yRecvC c k) 0 d = yRecvPay m c k := by
  show dmaPay m c (dsem (20 + k)).val = _
  rw [dsem_val _ (by omega)]; unfold dmaPay
  rw [if_neg (by omega), if_neg (by omega), if_neg (by omega), if_pos (by omega), Nat.add_sub_cancel_left]
theorem payload_xSend (k : ℕ) (hk : k < 14) (d : Bool) : (sched (F := F) m).payload (xSendC c k) 0 d = xSendPay m c k := by
  show dmaPay m c (dsem (36 + k)).val = _
  rw [dsem_val _ (by omega)]; unfold dmaPay
  rw [if_neg (by omega), if_neg (by omega), if_neg (by omega), if_neg (by omega), if_pos (by omega), Nat.add_sub_cancel_left]
theorem payload_xRecv (k : ℕ) (hk : k < 16) (d : Bool) : (sched (F := F) m).payload (xRecvC c k) 0 d = xRecvPay m c k := by
  show dmaPay m c (dsem (50 + k)).val = _
  rw [dsem_val _ (by omega)]; unfold dmaPay
  rw [if_neg (by omega), if_neg (by omega), if_neg (by omega), if_neg (by omega), if_neg (by omega), Nat.add_sub_cancel_left]
/-- The rest of the barrier cell's round, no duty taken: both partners' payloads. -/
theorem rest_bar : bigSep ((sched (F := F) m).duties (barCell c) 0 \ ∅) (fun d => (sched (F := F) m).payload (barCell c) 0 d)
    = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (n : ℕ) (h2 : 2 ≤ n) (h66 : n < 66) :
    bigSep ((sched (F := F) m).duties (dcell c n) 0 \ ∅) (fun d => (sched (F := F) m).payload (dcell c n) 0 d) = dmaPay m c n := by
  rw [Finset.sdiff_empty, duties_dma m c n h2 h66, bigSep_singleton]
  show dmaPay m c (dsem n).val = _
  rw [dsem_val n h66]

/-! ## What is owed, one transfer at a time -/

/-- A sum over `[a, b)` with `a < b` is its first term plus the sum over `[a + 1, b)`. -/
theorem sum_Ico_peel {M : Type} [AddCommMonoid M] (f : ℕ → M) {a b : ℕ} (h : a < b) :
    ∑ k ∈ Finset.Ico a b, f k = f a + ∑ k ∈ Finset.Ico (a + 1) b, f k := by
  have e : Finset.Ico a b = insert a (Finset.Ico (a + 1) b) := by
    ext x; simp only [Finset.mem_insert, Finset.mem_Ico]; omega
  rw [e, Finset.sum_insert (by simp only [Finset.mem_Ico]; omega)]

theorem owedAt_sig1 (b₂ : Bool) (nY nT nF : ℕ) :
    owedAt c false b₂ nY nT nF = owedAt c true b₂ nY nT nF + tallyAt (barCell (yp c)) () 1 := by
  unfold owedAt
  rw [if_neg Bool.false_ne_true, if_pos rfl, zero_add]
  ac_rfl
theorem owedAt_sig2 (b₁ : Bool) (nY nT nF : ℕ) :
    owedAt c b₁ false nY nT nF = owedAt c b₁ true nY nT nF + tallyAt (barCell (xp c)) () 1 := by
  unfold owedAt
  rw [if_neg Bool.false_ne_true, if_pos rfl, add_zero]
  ac_rfl
theorem owedAt_y (b₁ b₂ : Bool) (nY nT nF : ℕ) (h : nY < 16) :
    owedAt c b₁ b₂ nY nT nF = owedAt c b₁ b₂ (nY + 1) nT nF + tallyAt (yRecvC (yp c) nY) () N32 := by
  unfold owedAt
  rw [sum_Ico_peel _ h]
  ac_rfl
theorem owedAt_t (b₁ b₂ : Bool) (nY nT nF : ℕ) (h : nT < 2) :
    owedAt c b₁ b₂ nY nT nF = owedAt c b₁ b₂ nY (nT + 1) nF + tallyAt (xRecvC (yp c) (14 + nT)) () N32 := by
  unfold owedAt
  rw [sum_Ico_peel _ h]
  ac_rfl
theorem owedAt_f (b₁ b₂ : Bool) (nY nT nF : ℕ) (h : nF < 14) :
    owedAt c b₁ b₂ nY nT nF = owedAt c b₁ b₂ nY nT (nF + 1) + tallyAt (xRecvC (xp c) nF) () N32 := by
  unfold owedAt
  rw [sum_Ico_peel _ h]
  ac_rfl
theorem owedAt_done : owedAt c true true 16 2 14 = 0 := by
  unfold owedAt
  rw [if_pos rfl, if_pos rfl, Finset.Ico_self, Finset.Ico_self, Finset.Ico_self, Finset.sum_empty, Finset.sum_empty, Finset.sum_empty]
  simp only [add_zero]

/-! ## The levels: every wait is below what is still owed -/

theorem L_tc (d : Dev nD) (sm : SemLoc sig) : L ((d : Thread nD τ), sm) = {()} := if_pos rfl

theorem lv_bar (d : Dev nD) (u : Unit) : lv (barCell d) u = 1 := rfl
theorem lv_yRecv (d : Dev nD) (k : ℕ) (hk : k < 16) (u : Unit) : lv (yRecvC d k) u = 2 := by
  dsimp only [lv]; rw [dsem_val _ (by omega)]; exact if_pos ⟨by omega, by omega⟩
theorem lv_xRecv (d : Dev nD) (k : ℕ) (hk : k < 16) (u : Unit) : lv (xRecvC d k) u = 3 := by
  dsimp only [lv]; rw [dsem_val _ (by omega), if_neg (by omega), if_pos (by omega)]

/-- Where what is owed is positive: at a partner's barrier cell while that signal is unsent, or at the receive cell of a
    transfer not yet made. -/
theorem owedAt_pos {b₁ b₂ : Bool} {nY nT nF : ℕ} {g : GSem nD τ sig} {u : Unit} (h : 0 < owedAt c b₁ b₂ nY nT nF g u) :
    (b₁ = false ∧ g = barCell (yp c)) ∨ (b₂ = false ∧ g = barCell (xp c)) ∨ (∃ k, nY ≤ k ∧ k < 16 ∧ g = yRecvC (yp c) k)
      ∨ (∃ r, nT ≤ r ∧ r < 2 ∧ g = xRecvC (yp c) (14 + r)) ∨ (∃ k, nF ≤ k ∧ k < 14 ∧ g = xRecvC (xp c) k) := by
  unfold owedAt at h
  rcases Pipeline.add_pos_cases h with h | h
  · rcases Pipeline.add_pos_cases h with h | h
    · rcases Pipeline.add_pos_cases h with h | h
      · rcases Pipeline.add_pos_cases h with h | h
        · cases b₁ with
          | true => rw [if_pos rfl] at h; exact absurd h (Nat.lt_irrefl 0)
          | false => rw [if_neg Bool.false_ne_true] at h; exact .inl ⟨rfl, (Pipeline.tallyAt_pos h).1⟩
        · cases b₂ with
          | true => rw [if_pos rfl] at h; exact absurd h (Nat.lt_irrefl 0)
          | false => rw [if_neg Bool.false_ne_true] at h; exact .inr (.inl ⟨rfl, (Pipeline.tallyAt_pos h).1⟩)
      · obtain ⟨k, hk, hp⟩ := Pipeline.sum_pos_exists h
        exact .inr (.inr (.inl ⟨k, (Finset.mem_Ico.mp hk).1, (Finset.mem_Ico.mp hk).2, (Pipeline.tallyAt_pos hp).1⟩))
    · obtain ⟨r, hr, hp⟩ := Pipeline.sum_pos_exists h
      exact .inr (.inr (.inr (.inl ⟨r, (Finset.mem_Ico.mp hr).1, (Finset.mem_Ico.mp hr).2, (Pipeline.tallyAt_pos hp).1⟩)))
  · obtain ⟨k, hk, hp⟩ := Pipeline.sum_pos_exists h
    exact .inr (.inr (.inr (.inr ⟨k, (Finset.mem_Ico.mp hk).1, (Finset.mem_Ico.mp hk).2, (Pipeline.tallyAt_pos hp).1⟩)))

theorem owedAt_mem_L {b₁ b₂ : Bool} {nY nT nF : ℕ} {g : GSem nD τ sig} {u : Unit} (h : 0 < owedAt c b₁ b₂ nY nT nF g u) : u ∈ L g := by
  rcases owedAt_pos c h with ⟨_, rfl⟩ | ⟨_, rfl⟩ | ⟨k, _, _, rfl⟩ | ⟨r, _, _, rfl⟩ | ⟨k, _, _, rfl⟩ <;>
    (rw [L_tc]; exact Finset.mem_singleton_self _)

/-- At its barrier wait a device owes only receive cells, all above the barrier cells. -/
theorem mayWait_bar : (levAts L lv : sProp 𝕄) ⊢ MayWait (c : Thread nD τ) (.reg barS) () (owedAt c true true 0 0 0) := by
  refine MayOwe.of_cut (L := L) (lev := lv) 1
    (fun p hp => by rw [Finset.mem_singleton.mp hp, L_tc]; exact Finset.mem_singleton_self _)
    (fun g u hg => owedAt_mem_L c hg)
    (fun p hp => by rw [Finset.mem_singleton.mp hp]; exact le_of_eq rfl)
    (fun g u hg => ?_)
  rcases owedAt_pos c hg with ⟨hb, _⟩ | ⟨hb, _⟩ | ⟨k, _, hk, rfl⟩ | ⟨r, _, hr, rfl⟩ | ⟨k, _, hk, rfl⟩
  · cases hb
  · cases hb
  · rw [lv_yRecv _ k hk]; decide
  · rw [lv_xRecv _ (14 + r) (by omega)]; decide
  · rw [lv_xRecv _ k (by omega)]; decide
/-- At a wait on a receive cell of its first buffer it owes only receive cells of the `x` partner's second buffer. -/
theorem mayWait_yRecv (k nF : ℕ) (hk : k < 16) :
    (levAts L lv : sProp 𝕄) ⊢ MayWait (c : Thread nD τ) (.dma (dsem (20 + k))) () (owedAt c true true 16 2 nF) := by
  refine MayOwe.of_cut (L := L) (lev := lv) 2
    (fun p hp => by rw [Finset.mem_singleton.mp hp, L_tc]; exact Finset.mem_singleton_self _)
    (fun g u hg => owedAt_mem_L c hg)
    (fun p hp => by rw [Finset.mem_singleton.mp hp]; exact le_of_eq (lv_yRecv c k hk ()))
    (fun g u hg => ?_)
  rcases owedAt_pos c hg with ⟨hb, _⟩ | ⟨hb, _⟩ | ⟨k', h1, h2, _⟩ | ⟨r, h1, h2, _⟩ | ⟨k', _, hk', rfl⟩
  · cases hb
  · cases hb
  · omega
  · omega
  · rw [lv_xRecv _ k' (by omega)]; decide
/-- The pipeline's staging cells (DMA semaphores 0 and 1) sit below everything. -/
theorem mayWait_stage (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => owedAt_mem_L c (show 0 < owedAt c false false 0 0 0 g u from hg))
      (fun p hp => by
        rw [Finset.mem_singleton.mp hp]
        refine le_of_eq ?_
        dsimp only [lv]
        rw [if_neg (by omega), if_neg (by omega)])
      (fun g u hg => ?_)
    rcases owedAt_pos c (show 0 < owedAt c false false 0 0 0 g u from hg) with
      ⟨_, rfl⟩ | ⟨_, rfl⟩ | ⟨k, _, hk, rfl⟩ | ⟨r, _, hr, rfl⟩ | ⟨k, _, hk, rfl⟩
    · rw [lv_bar]; decide
    · rw [lv_bar]; decide
    · rw [lv_yRecv _ k hk]; decide
    · rw [lv_xRecv _ (14 + r) (by omega)]; decide
    · rw [lv_xRecv _ k (by omega)]; decide
  · rw [MayWait_zero]; iintro -; iempintro

end Tables

/-- info: 'Cert.KernelIdeal.Hand.rest_dma' depends on axioms: [propext, Classical.choice, Quot.sound] -/
#guard_msgs in #print axioms rest_dma
/-- info: 'Cert.KernelIdeal.Hand.owedAt_f' depends on axioms: [propext, Classical.choice, Quot.sound] -/
#guard_msgs in #print axioms owedAt_f
/-- info: 'Cert.KernelIdeal.Hand.mayWait_yRecv' depends on axioms: [propext, Classical.choice, Quot.sound] -/
#guard_msgs in #print axioms mayWait_yRecv
/-- info: 'Cert.KernelIdeal.Hand.mayWait_stage' depends on axioms: [propext, Classical.choice, Quot.sound] -/
#guard_msgs in #print axioms mayWait_stage

end Cert.KernelIdeal.Hand
end
-- ==== Proof.Steps0.lean ====
import proofs.«900710_g7700000000000711_dist_ar_v7x_xyz2x2x4_y_m1024_n512_f32_1_alg».proof.Proof.Tables

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over an interval of ℕ, one member at a time -/

omit [FloatOps F] in
theorem bigSep_Ico_peel {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp only [Finset.mem_Ico]; omega)]
  rfl

omit [FloatOps F] in
theorem bigSep_Ico_snoc {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp only [Finset.mem_Ico]; omega)]
  rfl

omit [FloatOps F] in
theorem bigSep_Ico_self (a : ℕ) (Φ : ℕ → sProp 𝕄) : bigSep (Finset.Ico a a) Φ = iprop(emp) := by
  rw [Finset.Ico_self, bigSep_empty]; rfl

/-! ## A cell's invariant and its reached round, out of the records -/

omit [FloatOps F] in
theorem kcell_bar (d : Dev nD) : kcell (d, (0 : Fin 65)) = barCell d := rfl
omit [FloatOps F] in
theorem kcell_dma (d : Dev nD) (j : ℕ) (h2 : 2 ≤ j) (h66 : j < 66) : kcell (d, (⟨j - 1, by omega⟩ : Fin 65)) = dcell d j := by
  unfold kcell
  rw [if_neg (show ¬ (j - 1 = 0) by omega)]
  show dcell d (j - 1 + 1) = dcell d j
  rw [Nat.sub_add_cancel (by omega)]

theorem inv_at (K : Dev nD × Fin 65 → ℕ) (dn : Dev nD × Fin 65) :
    (bigSep Finset.univ fun dn : Dev nD × Fin 65 => (cellInv ER (sched m) (K dn) (kcell dn) : sProp 𝕄)) ⊢ cellInv ER (sched m) (K dn) (kcell dn) :=
  bigSep_elim (Finset.mem_univ dn)
omit [FloatOps F] in
theorem reached_at (dn : Dev nD × Fin 65) :
    (bigSep Finset.univ fun dn : Dev nD × Fin 65 => (reached ER (kcell dn) 0 : sProp 𝕄)) ⊢ reached ER (kcell dn) 0 :=
  bigSep_elim (Finset.mem_univ dn)

theorem inv_bar (K : Dev nD × Fin 65 → ℕ) (d : Dev nD) : records m K ⊢ cellInv ER (sched m) (K (d, 0)) (barCell d) := by
  unfold records
  iintro ⟨HI, -⟩
  iapply (inv_at m K (d, 0)); iexact HI
theorem inv_dma (K : Dev nD × Fin 65 → ℕ) (d : Dev nD) (j : ℕ) (h2 : 2 ≤ j) (h66 : j < 66) :
    records m K ⊢ cellInv ER (sched m) (K (d, ⟨j - 1, by omega⟩)) (dcell d j) := by
  unfold records
  iintro ⟨HI, -⟩
  ihave H := (inv_at m K (d, ⟨j - 1, by omega⟩)) $$ HI
  rw [kcell_dma d j h2 h66]
  iexact H
theorem reached_bar (K : Dev nD × Fin 65 → ℕ) (d : Dev nD) : records m K ⊢ reached ER (barCell d) 0 := by
  unfold records
  iintro ⟨-, HR⟩
  iapply (reached_at (F := F) (d, 0)); iexact HR
theorem reached_dma (K : Dev nD × Fin 65 → ℕ) (d : Dev nD) (j : ℕ) (h2 : 2 ≤ j) (h66 : j < 66) : records m K ⊢ reached ER (dcell d j) 0 := by
  unfold records
  iintro ⟨-, HR⟩
  ihave H := (reached_at (F := F) (d, ⟨j - 1, by omega⟩)) $$ HR
  rw [kcell_dma d j h2 h66]
  iexact H

end Cert.KernelIdeal.Hand
end
-- ==== Proof.Fam.lean ====
import proofs.«900710_g7700000000000711_dist_ar_v7x_xyz2x2x4_y_m1024_n512_f32_1_alg».proof.Proof.Steps0

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The resources of the body, as families over a trip count

Each family is indexed by the chunk (or transfer) number; the body holds it over an interval that shrinks or grows by one
member per step. -/

/-- The source rows of the transfer of chunk `k` to the `y` partner, at the right half-share; of the direct transfer `r`. -/
def ySrc (c : Dev nD) (k : ℕ) : sProp 𝕄 := (xRow1 c k).view.loc (c : Thread nD τ) ↦[(xRow1 c k).view.set]{fullShare.right} xin m c
def tSrc (c : Dev nD) (r : ℕ) : sProp 𝕄 := (xRow2 c r).view.loc (c : Thread nD τ) ↦[(xRow2 c r).view.set]{fullShare.right} xin m c
/-- Chunk `k` of device `d`'s first (second) landing buffer at some contents. -/
def yDst (d : Dev nD) (k : ℕ) : sProp 𝕄 := iprop(∃ f, (yCh k).view.loc (d : Thread nD τ) ↦[(yCh k).view.set]{fullShare} f)
def xDst (d : Dev nD) (k : ℕ) : sProp 𝕄 := iprop(∃ f, (xCh k).view.loc (d : Thread nD τ) ↦[(xCh k).view.set]{fullShare} f)
/-- Chunk `k` of device `c`'s first landing buffer holding what landed, at share `q`; of its second. -/
def yGot (c : Dev nD) (q : PosShare TreeShare) (k : ℕ) : sProp 𝕄 := (yCh k).view.loc (c : Thread nD τ) ↦[(yCh k).view.set]{q} ybufVal m c
def xGot (c : Dev nD) (k : ℕ) : sProp 𝕄 := (xCh k).view.loc (c : Thread nD τ) ↦[(xCh k).view.set]{fullShare} xbufVal m c

/-- Duty tokens, credit, positions and closed counters of the four kinds of DMA cells. -/
def tokYS (d : Dev nD) (k : ℕ) : sProp 𝕄 := dutyTok ER (ySendC d k) 0 false
def tokYR (d : Dev nD) (k : ℕ) : sProp 𝕄 := dutyTok ER (yRecvC d k) 0 false
def tokXS (d : Dev nD) (k : ℕ) : sProp 𝕄 := dutyTok ER (xSendC d k) 0 false
def tokXR (d : Dev nD) (k : ℕ) : sProp 𝕄 := dutyTok ER (xRecvC d k) 0 false
def crYS (d : Dev nD) (k : ℕ) : sProp 𝕄 := cred (tallyAt (ySendC d k) () N32)
def crYR (d : Dev nD) (k : ℕ) : sProp 𝕄 := cred (tallyAt (yRecvC d k) () N32)
def crXS (d : Dev nD) (k : ℕ) : sProp 𝕄 := cred (tallyAt (xSendC d k) () N32)
def crXR (d : Dev nD) (k : ℕ) : sProp 𝕄 := cred (tallyAt (xRecvC d k) () N32)
def posYS (d : Dev nD) (k : ℕ) : sProp 𝕄 := atPos ER (ySendC d k) 0 ∅ 0
def posYR (d : Dev nD) (k : ℕ) : sProp 𝕄 := atPos ER (yRecvC d k) 0 ∅ 0
def posXS (d : Dev nD) (k : ℕ) : sProp 𝕄 := atPos ER (xSendC d k) 0 ∅ 0
def posXR (d : Dev nD) (k : ℕ) : sProp 𝕄 := atPos ER (xRecvC d k) 0 ∅ 0
def zYS (d : Dev nD) (k : ℕ) : sProp 𝕄 := semVal (ySendC d k) 0
def zYR (d : Dev nD) (k : ℕ) : sProp 𝕄 := semVal (yRecvC d k) 0
def zXS (d : Dev nD) (k : ℕ) : sProp 𝕄 := semVal (xSendC d k) 0
def zXR (d : Dev nD) (k : ℕ) : sProp 𝕄 := semVal (xRecvC d k) 0

/-- What a device owes, whatever it has waited on so far. -/
def owesE (c : Dev nD) (O : CellTallies nD τ sig Unit) : sProp 𝕄 := iprop(∃ W : Waits sig Unit, owes (c : Thread nD τ) O W)

end Cert.KernelIdeal.Hand
end
-- ==== Proof.Bufs.lean ====
import proofs.«900710_g7700000000000711_dist_ar_v7x_xyz2x2x4_y_m1024_n512_f32_1_alg».proof.Proof.Data
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Index sets over ℕ -/

omit [FloatOps F] in
/-- A family over `Fin n` read through `.val` is the family over `0 … n - 1`. -/
theorem bigSep_univ_fin (n : ℕ) (Φ : ℕ → sProp 𝕄) :
    bigSep Finset.univ (fun k : Fin n => Φ k.val) = bigSep (Finset.Ico 0 n) Φ := by
  have h : (Finset.univ : Finset (Fin n)).map Fin.valEmbedding = Finset.Ico 0 n := by
    ext i
    constructor
    · intro hi
      obtain ⟨k, -, rfl⟩ := Finset.mem_map.mp hi
      exact Finset.mem_Ico.mpr ⟨Nat.zero_le _, k.isLt⟩
    · intro hi
      exact Finset.mem_map.mpr ⟨⟨i, (Finset.mem_Ico.mp hi).2⟩, Finset.mem_univ _, rfl⟩
  rw [← h, bigSep_map]; rfl

/-! ## The landing buffers in chunks -/

/-- A chunk's element set is its rectangle of rows. -/
theorem ych_set (c : Dev nD) (k : ℕ) :
    ((yCh k).view.set : Finset (Idx ((yCh k).view.loc (c : Thread nD τ)))) = (chunkR k).set := View.set_slice_whole _ _
theorem xch_set (c : Dev nD) (k : ℕ) :
    ((xCh k).view.set : Finset (Idx ((xCh k).view.loc (c : Thread nD τ)))) = (chunkR k).set := View.set_slice_whole _ _

/-- Different chunks have different rows. -/
theorem chunk_disj (k k' : ℕ) (hk : k < 16) (hk' : k' < 16) (h : k ≠ k') : Disjoint (chunkR k).set (chunkR k').set := by
  refine Rect.unit_disjoint (0 : Fin 2) ?_
  show 32 * (k % 16) + 32 ≤ 32 * (k' % 16) ∨ 32 * (k' % 16) + 32 ≤ 32 * (k % 16)
  omega

/-- Row `r` lies in chunk `r / 32`: the sixteen chunks cover the buffer. -/
theorem chunk_cover : (Finset.univ : Finset S512x512.Idx) = (Finset.Ico 0 16).biUnion fun k => (chunkR k).set := by
  ext i
  simp only [Finset.mem_univ, true_iff, Finset.mem_biUnion]
  have h0 : (i 0).val < 512 := (i 0).isLt
  have h1 : (i 1).val < 512 := (i 1).isLt
  refine ⟨(i 0).val / 32, Finset.mem_Ico.mpr ⟨Nat.zero_le _, by omega⟩, Rect.mem_set_unit.mpr fun a => ?_⟩
  fin_cases a
  · show 32 * ((i 0).val / 32 % 16) ≤ (i 0).val ∧ (i 0).val < 32 * ((i 0).val / 32 % 16) + 32
    omega
  · show 0 ≤ (i 1).val ∧ (i 1).val < 0 + 512
    omega

omit [FloatOps F] in
/-- A whole buffer is the pieces of a cover by pairwise disjoint element sets, at one valuation. -/
theorem whole_eq_pieces {ℓ : Loc nD τ sig} (K : ℕ → Finset (Idx ℓ)) (n : ℕ)
    (hd : ∀ k < n, ∀ k' < n, k ≠ k' → Disjoint (K k) (K k')) (hc : Finset.univ = (Finset.Ico 0 n).biUnion K)
    (q : PosShare TreeShare) (f : Buf (Elt F) ℓ) :
    (ℓ ↦{q} f : sProp 𝕄) = bigSep (Finset.Ico 0 n) fun k => ℓ ↦[K k]{q} f := by
  have h : (ℓ ↦[(Finset.Ico 0 n).biUnion K]{q} f : sProp 𝕄) = bigSep (Finset.Ico 0 n) fun k => ℓ ↦[K k]{q} f :=
    pointsTo_biUnion (Finset.Ico 0 n) K
      (fun k hk k' hk' hne => hd k (Finset.mem_Ico.mp hk).2 k' (Finset.mem_Ico.mp hk').2 hne)
  rw [← hc] at h
  exact h

omit [FloatOps F] in
/-- A whole buffer at some contents gives each piece at some contents. -/
theorem give_pieces {ℓ : Loc nD τ sig} (K : ℕ → Finset (Idx ℓ)) (n : ℕ)
    (hd : ∀ k < n, ∀ k' < n, k ≠ k' → Disjoint (K k) (K k')) (hc : Finset.univ = (Finset.Ico 0 n).biUnion K) :
    (iprop(∃ f : Buf (Elt F) ℓ, ℓ ↦{fullShare} f) : sProp 𝕄)
      ⊢ bigSep (Finset.Ico 0 n) fun k => iprop(∃ f : Buf (Elt F) ℓ, ℓ ↦[K k]{fullShare} f) := by
  refine exists_elim fun f => ?_
  rw [whole_eq_pieces K n hd hc]
  exact bigSep_mono fun k _ => exists_intro (Φ := fun g : Buf (Elt F) ℓ => (ℓ ↦[K k]{fullShare} g : sProp 𝕄)) f

theorem ych_disj (c : Dev nD) : ∀ k < 16, ∀ k' < 16, k ≠ k' →
    Disjoint ((yCh k).view.set : Finset (Idx ((c : Thread nD τ).loc cc0_scratch0))) (yCh k').view.set := fun k hk k' hk' h => by
  rw [ych_set c k, ych_set c k']; exact chunk_disj k k' hk hk' h
theorem xch_disj (c : Dev nD) : ∀ k < 16, ∀ k' < 16, k ≠ k' →
    Disjoint ((xCh k).view.set : Finset (Idx ((c : Thread nD τ).loc cc0_scratch1))) (xCh k').view.set := fun k hk k' hk' h => by
  rw [xch_set c k, xch_set c k']; exact chunk_disj k k' hk hk' h
theorem ych_cover (c : Dev nD) :
    (Finset.univ : Finset (Idx ((c : Thread nD τ).loc cc0_scratch0))) = (Finset.Ico 0 16).biUnion fun k => (yCh k).view.set := by
  simp only [ych_set c]; exact chunk_cover
theorem xch_cover (c : Dev nD) :
    (Finset.univ : Finset (Idx ((c : Thread nD τ).loc cc0_scratch1))) = (Finset.Ico 0 16).biUnion fun k => (xCh k).view.set := by
  simp only [xch_set c]; exact chunk_cover

theorem bufs_give_aux (c d e : Dev nD) (hd : c = d) (he : c = e) :
    (bufs c : sProp 𝕄) ⊢ iprop(
      ((bigSep Finset.univ fun k : Fin 16 => iprop(∃ f, (yCh k.val).view.loc (d : Thread nD τ) ↦[(yCh k.val).view.set]{fullShare} f))
        ∗ bigSep Finset.univ fun r : Fin 2 => iprop(∃ f, (xCh (14 + r.val)).view.loc (d : Thread nD τ) ↦[(xCh (14 + r.val)).view.set]{fullShare} f))
      ∗ bigSep Finset.univ fun k : Fin 14 => iprop(∃ f, (xCh k.val).view.loc (e : Thread nD τ) ↦[(xCh k.val).view.set]{fullShare} f)) := by
  subst hd; subst he
  rw [bigSep_univ_fin 16 (fun k => iprop(∃ f, (yCh k).view.loc (c : Thread nD τ) ↦[(yCh k).view.set]{fullShare} f)),
    bigSep_univ_fin 2 (fun r => iprop(∃ f, (xCh (14 + r)).view.loc (c : Thread nD τ) ↦[(xCh (14 + r)).view.set]{fullShare} f)),
    bigSep_univ_fin 14 (fun k => iprop(∃ f, (xCh k).view.loc (c : Thread nD τ) ↦[(xCh k).view.set]{fullShare} f))]
  have hy := give_pieces (F := F) (ℓ := (c : Thread nD τ).loc cc0_scratch0) (fun k => (yCh k).view.set) 16 (ych_disj c) (ych_cover c)
  have hx := give_pieces (F := F) (ℓ := (c : Thread nD τ).loc cc0_scratch1) (fun k => (xCh k).view.set) 16 (xch_disj c) (xch_cover c)
  have hI : Finset.Ico 0 16 = (Finset.Ico 0 2).map (addLeftEmbedding 14) ∪ Finset.Ico 0 14 := by decide
  have hD : Disjoint ((Finset.Ico 0 2).map (addLeftEmbedding 14)) (Finset.Ico 0 14) := by decide
  rw [hI, bigSep_union hD, bigSep_map] at hx
  have hx' : (iprop(∃ f : Buf (Elt F) ((c : Thread nD τ).loc cc0_scratch1), ((c : Thread nD τ).loc cc0_scratch1) ↦{fullShare} f) : sProp 𝕄)
      ⊢ iprop((bigSep (Finset.Ico 0 2) fun r => iprop(∃ f, (xCh (14 + r)).view.loc (c : Thread nD τ) ↦[(xCh (14 + r)).view.set]{fullShare} f))
        ∗ bigSep (Finset.Ico 0 14) fun k => iprop(∃ f, (xCh k).view.loc (c : Thread nD τ) ↦[(xCh k).view.set]{fullShare} f)) := hx
  unfold bufs
  iintro ⟨Hy, Hx⟩
  ihave Hy := hy $$ Hy
  ihave Hx := hx' $$ Hx
  icases Hx with ⟨Hx2, Hx14⟩
  isplitl [Hy Hx2]
  · isplitl [Hy]
    · iexact Hy
    · iexact Hx2
  · iexact Hx14

/-- A device's two landing buffers, whole at some contents, are what its two barrier signals hand over: the first buffer's
    sixteen chunks and the second's chunks 14, 15 to the `y` partner, the second's chunks 0–13 to the `x` partner. -/
theorem bufs_give (c : Dev nD) : (bufs c : sProp 𝕄) ⊢ iprop(barPayY (yp c) ∗ barPayX (xp c)) := by
  unfold barPayY barPayX
  exact bufs_give_aux c (yp (yp c)) (xp (xp c)) (yp_yp c).symm (xp_xp c).symm

/-- The first landing buffer's sixteen chunks, each holding what landed, are the buffer whole at some contents; -/
theorem ybuf_join (c : Dev nD) :
    bigSep (Finset.Ico 0 16) (fun k => ((yCh k).view.loc (c : Thread nD τ) ↦[(yCh k).view.set]{fullShare} ybufVal m c : sProp 𝕄))
      ⊢ iprop(∃ f : Buf (Elt F) ((c : Thread nD τ).loc cc0_scratch0), ((c : Thread nD τ).loc cc0_scratch0) ↦{fullShare} f) := by
  refine (Entails.of_eq ?_).trans (exists_intro (Φ := fun f : Buf (Elt F) ((c : Thread nD τ).loc cc0_scratch0) =>
    (((c : Thread nD τ).loc cc0_scratch0) ↦{fullShare} f : sProp 𝕄)) (ybufVal m c))
  exact (whole_eq_pieces (ℓ := (c : Thread nD τ).loc cc0_scratch0) (fun k => (yCh k).view.set) 16 (ych_disj c) (ych_cover c)
    fullShare (ybufVal m c)).symm
/-- likewise the second's. -/
theorem xbuf_join (c : Dev nD) :
    bigSep (Finset.Ico 0 16) (fun k => ((xCh k).view.loc (c : Thread nD τ) ↦[(xCh k).view.set]{fullShare} xbufVal m c : sProp 𝕄))
      ⊢ iprop(∃ f : Buf (Elt F) ((c : Thread nD τ).loc cc0_scratch1), ((c : Thread nD τ).loc cc0_scratch1) ↦{fullShare} f) := by
  refine (Entails.of_eq ?_).trans (exists_intro (Φ := fun f : Buf (Elt F) ((c : Thread nD τ).loc cc0_scratch1) =>
    (((c : Thread nD τ).loc cc0_scratch1) ↦{fullShare} f : sProp 𝕄)) (xbufVal m c))
  exact (whole_eq_pieces (ℓ := (c : Thread nD τ).loc cc0_scratch1) (fun k => (xCh k).view.set) 16 (xch_disj c) (xch_cover c)
    fullShare (xbufVal m c)).symm

/-! ## The input's staging buffer, shared out

The device keeps the left half-share of its whole block for its loads; the right half-share goes, rows by rows, to the eighteen
transfers that read it, the rows no transfer reads staying behind (`xRest`). -/

/-- The rows of the block that no transfer reads (the other half's first 448 rows). -/
def restSet (c : Dev nD) : Finset (Idx ((c : Thread nD τ).loc cc0_stg0_0)) :=
  Finset.univ \ ((Finset.Ico 0 16).biUnion (fun k => (xRow1 c k).view.set) ∪ (Finset.Ico 0 2).biUnion (fun r => (xRow2 c r).view.set))
def xRest (c : Dev nD) (f : Buf (Elt F) ((c : Thread nD τ).loc cc0_stg0_0)) : sProp 𝕄 :=
  ((c : Thread nD τ).loc cc0_stg0_0) ↦[restSet c]{fullShare.right} f

/-! ### The rows the transfers read -/

theorem xrow1_set (c : Dev nD) (k : ℕ) :
    ((xRow1 c k).view.set : Finset (Idx ((xRow1 c k).view.loc (c : Thread nD τ)))) =
      (Rect.unit (s := S1024x512) (k0_off1 c (BitVec.ofNat 32 (32 * (f16 k).val))) S32x512.size (k0_off1_inb c (f16 k))).set :=
  View.set_slice_whole _ _
theorem xrow2_set (c : Dev nD) (r : ℕ) :
    ((xRow2 c r).view.set : Finset (Idx ((xRow2 c r).view.loc (c : Thread nD τ)))) =
      (Rect.unit (s := S1024x512) (k0_off2 c (BitVec.ofNat 32 (448 + 32 * (f2 r).val))) S32x512.size (k0_off2_inb c (f2 r))).set :=
  View.set_slice_whole _ _

theorem xrow11_disj (c : Dev nD) (k k' : ℕ) (hk : k < 16) (hk' : k' < 16) (h : k ≠ k') :
    Disjoint ((xRow1 c k).view.set : Finset (Idx ((c : Thread nD τ).loc cc0_stg0_0))) (xRow1 c k').view.set := by
  rw [xrow1_set c k, xrow1_set c k']
  refine Rect.unit_disjoint (0 : Fin 2) ?_
  rw [k0_off1_eq c (f16 k), k0_off1_eq c (f16 k')]
  show 512 * (c.val / 8) + 32 * (k % 16) + 32 ≤ 512 * (c.val / 8) + 32 * (k' % 16)
    ∨ 512 * (c.val / 8) + 32 * (k' % 16) + 32 ≤ 512 * (c.val / 8) + 32 * (k % 16)
  omega

theorem xrow22_disj (c : Dev nD) (r r' : ℕ) (hr : r < 2) (hr' : r' < 2) (h : r ≠ r') :
    Disjoint ((xRow2 c r).view.set : Finset (Idx ((c : Thread nD τ).loc cc0_stg0_0))) (xRow2 c r').view.set := by
  rw [xrow2_set c r, xrow2_set c r']
  refine Rect.unit_disjoint (0 : Fin 2) ?_
  rw [k0_off2_eq c (f2 r), k0_off2_eq c (f2 r')]
  have hc := div8_le c
  show (32 * (r % 2) + 960) - 512 * (c.val / 8) + 32 ≤ (32 * (r' % 2) + 960) - 512 * (c.val / 8)
    ∨ (32 * (r' % 2) + 960) - 512 * (c.val / 8) + 32 ≤ (32 * (r % 2) + 960) - 512 * (c.val / 8)
  omega

theorem xrow12_disj (c : Dev nD) (k r : ℕ) :
    Disjoint ((xRow1 c k).view.set : Finset (Idx ((c : Thread nD τ).loc cc0_stg0_0))) (xRow2 c r).view.set := by
  rw [xrow1_set c k, xrow2_set c r]
  refine Rect.unit_disjoint (0 : Fin 2) ?_
  rw [k0_off1_eq c (f16 k), k0_off2_eq c (f2 r)]
  have hc := div8_le c
  show 512 * (c.val / 8) + 32 * (k % 16) + 32 ≤ (32 * (r % 2) + 960) - 512 * (c.val / 8)
    ∨ (32 * (r % 2) + 960) - 512 * (c.val / 8) + 32 ≤ 512 * (c.val / 8) + 32 * (k % 16)
  omega

/-- The staging buffer of the input at the full share is its left half-share whole and its right half-share cut into the rows the
    eighteen transfers read and the rest. -/
theorem xstage_core (c : Dev nD) (f : Buf (Elt F) ((c : Thread nD τ).loc cc0_stg0_0)) :
    (((c : Thread nD τ).loc cc0_stg0_0) ↦{fullShare} f : sProp 𝕄)
      = iprop((((c : Thread nD τ).loc cc0_stg0_0) ↦{fullShare.left} f)
        ∗ (((bigSep (Finset.Ico 0 16) fun k => ((xRow1 c k).view.loc (c : Thread nD τ) ↦[(xRow1 c k).view.set]{fullShare.right} f))
          ∗ (bigSep (Finset.Ico 0 2) fun r => ((xRow2 c r).view.loc (c : Thread nD τ) ↦[(xRow2 c r).view.set]{fullShare.right} f)))
        ∗ xRest c f)) := by
  have hA : (((c : Thread nD τ).loc cc0_stg0_0) ↦[(Finset.Ico 0 16).biUnion fun k => (xRow1 c k).view.set]{fullShare.right} f : sProp 𝕄)
      = bigSep (Finset.Ico 0 16) fun k => ((xRow1 c k).view.loc (c : Thread nD τ) ↦[(xRow1 c k).view.set]{fullShare.right} f) :=
    pointsTo_biUnion (ℓ := (c : Thread nD τ).loc cc0_stg0_0) (Finset.Ico 0 16) (fun k => (xRow1 c k).view.set)
      (fun k hk k' hk' h => xrow11_disj c k k' (Finset.mem_Ico.mp hk).2 (Finset.mem_Ico.mp hk').2 h)
  have hB : (((c : Thread nD τ).loc cc0_stg0_0) ↦[(Finset.Ico 0 2).biUnion fun r => (xRow2 c r).view.set]{fullShare.right} f : sProp 𝕄)
      = bigSep (Finset.Ico 0 2) fun r => ((xRow2 c r).view.loc (c : Thread nD τ) ↦[(xRow2 c r).view.set]{fullShare.right} f) :=
    pointsTo_biUnion (ℓ := (c : Thread nD τ).loc cc0_stg0_0) (Finset.Ico 0 2) (fun r => (xRow2 c r).view.set)
      (fun r hr r' hr' h => xrow22_disj c r r' (Finset.mem_Ico.mp hr).2 (Finset.mem_Ico.mp hr').2 h)
  have hU : Disjoint (α := Finset (Idx ((c : Thread nD τ).loc cc0_stg0_0))) ((Finset.Ico 0 16).biUnion fun k => (xRow1 c k).view.set)
      ((Finset.Ico 0 2).biUnion fun r => (xRow2 c r).view.set) :=
    by
    rw [Finset.disjoint_biUnion_left]; intro k _
    rw [Finset.disjoint_biUnion_right]; intro r _
    exact xrow12_disj c k r
  have h1 : (((c : Thread nD τ).loc cc0_stg0_0) ↦{fullShare} f : sProp 𝕄)
      ⊣⊢ iprop((((c : Thread nD τ).loc cc0_stg0_0) ↦{fullShare.left} f) ∗ ((c : Thread nD τ).loc cc0_stg0_0) ↦{fullShare.right} f) :=
    pointsTo_share (PosShare.mem_left_op_right fullShare)
  have h2 : (((c : Thread nD τ).loc cc0_stg0_0) ↦{fullShare.right} f : sProp 𝕄)
      ⊣⊢ iprop((((c : Thread nD τ).loc cc0_stg0_0) ↦[((Finset.Ico 0 16).biUnion fun k => (xRow1 c k).view.set) ∪ ((Finset.Ico 0 2).biUnion fun r => (xRow2 c r).view.set)]{fullShare.right} f)
        ∗ ((c : Thread nD τ).loc cc0_stg0_0) ↦[Finset.univ \ (((Finset.Ico 0 16).biUnion fun k => (xRow1 c k).view.set) ∪ ((Finset.Ico 0 2).biUnion fun r => (xRow2 c r).view.set))]{fullShare.right} f) :=
    pointsTo_split_subset (Finset.subset_univ _)
  have h3 : (((c : Thread nD τ).loc cc0_stg0_0) ↦[((Finset.Ico 0 16).biUnion fun k => (xRow1 c k).view.set) ∪ ((Finset.Ico 0 2).biUnion fun r => (xRow2 c r).view.set)]{fullShare.right} f : sProp 𝕄)
      ⊣⊢ iprop((((c : Thread nD τ).loc cc0_stg0_0) ↦[(Finset.Ico 0 16).biUnion fun k => (xRow1 c k).view.set]{fullShare.right} f)
        ∗ ((c : Thread nD τ).loc cc0_stg0_0) ↦[(Finset.Ico 0 2).biUnion fun r => (xRow2 c r).view.set]{fullShare.right} f) :=
    pointsTo_union hU
  rw [BI.equiv_iff.mp ⟨h1.1, h1.2⟩, BI.equiv_iff.mp ⟨h2.1, h2.2⟩, BI.equiv_iff.mp ⟨h3.1, h3.2⟩, hA, hB]
  rfl

theorem xstage_split (c : Dev nD) (f : Buf (Elt F) ((c : Thread nD τ).loc cc0_stg0_0)) :
    (((c : Thread nD τ).loc cc0_stg0_0) ↦{fullShare} f : sProp 𝕄)
      ⊢ iprop((((c : Thread nD τ).loc cc0_stg0_0) ↦{fullShare.left} f)
        ∗ (bigSep (Finset.Ico 0 16) fun k => ((xRow1 c k).view.loc (c : Thread nD τ) ↦[(xRow1 c k).view.set]{fullShare.right} f))
        ∗ (bigSep (Finset.Ico 0 2) fun r => ((xRow2 c r).view.loc (c : Thread nD τ) ↦[(xRow2 c r).view.set]{fullShare.right} f))
        ∗ xRest c f) := by
  rw [xstage_core c f]
  iintro ⟨H1, ⟨HA, HB⟩, HR⟩
  isplitl [H1]
  · iexact H1
  isplitl [HA]
  · iexact HA
  isplitl [HB]
  · iexact HB
  · iexact HR

theorem xstage_join (c : Dev nD) (f : Buf (Elt F) ((c : Thread nD τ).loc cc0_stg0_0)) :
    iprop((((c : Thread nD τ).loc cc0_stg0_0) ↦{fullShare.left} f)
        ∗ (bigSep (Finset.Ico 0 16) fun k => ((xRow1 c k).view.loc (c : Thread nD τ) ↦[(xRow1 c k).view.set]{fullShare.right} f))
        ∗ (bigSep (Finset.Ico 0 2) fun r => ((xRow2 c r).view.loc (c : Thread nD τ) ↦[(xRow2 c r).view.set]{fullShare.right} f))
        ∗ xRest c f)
      ⊢ (((c : Thread nD τ).loc cc0_stg0_0) ↦{fullShare} f : sProp 𝕄) := by
  rw [xstage_core c f]
  iintro ⟨H1, HA, HB, HR⟩
  isplitl [H1]
  · iexact H1
  isplitl [HA HB]
  · isplitl [HA]
    · iexact HA
    · iexact HB
  · iexact HR

/-! ## Loads and stores of the two loops -/

/-- The rows of the result the first loop writes at trip `k` (the own half's chunk `k`), and the second loop's (the other half's). -/
abbrev oRect1 (c : Dev nD) (k : ℕ) : Rect S1024x512 :=
  Rect.unit (s := S1024x512) (k0_off3 c (BitVec.ofNat 32 (32 * (f16 k).val))) S32x512.size (k0_off3_inb c (f16 k))
abbrev oRect2 (c : Dev nD) (k : ℕ) : Rect S1024x512 :=
  Rect.unit (s := S1024x512) (k0_off4 c (BitVec.ofNat 32 (32 * (f16 k).val))) S32x512.size (k0_off4_inb c (f16 k))

omit [FloatOps F] in
/-- A load of chunk `k` of a landing buffer reads only that chunk. -/
theorem load_sub_y (k : ℕ) (c : Dev nD) :
    (yB : Memref sig .tc .vmem S512x512 .f32).view.setOn (chunkR k).toLoadRect.set ⊆ ((yCh k).view.set : Finset (Idx ((yCh k).view.loc (c : Thread nD τ)))) := by
  rw [ych_set c k]
  show ((chunkR k).toLoadRect.set).map (Function.Embedding.refl _) ⊆ _
  rw [Finset.map_refl]
omit [FloatOps F] in
theorem load_sub_x (k : ℕ) (c : Dev nD) :
    (xB : Memref sig .tc .vmem S512x512 .f32).view.setOn (chunkR k).toLoadRect.set ⊆ ((xCh k).view.set : Finset (Idx ((xCh k).view.loc (c : Thread nD τ)))) := by
  rw [xch_set c k]
  show ((chunkR k).toLoadRect.set).map (Function.Embedding.refl _) ⊆ _
  rw [Finset.map_refl]

/-- One chunk's sum, as the kernel body computes it. -/
def payG (a b : Vec F S32x512 .f32) : FVec F S32x512 .f32 := addf (shapeCast S32x512 a shapeCasts_S32x512_S32x512) b

/-- The result's staging buffer is right on the rows already stored: `n₁` chunks of the own half, `n₂` of the other. -/
def OutOK (c : Dev nD) (n₁ n₂ : ℕ) (f : (cc0_stg1_0 : Ref sig .tc).ty.Contents (Elt F)) : Prop :=
  ∀ i : S1024x512.Idx, (((i 0).val / 512 = c.val / 8 ∧ (i 0).val % 512 < 32 * n₁) ∨ ((i 0).val / 512 ≠ c.val / 8 ∧ (i 0).val % 512 < 32 * n₂)) →
    f i = outVal m c i

end Cert.KernelIdeal.Hand
end
-- ==== Proof.Vals.lean ====
import proofs.«900710_g7700000000000711_dist_ar_v7x_xyz2x2x4_y_m1024_n512_f32_1_alg».proof.Proof.Bufs

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Coordinates of a unit rectangle's indices -/

omit [FloatOps F] in
/-- A unit-stride rectangle places its index `j` at `off + j` on each axis. -/
theorem unit_emb_val {s : Shape} (off size : Fin s.rank → Nat) (inb : ∀ a, off a + size a ≤ s.size a)
    (j : (Rect.unit off size inb).shape.Idx) (a : Fin s.rank) :
    ((Rect.unit off size inb).emb j a : ℕ) = off a + (j a : ℕ) := by
  rw [Rect.emb_apply, Rect.off_unit, Rect.stride_unit, Nat.one_mul]

omit [FloatOps F] in
theorem idx_ext (a b : S1024x512.Idx) (h0 : (a 0 : ℕ) = (b 0 : ℕ)) (h1 : (a 1 : ℕ) = (b 1 : ℕ)) : a = b := by
  funext x; fin_cases x
  · exact Fin.ext h0
  · exact Fin.ext h1

omit [FloatOps F] in
/-- Where chunk `k` of a landing buffer sits in it. -/
theorem chunk_emb (k : ℕ) (hk : k < 16) (j : S32x512.Idx) :
    (((chunkR k).emb j 0 : ℕ) = 32 * k + (j 0 : ℕ)) ∧ (((chunkR k).emb j 1 : ℕ) = (j 1 : ℕ)) := by
  have h0 := unit_emb_val (s := S512x512) ![32 * (k % 16), 0] S32x512.size (chunk_inb k) j 0
  have h1 := unit_emb_val (s := S512x512) ![32 * (k % 16), 0] S32x512.size (chunk_inb k) j 1
  refine ⟨h0.trans ?_, h1.trans ?_⟩
  · show 32 * (k % 16) + _ = _; omega
  · show 0 + _ = _; omega

omit [FloatOps F] in
/-- Where the rows of chunk `k` of the own half sit in the block. -/
theorem row1_emb (c : Dev nD) (k : ℕ) (hk : k < 16) (j : S32x512.Idx) :
    (((xRow1 c k).view.emb j : S1024x512.Idx) 0 : ℕ) = 512 * (c.val / 8) + 32 * k + (j 0 : ℕ)
      ∧ (((xRow1 c k).view.emb j : S1024x512.Idx) 1 : ℕ) = (j 1 : ℕ) := by
  have e := k0_off1_eq c (f16 k)
  have h0 := unit_emb_val (s := S1024x512) _ S32x512.size (k0_off1_inb c (f16 k)) j 0
  have h1 := unit_emb_val (s := S1024x512) _ S32x512.size (k0_off1_inb c (f16 k)) j 1
  have hk' : (f16 k).val = k := Nat.mod_eq_of_lt hk
  refine ⟨h0.trans ?_, h1.trans ?_⟩
  · have e0 : k0_off1 c (BitVec.ofNat 32 (32 * (f16 k).val)) 0 = 512 * (c.val / 8) + 32 * (f16 k).val := congrFun e 0
    omega
  · have e1 : k0_off1 c (BitVec.ofNat 32 (32 * (f16 k).val)) 1 = 0 := congrFun e 1
    omega

omit [FloatOps F] in
/-- Where the rows of chunk `14 + r` of the other half sit in the block. -/
theorem row2_emb (c : Dev nD) (r : ℕ) (hr : r < 2) (j : S32x512.Idx) :
    (((xRow2 c r).view.emb j : S1024x512.Idx) 0 : ℕ) = (32 * r + 960) - 512 * (c.val / 8) + (j 0 : ℕ)
      ∧ (((xRow2 c r).view.emb j : S1024x512.Idx) 1 : ℕ) = (j 1 : ℕ) := by
  have e := k0_off2_eq c (f2 r)
  have h0 := unit_emb_val (s := S1024x512) _ S32x512.size (k0_off2_inb c (f2 r)) j 0
  have h1 := unit_emb_val (s := S1024x512) _ S32x512.size (k0_off2_inb c (f2 r)) j 1
  have hr' : (f2 r).val = r := Nat.mod_eq_of_lt hr
  refine ⟨h0.trans ?_, h1.trans ?_⟩
  · have e0 : k0_off2 c (BitVec.ofNat 32 (448 + 32 * (f2 r).val)) 0 = (32 * (f2 r).val + 960) - 512 * (c.val / 8) := congrFun e 0
    omega
  · have e1 : k0_off2 c (BitVec.ofNat 32 (448 + 32 * (f2 r).val)) 1 = 0 := congrFun e 1
    omega

/-! ## What each transfer lands -/

/-- Chunk `k` of the own half, sent by `c`, lands in its `y` partner's first buffer as that buffer's final contents there. -/
theorem land_y (c : Dev nD) (k : ℕ) (hk : k < 16) (fd : Buf (Elt F) ((yCh k).view.loc (yp c : Thread nD τ))) :
    ((yCh k).view.loc (yp c : Thread nD τ) ↦[(yCh k).view.set]{fullShare}
        ((yCh k).view.write (Elt F) fd ((xRow1 c k).view.read (Elt F) (xin m c)) Finset.univ) : sProp 𝕄)
      ⊢ yRecvPay m (yp c) k := by
  unfold yRecvPay
  refine Entails.of_eq (pointsTo_congr fun i hi => ?_)
  obtain ⟨j, rfl⟩ := View.exists_emb_of_mem_set _ hi
  rw [View.write_emb_of_mem _ _ (Finset.mem_univ j), View.read_apply]
  show xin m c ((xRow1 c k).view.emb j) = ybufVal m (yp c) ((yCh k).view.emb j)
  unfold ybufVal
  rw [yp_yp, yp_div]
  congr 1
  obtain ⟨a0, a1⟩ := row1_emb c k hk j
  obtain ⟨b0, b1⟩ := chunk_emb k hk j
  have hj : (j 0 : ℕ) < 32 := (j 0).isLt
  have hc := div8_le c
  refine idx_ext _ _ ?_ ?_
  · rw [a0]
    show _ = (512 * (c.val / 8) + ((chunkR k).emb j 0 : ℕ)) % 1024
    rw [b0]; omega
  · rw [a1]
    show _ = ((chunkR k).emb j 1 : ℕ)
    rw [b1]
/-- Chunk `14 + r` of the other half, sent by `c` directly, lands in its `y` partner's second buffer as its final contents there. -/
theorem land_t (c : Dev nD) (r : ℕ) (hr : r < 2) (fd : Buf (Elt F) ((xCh (14 + r)).view.loc (yp c : Thread nD τ))) :
    ((xCh (14 + r)).view.loc (yp c : Thread nD τ) ↦[(xCh (14 + r)).view.set]{fullShare}
        ((xCh (14 + r)).view.write (Elt F) fd ((xRow2 c r).view.read (Elt F) (xin m c)) Finset.univ) : sProp 𝕄)
      ⊢ xRecvPay m (yp c) (14 + r) := by
  unfold xRecvPay
  refine Entails.of_eq (pointsTo_congr fun i hi => ?_)
  obtain ⟨j, rfl⟩ := View.exists_emb_of_mem_set _ hi
  rw [View.write_emb_of_mem _ _ (Finset.mem_univ j), View.read_apply]
  show xin m c ((xRow2 c r).view.emb j) = xbufVal m (yp c) ((xCh (14 + r)).view.emb j)
  obtain ⟨a0, a1⟩ := row2_emb c r hr j
  obtain ⟨b0, b1⟩ := chunk_emb (14 + r) (by omega) j
  have hj : (j 0 : ℕ) < 32 := (j 0).isLt
  have hc := div8_le c
  unfold xbufVal
  have hge : ¬ ((((xCh (14 + r)).view.emb j : S512x512.Idx) 0 : ℕ) < 448) := by
    show ¬ (((chunkR (14 + r)).emb j 0 : ℕ) < 448)
    rw [b0]; omega
  rw [if_neg hge, yp_yp, yp_div]
  congr 1
  refine idx_ext _ _ ?_ ?_
  · rw [a0]
    show _ = (512 - 512 * (c.val / 8) + ((chunkR (14 + r)).emb j 0 : ℕ)) % 1024
    rw [b0]; omega
  · rw [a1]
    show _ = ((chunkR (14 + r)).emb j 1 : ℕ)
    rw [b1]
/-- Chunk `k < 14` of `c`'s first buffer, forwarded, lands in its `x` partner's second buffer as its final contents there. -/
theorem land_f (c : Dev nD) (k : ℕ) (hk : k < 14) (fd : Buf (Elt F) ((xCh k).view.loc (xp c : Thread nD τ))) :
    ((xCh k).view.loc (xp c : Thread nD τ) ↦[(xCh k).view.set]{fullShare}
        ((xCh k).view.write (Elt F) fd ((yCh k).view.read (Elt F) (ybufVal m c)) Finset.univ) : sProp 𝕄)
      ⊢ xRecvPay m (xp c) k := by
  unfold xRecvPay
  refine Entails.of_eq (pointsTo_congr fun i hi => ?_)
  obtain ⟨j, rfl⟩ := View.exists_emb_of_mem_set _ hi
  rw [View.write_emb_of_mem _ _ (Finset.mem_univ j), View.read_apply]
  show ybufVal m c ((yCh k).view.emb j) = xbufVal m (xp c) ((xCh k).view.emb j)
  obtain ⟨b0, b1⟩ := chunk_emb k (by omega) j
  have hj : (j 0 : ℕ) < 32 := (j 0).isLt
  have hc := div8_le c
  unfold xbufVal ybufVal
  have hlt : ((((xCh k).view.emb j : S512x512.Idx) 0 : ℕ) < 448) := by
    show (((chunkR k).emb j 0 : ℕ) < 448)
    rw [b0]; omega
  rw [if_pos hlt, xp_xp, xp_div]
  have e : 512 - 512 * (1 - c.val / 8) = 512 * (c.val / 8) := by omega
  rw [e]
  rfl

/-! ## The result's staging buffer, store by store -/

omit [FloatOps F] in
/-- An index whose row lies in a 32-row rectangle at rows `b₀ …` (all columns) is one of the rectangle's own; -/
theorem unit_inside (off : Fin 2 → ℕ) (inb : ∀ a, off a + S32x512.size a ≤ S1024x512.size a) (b₀ : ℕ)
    (h0 : off 0 = b₀) (h1 : off 1 = 0) (i : S1024x512.Idx) (hlo : b₀ ≤ (i 0 : ℕ)) (hhi : (i 0 : ℕ) < b₀ + 32) :
    ∃ j : S32x512.Idx, (Rect.unit (s := S1024x512) off S32x512.size inb).emb j = i := by
  have h512 : (i 1 : ℕ) < 512 := (i 1).isLt
  have hm : i ∈ (Rect.unit (s := S1024x512) off S32x512.size inb).set := by
    refine Rect.mem_set_unit.mpr fun a => ?_
    fin_cases a
    · show off 0 ≤ (i 0 : ℕ) ∧ (i 0 : ℕ) < off 0 + 32; omega
    · show off 1 ≤ (i 1 : ℕ) ∧ (i 1 : ℕ) < off 1 + 512; omega
  exact LoadRect.exists_idx_of_mem _ hm

omit [FloatOps F] in
/-- and its coordinates are the rectangle's offsets plus its own. -/
theorem unit_coords (off : Fin 2 → ℕ) (inb : ∀ a, off a + S32x512.size a ≤ S1024x512.size a) (b₀ : ℕ)
    (h0 : off 0 = b₀) (h1 : off 1 = 0) (j : S32x512.Idx) :
    (((Rect.unit (s := S1024x512) off S32x512.size inb).emb j 0 : ℕ) = b₀ + (j 0 : ℕ))
      ∧ (((Rect.unit (s := S1024x512) off S32x512.size inb).emb j 1 : ℕ) = (j 1 : ℕ)) := by
  have a0 := unit_emb_val (s := S1024x512) off S32x512.size inb j 0
  have a1 := unit_emb_val (s := S1024x512) off S32x512.size inb j 1
  refine ⟨a0.trans ?_, a1.trans ?_⟩ <;> omega

/-- A store through a 32-row rectangle of the result's buffer: on the rectangle's rows the payload, elsewhere the old contents. -/
theorem store_apply (off : Fin 2 → ℕ) (inb : ∀ a, off a + S32x512.size a ≤ S1024x512.size a) (b₀ : ℕ)
    (h0 : off 0 = b₀) (h1 : off 1 = 0) (f : (cc0_stg1_0 : Ref sig .tc).ty.Contents (Elt F)) (w : S32x512.Idx → Elt F .f32) (i : S1024x512.Idx) :
    (b₀ ≤ (i 0 : ℕ) ∧ (i 0 : ℕ) < b₀ + 32 ∧ ∃ j : S32x512.Idx, (Rect.unit (s := S1024x512) off S32x512.size inb).emb j = i ∧
        (((oS : Memref sig .tc .vmem S1024x512 .f32).access (Rect.unit (s := S1024x512) off S32x512.size inb) : View sig .tc _ _ _).write (Elt F) f w Finset.univ i = w j))
      ∨ (¬ (b₀ ≤ (i 0 : ℕ) ∧ (i 0 : ℕ) < b₀ + 32) ∧
        (((oS : Memref sig .tc .vmem S1024x512 .f32).access (Rect.unit (s := S1024x512) off S32x512.size inb) : View sig .tc _ _ _).write (Elt F) f w Finset.univ i = f i)) := by
  by_cases hin : b₀ ≤ (i 0 : ℕ) ∧ (i 0 : ℕ) < b₀ + 32
  · left
    obtain ⟨j, hj⟩ := unit_inside off inb b₀ h0 h1 i hin.1 hin.2
    refine ⟨hin.1, hin.2, j, hj, ?_⟩
    subst hj
    exact View.write_emb_of_mem (v := ((oS : Memref sig .tc .vmem S1024x512 .f32).access (Rect.unit (s := S1024x512) off S32x512.size inb) : View sig .tc _ _ _))
      (Val := Elt F) f w (M := Finset.univ) (x := j) (Finset.mem_univ j)
  · right
    refine ⟨hin, View.write_of_not_mem _ _ _ fun hmem => hin ?_⟩
    rw [View.setOn_univ] at hmem
    obtain ⟨j, hj⟩ := View.exists_emb_of_mem_set _ hmem
    have hj' : (Rect.unit (s := S1024x512) off S32x512.size inb).emb j = i := hj
    obtain ⟨c0, _⟩ := unit_coords off inb b₀ h0 h1 j
    rw [hj'] at c0
    have hj0 : (j 0 : ℕ) < 32 := (j 0).isLt
    omega

theorem outOK_zero (c : Dev nD) (f : (cc0_stg1_0 : Ref sig .tc).ty.Contents (Elt F)) : OutOK m c 0 0 f := by
  intro i hi
  omega

/-- The first loop's store at trip `k`: the own block's rows plus what landed in the first buffer. -/
theorem out_store1 (c : Dev nD) (k n₂ : ℕ) (hk : k < 16) (f : (cc0_stg1_0 : Ref sig .tc).ty.Contents (Elt F)) (h : OutOK m c k n₂ f) :
    OutOK m c (k + 1) n₂ (((oS : Memref sig .tc .vmem S1024x512 .f32).access (oRect1 c k) : View sig .tc _ _ _).write (Elt F) f
      (payG ((xS : Memref sig .tc .vmem S1024x512 .f32).view.readAt (Elt F) (oRect1 c k).toLoadRect (xin m c))
        ((yB : Memref sig .tc .vmem S512x512 .f32).view.readAt (Elt F) (chunkR k).toLoadRect (ybufVal m c))) Finset.univ) := by
  intro i hi
  have e := k0_off3_eq c (f16 k)
  have hk' : (f16 k).val = k := Nat.mod_eq_of_lt hk
  have e0 : k0_off3 c (BitVec.ofNat 32 (32 * (f16 k).val)) 0 = 512 * (c.val / 8) + 32 * k :=
    (congrFun e 0).trans (by show 512 * (c.val / 8) + 32 * (f16 k).val = _; rw [hk'])
  have e1 : k0_off3 c (BitVec.ofNat 32 (32 * (f16 k).val)) 1 = 0 := congrFun e 1
  have hc := div8_le c
  generalize hw : payG (F := F) _ _ = w
  rcases store_apply (F := F) _ (k0_off3_inb c (f16 k)) _ e0 e1 f w i with ⟨hlo, hhi, j, hj, hwr⟩ | ⟨hout, hwr⟩
  · refine hwr.trans ?_
    subst hw
    obtain ⟨c0, c1⟩ := unit_coords _ (k0_off3_inb c (f16 k)) _ e0 e1 j
    rw [hj] at c0 c1
    obtain ⟨b0, b1⟩ := chunk_emb k hk j
    have hj0 : (j 0 : ℕ) < 32 := (j 0).isLt
    unfold payG
    rw [shapeCast_self]
    show FloatOps.addf (xin m c ((oRect1 c k).emb j)) (ybufVal m c ((chunkR k).emb j)) = outVal m c i
    unfold outVal
    rw [hj]
    congr 1
    unfold ybufVal parVal
    have hq : (i 0).val / 512 = c.val / 8 := by omega
    rw [if_pos hq]
    congr 1
    refine idx_ext _ _ ?_ ?_
    · show (512 * (c.val / 8) + ((chunkR k).emb j 0 : ℕ)) % 1024 = _
      rw [b0]; omega
    · show ((chunkR k).emb j 1 : ℕ) = _
      rw [b1]; omega
  · rw [hwr]
    refine h i ?_
    rcases hi with ⟨hh, hlt⟩ | hr
    · exact Or.inl ⟨hh, by omega⟩
    · exact Or.inr hr
/-- The second loop's store at trip `k`: the own block's rows of the other half plus what landed in the second buffer. -/
theorem out_store2 (c : Dev nD) (k : ℕ) (hk : k < 16) (f : (cc0_stg1_0 : Ref sig .tc).ty.Contents (Elt F)) (h : OutOK m c 16 k f) :
    OutOK m c 16 (k + 1) (((oS : Memref sig .tc .vmem S1024x512 .f32).access (oRect2 c k) : View sig .tc _ _ _).write (Elt F) f
      (payG ((xS : Memref sig .tc .vmem S1024x512 .f32).view.readAt (Elt F) (oRect2 c k).toLoadRect (xin m c))
        ((xB : Memref sig .tc .vmem S512x512 .f32).view.readAt (Elt F) (chunkR k).toLoadRect (xbufVal m c))) Finset.univ) := by
  intro i hi
  have e := k0_off4_eq c (f16 k)
  have hk' : (f16 k).val = k := Nat.mod_eq_of_lt hk
  have e0 : k0_off4 c (BitVec.ofNat 32 (32 * (f16 k).val)) 0 = (32 * k + 512) - 512 * (c.val / 8) :=
    (congrFun e 0).trans (by show (32 * (f16 k).val + 512) - 512 * (c.val / 8) = _; rw [hk'])
  have e1 : k0_off4 c (BitVec.ofNat 32 (32 * (f16 k).val)) 1 = 0 := congrFun e 1
  have hc := div8_le c
  generalize hw : payG (F := F) _ _ = w
  rcases store_apply (F := F) _ (k0_off4_inb c (f16 k)) _ e0 e1 f w i with ⟨hlo, hhi, j, hj, hwr⟩ | ⟨hout, hwr⟩
  · refine hwr.trans ?_
    subst hw
    obtain ⟨c0, c1⟩ := unit_coords _ (k0_off4_inb c (f16 k)) _ e0 e1 j
    rw [hj] at c0 c1
    obtain ⟨b0, b1⟩ := chunk_emb k hk j
    have hj0 : (j 0 : ℕ) < 32 := (j 0).isLt
    unfold payG
    rw [shapeCast_self]
    show FloatOps.addf (xin m c ((oRect2 c k).emb j)) (xbufVal m c ((chunkR k).emb j)) = outVal m c i
    unfold outVal
    rw [hj]
    congr 1
    unfold xbufVal parVal
    have hne : ¬ ((i 0).val / 512 = c.val / 8) := by omega
    have hrow : rowAt (512 - 512 * (c.val / 8)) ((chunkR k).emb j) = i := by
      refine idx_ext _ _ ?_ ?_
      · show (512 - 512 * (c.val / 8) + ((chunkR k).emb j 0 : ℕ)) % 1024 = _
        rw [b0]; omega
      · show ((chunkR k).emb j 1 : ℕ) = _
        rw [b1]; omega
    rw [if_neg hne, hrow]
    by_cases hf : (((chunkR k).emb j 0 : ℕ) < 448)
    · have hf' : (i 0).val % 512 < 448 := by rw [b0] at hf; omega
      rw [if_pos hf, if_pos hf']
    · have hf' : ¬ ((i 0).val % 512 < 448) := by rw [b0] at hf; omega
      rw [if_neg hf, if_neg hf']
  · rw [hwr]
    refine h i ?_
    have h1024 : (i 0 : ℕ) < 1024 := (i 0).isLt
    rcases hi with hl | ⟨hh, hlt⟩
    · exact Or.inl hl
    · exact Or.inr ⟨hh, by omega⟩
/-- With every chunk stored the buffer holds the result. -/
theorem out_done (c : Dev nD) (f : (cc0_stg1_0 : Ref sig .tc).ty.Contents (Elt F)) (h : OutOK m c 16 16 f) : f = outVal m c := by
  funext i
  refine h i ?_
  have h512 : (i 0 : ℕ) % 512 < 512 := Nat.mod_lt _ (by decide)
  by_cases hh : (i 0 : ℕ) / 512 = c.val / 8
  · exact Or.inl ⟨hh, by omega⟩
  · exact Or.inr ⟨hh, by omega⟩

/-- info: 'Cert.KernelIdeal.Hand.land_f' depends on axioms: [propext, Classical.choice, Quot.sound] -/
#guard_msgs in #print axioms land_f
/-- info: 'Cert.KernelIdeal.Hand.out_store2' depends on axioms: [propext, Classical.choice, Quot.sound] -/
#guard_msgs in #print axioms out_store2

end Cert.KernelIdeal.Hand
end
-- ==== Proof.Steps1.lean ====
import proofs.«900710_g7700000000000711_dist_ar_v7x_xyz2x2x4_y_m1024_n512_f32_1_alg».proof.Proof.Fam
import proofs.«900710_g7700000000000711_dist_ar_v7x_xyz2x2x4_y_m1024_n512_f32_1_alg».proof.Proof.Vals

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 65 → ℕ)

/-! ## The body, one step at a time

Each lemma takes the records (persistent), what the device owes, and the families the step touches over their current
intervals, and continues with the families one member on. -/

/-- The first barrier signal, to the `y` partner: it hands over the first landing buffer and chunks 14, 15 of the second. -/
theorem step_sig1 (c n : Dev nD) (hn : n = yp c) {α : Type} {Q : α → sProp 𝕄} {kont : PUnit → Prog (TpuEff nD τ sig (Elt F) Λ₀ .tc) α}
    (b₂ : Bool) (nY nT nF : ℕ) :
    iprop(records m K ∗ owesE c (owedAt c false b₂ nY nT nF) ∗ dutyTok ER (barCell (yp c)) 0 false ∗ barPayY (yp c))
      ⊢ iprop((owesE c (owedAt c true b₂ nY nT nF) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) barS (1#32).toNat) kont) Q) := by
  subst hn
  unfold owesE
  iintro ⟨#Hrec, ⟨%W, HO⟩, Htok, Hpay⟩ Hk
  iapply (Rounds.wp_signal 𝒱₀ ER (sched m) (c : Thread nD τ) none (dst := (yp c : Thread nD τ)) (κ := K (yp c, 0))
      (d := false) (by rw [duties_bar]; exact Finset.mem_univ _) ((amount_bar m (yp c) false).trans (by decide)) ()
      (owedAt c true b₂ nY nT nF) (owedAt_sig1 c b₂ nY nT nF)) $$ [HO Htok Hpay]
  · isplitr; · iapply (inv_bar m K (yp c)); iexact Hrec
    isplitl [HO]; · iexact HO
    isplitl [Htok]; · iexact Htok
    isplitl [Hpay]; · rw [payload_bar_false]; iexact Hpay
    iapply (reached_bar m K (yp c)); iexact Hrec
  iintro HO
  iapply Hk
  iexists W; iexact HO

/-- The second, to the `x` partner: it hands over chunks 0–13 of the second landing buffer. -/
theorem step_sig2 (c n : Dev nD) (hn : n = xp c) {α : Type} {Q : α → sProp 𝕄} {kont : PUnit → Prog (TpuEff nD τ sig (Elt F) Λ₀ .tc) α}
    (b₁ : Bool) (nY nT nF : ℕ) :
    iprop(records m K ∗ owesE c (owedAt c b₁ false nY nT nF) ∗ dutyTok ER (barCell (xp c)) 0 true ∗ barPayX (xp c))
      ⊢ iprop((owesE c (owedAt c b₁ true nY nT nF) -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((n : Dev nD) : Thread nD τ) barS (1#32).toNat) kont) Q) := by
  subst hn
  unfold owesE
  iintro ⟨#Hrec, ⟨%W, HO⟩, Htok, Hpay⟩ Hk
  iapply (Rounds.wp_signal 𝒱₀ ER (sched m) (c : Thread nD τ) none (dst := (xp c : Thread nD τ)) (κ := K (xp c, 0))
      (d := true) (by rw [duties_bar]; exact Finset.mem_univ _) ((amount_bar m (xp c) true).trans (by decide)) ()
      (owedAt c b₁ true nY nT nF) (owedAt_sig2 c b₁ nY nT nF)) $$ [HO Htok Hpay]
  · isplitr; · iapply (inv_bar m K (xp c)); iexact Hrec
    isplitl [HO]; · iexact HO
    isplitl [Htok]; · iexact Htok
    isplitl [Hpay]; · rw [payload_bar_true]; iexact Hpay
    iapply (reached_bar m K (xp c)); iexact Hrec
  iintro HO
  iapply Hk
  iexists W; iexact HO

/-- The wait for both partners' signals: their landing buffers come with them. -/
theorem step_waitBar (c : Dev nD) {α : Type} {Q : α → sProp 𝕄} {kont : PUnit → Prog (TpuEff nD τ sig (Elt F) Λ₀ .tc) α} :
    iprop(records m K ∗ levAts L lv ∗ cred (tallyAt (barCell c) () 2) ∗ owesE c (owedAt c true true 0 0 0) ∗ atPos ER (barCell c) 0 ∅ 0)
      ⊢ iprop(((owesE c (owedAt c true true 0 0 0) ∗ barPayY c ∗ barPayX c) -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (2#32).toNat) kont) Q) := by
  unfold owesE
  iintro ⟨#Hrec, #Hlev, Hc, ⟨%W, HO⟩, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owedAt c true true 0 0 0) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexists _; iexact HO
  iexact Hp

/-- The transfer of chunk `k` of the own half to the `y` partner's first landing buffer. -/
theorem step_enqY (c n : Dev nD) (hn : n = yp c) (k : ℕ) (hk : k < 16)
    {hsc : (yCh k : Memref sig (Dev.tc n : Thread nD τ).2.kind .vmem S32x512 .f32).view.ref.isScScratch = false}
    {hsrc : (xRow1 c k : Memref sig .tc .vmem S32x512 .f32).view.WordExact} {hdst : (yCh k : Memref sig .tc .vmem S32x512 .f32).view.WordExact}
    {hsem : DmaTarget.Typed .vmem (.dma (dsem (20 + k))) (.remote (Dev.tc n : Thread nD τ) (yCh k : Memref sig .tc .vmem S32x512 .f32) (.dma (dsem (2 + k))) hsc)}
    {α : Type} {Q : α → sProp 𝕄} {kont : PUnit → Prog (TpuEff nD τ sig (Elt F) Λ₀ .tc) α} (b₁ b₂ : Bool) (nT nF : ℕ) :
    iprop(records m K ∗ owesE c (owedAt c b₁ b₂ k nT nF)
        ∗ bigSep (Finset.Ico k 16) (ySrc m c) ∗ bigSep (Finset.Ico k 16) (yDst (yp c))
        ∗ bigSep (Finset.Ico k 18) (tokYS c) ∗ bigSep (Finset.Ico k 16) (tokYR (yp c)) ∗ bigSep (Finset.Ico 0 k) (crYS c))
      ⊢ iprop(((owesE c (owedAt c b₁ b₂ (k + 1) nT nF)
            ∗ bigSep (Finset.Ico (k + 1) 16) (ySrc m c) ∗ bigSep (Finset.Ico (k + 1) 16) (yDst (yp c))
            ∗ bigSep (Finset.Ico (k + 1) 18) (tokYS c) ∗ bigSep (Finset.Ico (k + 1) 16) (tokYR (yp c)) ∗ bigSep (Finset.Ico 0 (k + 1)) (crYS c))
          -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xRow1 c k) (.remote (Dev.tc n : Thread nD τ) (yCh k) (.dma (dsem (2 + k))) hsc) (.dma (dsem (20 + k))) hsrc hdst hsem) kont) Q) := by
  subst hn
  rw [bigSep_Ico_peel hk (ySrc m c), bigSep_Ico_peel hk (yDst (yp c)), bigSep_Ico_peel (show k < 18 by omega) (tokYS c),
    bigSep_Ico_peel hk (tokYR (yp c)), bigSep_Ico_snoc (Nat.zero_le k) (crYS c)]
  unfold owesE
  iintro ⟨#Hrec, ⟨%W, HO⟩, ⟨Hs, Hss⟩, ⟨Hd, Hds⟩, ⟨Hts, Htss⟩, ⟨Htr, Htrs⟩, Hcr⟩ Hk
  unfold yDst
  icases Hd with ⟨%fd, Hd⟩
  unfold ySrc tokYS tokYR
  iapply (Rounds.wp_send_pointsTo 𝒱₀ ER (sched m) (c : Thread nD τ) none (κ₁ := K (c, ⟨2 + k - 1, by omega⟩)) (κ₂ := K (yp c, ⟨20 + k - 1, by omega⟩))
      (r₁ := 0) (r₂ := 0) (d₁ := false) (d₂ := false) (fd := fd)
      (by rw [duties_dma m c (2 + k) (by omega) (by omega)]; exact Finset.mem_singleton_self _)
      (by rw [duties_dma m (yp c) (20 + k) (by omega) (by omega)]; exact Finset.mem_singleton_self _)
      () () N32 rfl (amount_dma m c (2 + k) false) (amount_dma m (yp c) (20 + k) false)
      (owedAt c b₁ b₂ (k + 1) nT nF) (owedAt_y c b₁ b₂ k nT nF hk) (W := W)
      (by rw [payload_ySend m c k hk]; exact BI.Entails.refl _)
      (by rw [payload_yRecv m (yp c) k hk]; exact land_y m c k hk fd)) $$ [HO Hs Hd Hts Htr]
  · isplitr; · iapply (inv_dma m K c (2 + k) (by omega) (by omega)); iexact Hrec
    isplitr; · iapply (inv_dma m K (yp c) (20 + k) (by omega) (by omega)); iexact Hrec
    isplitl [Hs]; · iexact Hs
    isplitl [Hd]; · iexact Hd
    isplitl [HO]; · iexact HO
    isplitl [Hts]; · iexact Hts
    isplitr; · iapply (reached_dma m K c (2 + k) (by omega) (by omega)); iexact Hrec
    isplitl [Htr]; · iexact Htr
    iapply (reached_dma m K (yp c) (20 + k) (by omega) (by omega)); iexact Hrec
  iintro ⟨Hc, HO⟩
  iapply Hk
  isplitl [HO]; · iexists W; iexact HO
  isplitl [Hss]; · iexact Hss
  isplitl [Hds]; · iexact Hds
  isplitl [Htss]; · iexact Htss
  isplitl [Htrs]; · iexact Htrs
  isplitl [Hc]; · unfold crYS; iexact Hc
  iexact Hcr

/-! ### Waits on DMA cells -/

omit [FloatOps F] in
theorem dmaPay_ySend (c : Dev nD) (k : ℕ) (hk : k < 16) : dmaPay m c (2 + k) = ySendPay m c k := by
  unfold dmaPay
  rw [if_neg (by omega), if_pos (by omega), Nat.add_sub_cancel_left]
omit [FloatOps F] in
theorem dmaPay_tSend (c : Dev nD) (r : ℕ) (hr : r < 2) : dmaPay m c (2 + (16 + r)) = tSendPay m c r := by
  unfold dmaPay
  rw [if_neg (by omega), if_neg (by omega), if_pos (by omega)]
  congr 1; omega
omit [FloatOps F] in
theorem dmaPay_yRecv (c : Dev nD) (k : ℕ) (hk : k < 16) : dmaPay m c (20 + k) = yRecvPay m c k := by
  unfold dmaPay
  rw [if_neg (by omega), if_neg (by omega), if_neg (by omega), if_pos (by omega), Nat.add_sub_cancel_left]
omit [FloatOps F] in
theorem dmaPay_xSend (c : Dev nD) (k : ℕ) (hk : k < 14) : dmaPay m c (36 + k) = xSendPay m c k := by
  unfold dmaPay
  rw [if_neg (by omega), if_neg (by omega), if_neg (by omega), if_neg (by omega), if_pos (by omega), Nat.add_sub_cancel_left]
omit [FloatOps F] in
theorem dmaPay_xRecv (c : Dev nD) (k : ℕ) (hk : k < 16) : dmaPay m c (50 + k) = xRecvPay m c k := by
  unfold dmaPay
  rw [if_neg (by omega), if_neg (by omega), if_neg (by omega), if_neg (by omega), if_neg (by omega), Nat.add_sub_cancel_left]

/-- A wait for the whole round of the own DMA cell `n`, allowed at what the device still owes: the cell's payload comes back and the
    cell closes at zero. -/
theorem step_waitDma (c : Dev nD) (n : ℕ) (h2 : 2 ≤ n) (h66 : n < 66) (O : CellTallies nD τ sig Unit)
    (hmw : (levAts L lv : sProp 𝕄) ⊢ MayWait (c : Thread nD τ) (.dma (dsem n)) () O)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c O ∗ cred (tallyAt (dcell c n) () N32) ∗ atPos ER (dcell c n) 0 ∅ 0)
      ⊢ iprop(((owesE c O ∗ semVal (dcell c n) 0 ∗ dmaPay m c n) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem n) src dst hsrc hdst) kont) Q) := by
  unfold owesE
  iintro ⟨#Hrec, #Hlev, ⟨%W, HO⟩, Hc, Hat⟩ Hk
  iapply (Rounds.wp_wait_rest_token 𝒱₀ ER (sched m) (c : Thread nD τ) none (κ := K (c, ⟨n - 1, by omega⟩))
      (wpE_waitDma2_eq 𝒱₀ (c : Thread nD τ) none Set.univ) (Set.mem_univ _) () (O := O) (W := W) (R := 0) (m := 0) (T := ∅)
      (by rw [Nat.zero_add, expect_dma m c n h2 h66, hcr])) $$ [Hc HO Hat]
  · isplitr; · iapply (inv_dma m K c n h2 h66); iexact Hrec
    isplitl [Hc]; · rw [hcr]; iexact Hc
    isplitl [HO]; · iexact HO
    isplitr; · iapply hmw; iexact Hlev
    iexact Hat
  iintro ⟨HO, Hat, -, Hpay⟩
  ihave Hp := (Entails.of_eq (rest_dma m c n h2 h66)) $$ Hpay
  imod (Rounds.cell_close ER (sched m) (Set.mem_univ (K (c, ⟨n - 1, by omega⟩))) (fun h => h) (R := 0 + 1) (duties_later m (dcell c n))) $$ [Hat] with Hz
  · isplitr; · iapply (inv_dma m K c n h2 h66); iexact Hrec
    iexact Hat
  iapply Hk
  isplitl [HO]; · iexists _; iexact HO
  isplitl [Hz]; · iexact Hz
  iexact Hp

omit [FloatOps F] in
theorem mayWait_none (c : Dev nD) (sm : SemLoc sig) : (levAts L lv : sProp 𝕄) ⊢ MayWait (c : Thread nD τ) sm () 0 := by
  rw [MayWait_zero]; iintro -; iempintro

/-- The direct transfer `r` (chunk `14 + r` of the other half) to the `y` partner's second landing buffer. -/
theorem step_enqT (c n : Dev nD) (hn : n = yp c) (r : ℕ) (hr : r < 2)
    {hsc : (xCh (14 + r) : Memref sig (Dev.tc n : Thread nD τ).2.kind .vmem S32x512 .f32).view.ref.isScScratch = false}
    {hsrc : (xRow2 c r : Memref sig .tc .vmem S32x512 .f32).view.WordExact} {hdst : (xCh (14 + r) : Memref sig .tc .vmem S32x512 .f32).view.WordExact}
    {hsem : DmaTarget.Typed .vmem (.dma (dsem (50 + (14 + r)))) (.remote (Dev.tc n : Thread nD τ) (xCh (14 + r) : Memref sig .tc .vmem S32x512 .f32) (.dma (dsem (2 + (16 + r)))) hsc)}
    {α : Type} {Q : α → sProp 𝕄} {kont : PUnit → Prog (TpuEff nD τ sig (Elt F) Λ₀ .tc) α} (b₁ b₂ : Bool) (nY nF : ℕ) :
    iprop(records m K ∗ owesE c (owedAt c b₁ b₂ nY r nF)
        ∗ bigSep (Finset.Ico r 2) (tSrc m c) ∗ bigSep (Finset.Ico r 2) (fun r => xDst (yp c) (14 + r))
        ∗ bigSep (Finset.Ico (16 + r) 18) (tokYS c) ∗ bigSep (Finset.Ico r 2) (fun r => tokXR (yp c) (14 + r)) ∗ bigSep (Finset.Ico 0 (16 + r)) (crYS c))
      ⊢ iprop(((owesE c (owedAt c b₁ b₂ nY (r + 1) nF)
            ∗ bigSep (Finset.Ico (r + 1) 2) (tSrc m c) ∗ bigSep (Finset.Ico (r + 1) 2) (fun r => xDst (yp c) (14 + r))
            ∗ bigSep (Finset.Ico (16 + (r + 1)) 18) (tokYS c) ∗ bigSep (Finset.Ico (r + 1) 2) (fun r => tokXR (yp c) (14 + r)) ∗ bigSep (Finset.Ico 0 (16 + (r + 1))) (crYS c))
          -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xRow2 c r) (.remote (Dev.tc n : Thread nD τ) (xCh (14 + r)) (.dma (dsem (2 + (16 + r)))) hsc) (.dma (dsem (50 + (14 + r)))) hsrc hdst hsem) kont) Q) := by
  subst hn
  rw [bigSep_Ico_peel hr (tSrc m c), bigSep_Ico_peel hr (fun r => xDst (yp c) (14 + r)), bigSep_Ico_peel (show 16 + r < 18 by omega) (tokYS c),
    bigSep_Ico_peel hr (fun r => tokXR (yp c) (14 + r)), show 16 + (r + 1) = 16 + r + 1 from rfl, bigSep_Ico_snoc (Nat.zero_le (16 + r)) (crYS c)]
  unfold owesE
  iintro ⟨#Hrec, ⟨%W, HO⟩, ⟨Hs, Hss⟩, ⟨Hd, Hds⟩, ⟨Hts, Htss⟩, ⟨Htr, Htrs⟩, Hcr⟩ Hk
  unfold xDst
  icases Hd with ⟨%fd, Hd⟩
  unfold tSrc tokYS tokXR
  iapply (Rounds.wp_send_pointsTo 𝒱₀ ER (sched m) (c : Thread nD τ) none (κ₁ := K (c, ⟨2 + (16 + r) - 1, by omega⟩)) (κ₂ := K (yp c, ⟨50 + (14 + r) - 1, by omega⟩))
      (r₁ := 0) (r₂ := 0) (d₁ := false) (d₂ := false) (fd := fd)
      (by rw [duties_dma m c (2 + (16 + r)) (by omega) (by omega)]; exact Finset.mem_singleton_self _)
      (by rw [duties_dma m (yp c) (50 + (14 + r)) (by omega) (by omega)]; exact Finset.mem_singleton_self _)
      () () N32 rfl (amount_dma m c (2 + (16 + r)) false) (amount_dma m (yp c) (50 + (14 + r)) false)
      (owedAt c b₁ b₂ nY (r + 1) nF) (owedAt_t c b₁ b₂ nY r nF hr) (W := W)
      (by rw [payload_tSend m c r hr]; exact BI.Entails.refl _)
      (by rw [payload_xRecv m (yp c) (14 + r) (by omega)]; exact land_t m c r hr fd)) $$ [HO Hs Hd Hts Htr]
  · isplitr; · iapply (inv_dma m K c (2 + (16 + r)) (by omega) (by omega)); iexact Hrec
    isplitr; · iapply (inv_dma m K (yp c) (50 + (14 + r)) (by omega) (by omega)); iexact Hrec
    isplitl [Hs]; · iexact Hs
    isplitl [Hd]; · iexact Hd
    isplitl [HO]; · iexact HO
    isplitl [Hts]; · iexact Hts
    isplitr; · iapply (reached_dma m K c (2 + (16 + r)) (by omega) (by omega)); iexact Hrec
    isplitl [Htr]; · iexact Htr
    iapply (reached_dma m K (yp c) (50 + (14 + r)) (by omega) (by omega)); iexact Hrec
  iintro ⟨Hc, HO⟩
  iapply Hk
  isplitl [HO]; · iexists W; iexact HO
  isplitl [Hss]; · iexact Hss
  isplitl [Hds]; · iexact Hds
  isplitl [Htss]; · iexact Htss
  isplitl [Htrs]; · iexact Htrs
  isplitl [Hc]; · unfold crYS; iexact Hc
  iexact Hcr

/-- Chunk `k < 14` of the first landing buffer, just landed, forwarded to the `x` partner's second: the right half-share goes with the
    transfer, the left stays for the load. -/
theorem step_enqF (c n : Dev nD) (hn : n = xp c) (k : ℕ) (hk : k < 14)
    {hsc : (xCh k : Memref sig (Dev.tc n : Thread nD τ).2.kind .vmem S32x512 .f32).view.ref.isScScratch = false}
    {hsrc : (yCh k : Memref sig .tc .vmem S32x512 .f32).view.WordExact} {hdst : (xCh k : Memref sig .tc .vmem S32x512 .f32).view.WordExact}
    {hsem : DmaTarget.Typed .vmem (.dma (dsem (50 + k))) (.remote (Dev.tc n : Thread nD τ) (xCh k : Memref sig .tc .vmem S32x512 .f32) (.dma (dsem (36 + k))) hsc)}
    {α : Type} {Q : α → sProp 𝕄} {kont : PUnit → Prog (TpuEff nD τ sig (Elt F) Λ₀ .tc) α} (b₁ b₂ : Bool) (nY nT : ℕ) :
    iprop(records m K ∗ owesE c (owedAt c b₁ b₂ nY nT k) ∗ yGot m c fullShare k
        ∗ bigSep (Finset.Ico k 14) (xDst (xp c)) ∗ bigSep (Finset.Ico k 14) (tokXS c) ∗ bigSep (Finset.Ico k 14) (tokXR (xp c)) ∗ bigSep (Finset.Ico 0 k) (crXS c))
      ⊢ iprop(((owesE c (owedAt c b₁ b₂ nY nT (k + 1)) ∗ yGot m c fullShare.left k
            ∗ bigSep (Finset.Ico (k + 1) 14) (xDst (xp c)) ∗ bigSep (Finset.Ico (k + 1) 14) (tokXS c) ∗ bigSep (Finset.Ico (k + 1) 14) (tokXR (xp c)) ∗ bigSep (Finset.Ico 0 (k + 1)) (crXS c))
          -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (yCh k) (.remote (Dev.tc n : Thread nD τ) (xCh k) (.dma (dsem (36 + k))) hsc) (.dma (dsem (50 + k))) hsrc hdst hsem) kont) Q) := by
  subst hn
  rw [bigSep_Ico_peel hk (xDst (xp c)), bigSep_Ico_peel hk (tokXS c), bigSep_Ico_peel hk (tokXR (xp c)), bigSep_Ico_snoc (Nat.zero_le k) (crXS c)]
  unfold owesE
  iintro ⟨#Hrec, ⟨%W, HO⟩, Hy, ⟨Hd, Hds⟩, ⟨Hts, Htss⟩, ⟨Htr, Htrs⟩, Hcr⟩ Hk
  unfold xDst
  icases Hd with ⟨%fd, Hd⟩
  unfold yGot tokXS tokXR
  ihave Hy2 := (pointsTo_share (PosShare.mem_left_op_right fullShare)).1 $$ Hy
  icases Hy2 with ⟨HyL, HyR⟩
  iapply (Rounds.wp_send_pointsTo 𝒱₀ ER (sched m) (c : Thread nD τ) none (κ₁ := K (c, ⟨36 + k - 1, by omega⟩)) (κ₂ := K (xp c, ⟨50 + k - 1, by omega⟩))
      (r₁ := 0) (r₂ := 0) (d₁ := false) (d₂ := false) (fd := fd)
      (by rw [duties_dma m c (36 + k) (by omega) (by omega)]; exact Finset.mem_singleton_self _)
      (by rw [duties_dma m (xp c) (50 + k) (by omega) (by omega)]; exact Finset.mem_singleton_self _)
      () () N32 rfl (amount_dma m c (36 + k) false) (amount_dma m (xp c) (50 + k) false)
      (owedAt c b₁ b₂ nY nT (k + 1)) (owedAt_f c b₁ b₂ nY nT k hk) (W := W)
      (by rw [payload_xSend m c k hk]; exact BI.Entails.refl _)
      (by rw [payload_xRecv m (xp c) k (by omega)]; exact land_f m c k hk fd)) $$ [HO HyR Hd Hts Htr]
  · isplitr; · iapply (inv_dma m K c (36 + k) (by omega) (by omega)); iexact Hrec
    isplitr; · iapply (inv_dma m K (xp c) (50 + k) (by omega) (by omega)); iexact Hrec
    isplitl [HyR]; · iexact HyR
    isplitl [Hd]; · iexact Hd
    isplitl [HO]; · iexact HO
    isplitl [Hts]; · iexact Hts
    isplitr; · iapply (reached_dma m K c (36 + k) (by omega) (by omega)); iexact Hrec
    isplitl [Htr]; · iexact Htr
    iapply (reached_dma m K (xp c) (50 + k) (by omega) (by omega)); iexact Hrec
  iintro ⟨Hc, HO⟩
  iapply Hk
  isplitl [HO]; · iexists W; iexact HO
  isplitl [HyL]; · iexact HyL
  isplitl [Hds]; · iexact Hds
  isplitl [Htss]; · iexact Htss
  isplitl [Htrs]; · iexact Htrs
  isplitl [Hc]; · unfold crXS; iexact Hc
  iexact Hcr

/-! ### The loads and the store of one trip -/

/-- The result's staging buffer, right on the rows stored so far. -/
def outSt (c : Dev nD) (n₁ n₂ : ℕ) : sProp 𝕄 :=
  iprop(∃ f : Buf (Elt F) ((c : Thread nD τ).loc cc0_stg1_0), ⌜OutOK m c n₁ n₂ f⌝ ∗ (((c : Thread nD τ).loc cc0_stg1_0) ↦{fullShare} f))

/-- Trip `k` of the first loop: the own rows and chunk `k` of the first landing buffer are loaded, their sum stored. -/
theorem step_mem1 (c : Dev nD) (k n₂ : ℕ) (hk : k < 16) (q : PosShare TreeShare)
    {hl1 : (xS : Memref sig .tc .vmem S1024x512 .f32).view.LoadsAt (oRect1 c k).toLoadRect}
    {hl2 : (yB : Memref sig .tc .vmem S512x512 .f32).view.LoadsAt (chunkR k).toLoadRect}
    {hl3 : (oS : Memref sig .tc .vmem S1024x512 .f32).view.LoadsAt (oRect1 c k).toLoadRect}
    {hx : ((oS : Memref sig .tc .vmem S1024x512 .f32).access (oRect1 c k)).Stores (Finset.univ : Finset (oRect1 c k).shape.Idx)}
    {hm : (Finset.univ : Finset (oRect1 c k).shape.Idx) = Finset.univ ∨ ∀ a, (oRect1 c k).stride a = 1}
    {α : Type} {Q : α → sProp 𝕄} {kont : PUnit → Prog (TpuEff nD τ sig (Elt F) Λ₀ .tc) α} :
    iprop((((c : Thread nD τ).loc cc0_stg0_0) ↦{fullShare.left} xin m c) ∗ yGot m c q k ∗ outSt m c k n₂)
      ⊢ iprop((((((c : Thread nD τ).loc cc0_stg0_0) ↦{fullShare.left} xin m c) ∗ yGot m c q k ∗ outSt m c (k + 1) n₂) -∗ wp frame (wpE (defs₀ (F := F)) 𝒱₀ (c : Thread nD τ) none) Set.univ (kont ⟨⟩) Q)
          -∗ wp frame (wpE (defs₀ (F := F)) 𝒱₀ (c : Thread nD τ) none) Set.univ
            (.op (.load xS (oRect1 c k).toLoadRect hl1) fun v1 =>
             .op (.load yB (chunkR k).toLoadRect hl2) fun v2 =>
             .op (.load oS (oRect1 c k).toLoadRect hl3) fun _ =>
             .op (.store oS (oRect1 c k) (payG v1 v2) Finset.univ hx hm) kont) Q) := by
  unfold outSt yGot
  iintro ⟨Hx, Hy, ⟨%f, %hf, Ho⟩⟩ Hk
  iapply (wp_load 𝒱₀ (c : Thread nD τ) none Set.univ (m := xS) (Finset.subset_univ _)) $$ Hx; iintro Hx
  iapply (wp_load 𝒱₀ (c : Thread nD τ) none Set.univ (m := yB) (load_sub_y k c)) $$ Hy; iintro Hy
  iapply (wp_load 𝒱₀ (c : Thread nD τ) none Set.univ (m := oS) (Finset.subset_univ _)) $$ Ho; iintro Ho
  iapply (wp_store 𝒱₀ (c : Thread nD τ) none Set.univ (m := oS) (r := oRect1 c k) (Mk := Finset.univ) (Finset.subset_univ _)) $$ Ho; iintro Ho
  iapply Hk
  isplitl [Hx]; · iexact Hx
  isplitl [Hy]; · iexact Hy
  iexists _
  isplitr; · ipureintro; exact out_store1 m c k n₂ hk f hf
  iexact Ho

/-- Trip `k` of the second loop: the own rows of the other half and chunk `k` of the second landing buffer. -/
theorem step_mem2 (c : Dev nD) (k : ℕ) (hk : k < 16)
    {hl1 : (xS : Memref sig .tc .vmem S1024x512 .f32).view.LoadsAt (oRect2 c k).toLoadRect}
    {hl2 : (xB : Memref sig .tc .vmem S512x512 .f32).view.LoadsAt (chunkR k).toLoadRect}
    {hl3 : (oS : Memref sig .tc .vmem S1024x512 .f32).view.LoadsAt (oRect2 c k).toLoadRect}
    {hx : ((oS : Memref sig .tc .vmem S1024x512 .f32).access (oRect2 c k)).Stores (Finset.univ : Finset (oRect2 c k).shape.Idx)}
    {hm : (Finset.univ : Finset (oRect2 c k).shape.Idx) = Finset.univ ∨ ∀ a, (oRect2 c k).stride a = 1}
    {α : Type} {Q : α → sProp 𝕄} {kont : PUnit → Prog (TpuEff nD τ sig (Elt F) Λ₀ .tc) α} :
    iprop((((c : Thread nD τ).loc cc0_stg0_0) ↦{fullShare.left} xin m c) ∗ xGot m c k ∗ outSt m c 16 k)
      ⊢ iprop((((((c : Thread nD τ).loc cc0_stg0_0) ↦{fullShare.left} xin m c) ∗ xGot m c k ∗ outSt m c 16 (k + 1)) -∗ wp frame (wpE (defs₀ (F := F)) 𝒱₀ (c : Thread nD τ) none) Set.univ (kont ⟨⟩) Q)
          -∗ wp frame (wpE (defs₀ (F := F)) 𝒱₀ (c : Thread nD τ) none) Set.univ
            (.op (.load xS (oRect2 c k).toLoadRect hl1) fun v1 =>
             .op (.load xB (chunkR k).toLoadRect hl2) fun v2 =>
             .op (.load oS (oRect2 c k).toLoadRect hl3) fun _ =>
             .op (.store oS (oRect2 c k) (payG v1 v2) Finset.univ hx hm) kont) Q) := by
  unfold outSt xGot
  iintro ⟨Hx, Hy, ⟨%f, %hf, Ho⟩⟩ Hk
  iapply (wp_load 𝒱₀ (c : Thread nD τ) none Set.univ (m := xS) (Finset.subset_univ _)) $$ Hx; iintro Hx
  iapply (wp_load 𝒱₀ (c : Thread nD τ) none Set.univ (m := xB) (load_sub_x k c)) $$ Hy; iintro Hy
  iapply (wp_load 𝒱₀ (c : Thread nD τ) none Set.univ (m := oS) (Finset.subset_univ _)) $$ Ho; iintro Ho
  iapply (wp_store 𝒱₀ (c : Thread nD τ) none Set.univ (m := oS) (r := oRect2 c k) (Mk := Finset.univ) (Finset.subset_univ _)) $$ Ho; iintro Ho
  iapply Hk
  isplitl [Hx]; · iexact Hx
  isplitl [Hy]; · iexact Hy
  iexists _
  isplitr; · ipureintro; exact out_store2 m c k hk f hf
  iexact Ho

/-! ### The waits, by kind -/

/-- The wait for chunk `k` of the first landing buffer: it comes back holding what the `y` partner sent. -/
theorem step_waitYR (c : Dev nD) (k : ℕ) (hk : k < 16) (nF : ℕ)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c (owedAt c true true 16 2 nF)
        ∗ bigSep (Finset.Ico k 16) (crYR c) ∗ bigSep (Finset.Ico k 16) (posYR c) ∗ bigSep (Finset.Ico 0 k) (zYR c))
      ⊢ iprop(((owesE c (owedAt c true true 16 2 nF)
            ∗ bigSep (Finset.Ico (k + 1) 16) (crYR c) ∗ bigSep (Finset.Ico (k + 1) 16) (posYR c) ∗ bigSep (Finset.Ico 0 (k + 1)) (zYR c)
            ∗ yGot m c fullShare k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem (20 + k)) src dst hsrc hdst) kont) Q) := by
  rw [bigSep_Ico_peel hk (crYR c), bigSep_Ico_peel hk (posYR c), bigSep_Ico_snoc (Nat.zero_le k) (zYR c)]
  iintro ⟨#Hrec, #Hlev, HO, ⟨Hc, Hcs⟩, ⟨Hp, Hps⟩, Hz⟩ Hk
  iapply (step_waitDma m K c (20 + k) (by omega) (by omega) (owedAt c true true 16 2 nF) (mayWait_yRecv c k nF hk) hcr) $$ [HO Hc Hp]
  · isplitr; · iexact Hrec
    isplitr; · iexact Hlev
    isplitl [HO]; · iexact HO
    isplitl [Hc]; · unfold crYR; iexact Hc
    unfold posYR; iexact Hp
  iintro ⟨HO, Hz1, Hpay⟩
  iapply Hk
  isplitl [HO]; · iexact HO
  isplitl [Hcs]; · iexact Hcs
  isplitl [Hps]; · iexact Hps
  isplitl [Hz Hz1]
  · isplitl [Hz1]; · unfold zYR; iexact Hz1
    iexact Hz
  ihave Hp2 := (Entails.of_eq (dmaPay_yRecv m c k hk)) $$ Hpay
  unfold yRecvPay yGot; iexact Hp2

/-- The wait for chunk `k` of the second landing buffer (nothing is owed any more). -/
theorem step_waitXR (c : Dev nD) (k : ℕ) (hk : k < 16)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c 0
        ∗ bigSep (Finset.Ico k 16) (crXR c) ∗ bigSep (Finset.Ico k 16) (posXR c) ∗ bigSep (Finset.Ico 0 k) (zXR c))
      ⊢ iprop(((owesE c 0
            ∗ bigSep (Finset.Ico (k + 1) 16) (crXR c) ∗ bigSep (Finset.Ico (k + 1) 16) (posXR c) ∗ bigSep (Finset.Ico 0 (k + 1)) (zXR c)
            ∗ xGot m c k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem (50 + k)) src dst hsrc hdst) kont) Q) := by
  rw [bigSep_Ico_peel hk (crXR c), bigSep_Ico_peel hk (posXR c), bigSep_Ico_snoc (Nat.zero_le k) (zXR c)]
  iintro ⟨#Hrec, #Hlev, HO, ⟨Hc, Hcs⟩, ⟨Hp, Hps⟩, Hz⟩ Hk
  iapply (step_waitDma m K c (50 + k) (by omega) (by omega) 0 (mayWait_none c _) hcr) $$ [HO Hc Hp]
  · isplitr; · iexact Hrec
    isplitr; · iexact Hlev
    isplitl [HO]; · iexact HO
    isplitl [Hc]; · unfold crXR; iexact Hc
    unfold posXR; iexact Hp
  iintro ⟨HO, Hz1, Hpay⟩
  iapply Hk
  isplitl [HO]; · iexact HO
  isplitl [Hcs]; · iexact Hcs
  isplitl [Hps]; · iexact Hps
  isplitl [Hz Hz1]
  · isplitl [Hz1]; · unfold zXR; iexact Hz1
    iexact Hz
  ihave Hp2 := (Entails.of_eq (dmaPay_xRecv m c k hk)) $$ Hpay
  unfold xRecvPay xGot; iexact Hp2

/-- The wait on the send cell of the transfer of chunk `k` to the `y` partner: its source rows come back. -/
theorem step_waitYS (c : Dev nD) (k : ℕ) (hk : k < 16)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c 0
        ∗ bigSep (Finset.Ico k 18) (crYS c) ∗ bigSep (Finset.Ico k 18) (posYS c) ∗ bigSep (Finset.Ico 0 k) (zYS c) ∗ bigSep (Finset.Ico 0 k) (ySrc m c))
      ⊢ iprop(((owesE c 0
            ∗ bigSep (Finset.Ico (k + 1) 18) (crYS c) ∗ bigSep (Finset.Ico (k + 1) 18) (posYS c) ∗ bigSep (Finset.Ico 0 (k + 1)) (zYS c)
            ∗ bigSep (Finset.Ico 0 (k + 1)) (ySrc m c)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem (2 + k)) src dst hsrc hdst) kont) Q) := by
  rw [bigSep_Ico_peel (show k < 18 by omega) (crYS c), bigSep_Ico_peel (show k < 18 by omega) (posYS c), bigSep_Ico_snoc (Nat.zero_le k) (zYS c),
    bigSep_Ico_snoc (Nat.zero_le k) (ySrc m c)]
  iintro ⟨#Hrec, #Hlev, HO, ⟨Hc, Hcs⟩, ⟨Hp, Hps⟩, Hz, Hs⟩ Hk
  iapply (step_waitDma m K c (2 + k) (by omega) (by omega) 0 (mayWait_none c _) hcr) $$ [HO Hc Hp]
  · isplitr; · iexact Hrec
    isplitr; · iexact Hlev
    isplitl [HO]; · iexact HO
    isplitl [Hc]; · unfold crYS; iexact Hc
    unfold posYS; iexact Hp
  iintro ⟨HO, Hz1, Hpay⟩
  iapply Hk
  isplitl [HO]; · iexact HO
  isplitl [Hcs]; · iexact Hcs
  isplitl [Hps]; · iexact Hps
  isplitl [Hz Hz1]
  · isplitl [Hz1]; · unfold zYS; iexact Hz1
    iexact Hz
  isplitl [Hpay]
  · ihave Hp2 := (Entails.of_eq (dmaPay_ySend m c k hk)) $$ Hpay
    unfold ySendPay ySrc; iexact Hp2
  iexact Hs

/-- The wait on the send cell of the direct transfer `r`. -/
theorem step_waitTS (c : Dev nD) (r : ℕ) (hr : r < 2)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c 0
        ∗ bigSep (Finset.Ico (16 + r) 18) (crYS c) ∗ bigSep (Finset.Ico (16 + r) 18) (posYS c) ∗ bigSep (Finset.Ico 0 (16 + r)) (zYS c) ∗ bigSep (Finset.Ico 0 r) (tSrc m c))
      ⊢ iprop(((owesE c 0
            ∗ bigSep (Finset.Ico (16 + (r + 1)) 18) (crYS c) ∗ bigSep (Finset.Ico (16 + (r + 1)) 18) (posYS c) ∗ bigSep (Finset.Ico 0 (16 + (r + 1))) (zYS c)
            ∗ bigSep (Finset.Ico 0 (r + 1)) (tSrc m c)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem (2 + (16 + r))) src dst hsrc hdst) kont) Q) := by
  rw [bigSep_Ico_peel (show 16 + r < 18 by omega) (crYS c), bigSep_Ico_peel (show 16 + r < 18 by omega) (posYS c),
    show 16 + (r + 1) = 16 + r + 1 from rfl, bigSep_Ico_snoc (Nat.zero_le (16 + r)) (zYS c), bigSep_Ico_snoc (Nat.zero_le r) (tSrc m c)]
  iintro ⟨#Hrec, #Hlev, HO, ⟨Hc, Hcs⟩, ⟨Hp, Hps⟩, Hz, Hs⟩ Hk
  iapply (step_waitDma m K c (2 + (16 + r)) (by omega) (by omega) 0 (mayWait_none c _) hcr) $$ [HO Hc Hp]
  · isplitr; · iexact Hrec
    isplitr; · iexact Hlev
    isplitl [HO]; · iexact HO
    isplitl [Hc]; · unfold crYS; iexact Hc
    unfold posYS; iexact Hp
  iintro ⟨HO, Hz1, Hpay⟩
  iapply Hk
  isplitl [HO]; · iexact HO
  isplitl [Hcs]; · iexact Hcs
  isplitl [Hps]; · iexact Hps
  isplitl [Hz Hz1]
  · isplitl [Hz1]; · unfold zYS; iexact Hz1
    iexact Hz
  isplitl [Hpay]
  · ihave Hp2 := (Entails.of_eq (dmaPay_tSend m c r hr)) $$ Hpay
    unfold tSendPay tSrc; iexact Hp2
  iexact Hs

/-- The wait on the send cell of the forward of chunk `k`: the right half-share of the chunk comes back and joins the left. -/
theorem step_waitXS (c : Dev nD) (k : ℕ) (hk : k < 14)
    {sp sp' : Space} {s s' : Shape} {e e' : EltTy} {src : Memref sig .tc sp' s' e'} {κ' : Kind} {dst : Memref sig κ' sp s e}
    {hsrc : src.view.WordExact} {hdst : dst.view.WordExact} (hcr : dst.view.dmaCredit = N32)
    {α : Type} {Q : α → sProp 𝕄} {kont : PUnit → Prog (TpuEff nD τ sig (Elt F) Λ₀ .tc) α} :
    iprop(records m K ∗ levAts L lv ∗ owesE c 0
        ∗ bigSep (Finset.Ico k 14) (crXS c) ∗ bigSep (Finset.Ico k 14) (posXS c) ∗ bigSep (Finset.Ico 0 k) (zXS c)
        ∗ bigSep (Finset.Ico k 14) (yGot m c fullShare.left) ∗ bigSep (Finset.Ico 0 k) (yGot m c fullShare))
      ⊢ iprop(((owesE c 0
            ∗ bigSep (Finset.Ico (k + 1) 14) (crXS c) ∗ bigSep (Finset.Ico (k + 1) 14) (posXS c) ∗ bigSep (Finset.Ico 0 (k + 1)) (zXS c)
            ∗ bigSep (Finset.Ico (k + 1) 14) (yGot m c fullShare.left) ∗ bigSep (Finset.Ico 0 (k + 1)) (yGot m c fullShare)) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (dsem (36 + k)) src dst hsrc hdst) kont) Q) := by
  rw [bigSep_Ico_peel hk (crXS c), bigSep_Ico_peel hk (posXS c), bigSep_Ico_snoc (Nat.zero_le k) (zXS c),
    bigSep_Ico_peel hk (yGot m c fullShare.left), bigSep_Ico_snoc (Nat.zero_le k) (yGot m c fullShare)]
  iintro ⟨#Hrec, #Hlev, HO, ⟨Hc, Hcs⟩, ⟨Hp, Hps⟩, Hz, ⟨HyL, HyLs⟩, Hys⟩ Hk
  iapply (step_waitDma m K c (36 + k) (by omega) (by omega) 0 (mayWait_none c _) hcr) $$ [HO Hc Hp]
  · isplitr; · iexact Hrec
    isplitr; · iexact Hlev
    isplitl [HO]; · iexact HO
    isplitl [Hc]; · unfold crXS; iexact Hc
    unfold posXS; iexact Hp
  iintro ⟨HO, Hz1, Hpay⟩
  iapply Hk
  isplitl [HO]; · iexact HO
  isplitl [Hcs]; · iexact Hcs
  isplitl [Hps]; · iexact Hps
  isplitl [Hz Hz1]
  · isplitl [Hz1]; · unfold zXS; iexact Hz1
    iexact Hz
  isplitl [HyLs]; · iexact HyLs
  isplitl [HyL Hpay]
  · ihave Hp2 := (Entails.of_eq (dmaPay_xSend m c k hk)) $$ Hpay
    unfold xSendPay yGot
    iapply (pointsTo_share (PosShare.mem_left_op_right fullShare)).2
    isplitl [HyL]; · iexact HyL
    iexact Hp2
  iexact Hys

end Cert.KernelIdeal.Hand
end
-- ==== Proof.Glue.lean ====
import proofs.«900710_g7700000000000711_dist_ar_v7x_xyz2x2x4_y_m1024_n512_f32_1_alg».proof.Proof.Fam

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Re-indexing a family -/

omit [FloatOps F] in
/-- A family over `Fin n` that only reads the index's value is the family over `[0, n)`. -/
theorem bigSep_univ_fin' (n : ℕ) (Φ : ℕ → sProp 𝕄) :
    bigSep Finset.univ (fun k : Fin n => Φ k.val) = bigSep (Finset.Ico 0 n) Φ := by
  have e : Finset.Ico 0 n = (Finset.univ : Finset (Fin n)).map Fin.valEmbedding := by
    rw [Fin.map_valEmbedding_univ]; ext x; simp only [Finset.mem_Ico, Finset.mem_Iio]; omega
  rw [e, bigSep_map]; rfl

omit [FloatOps F] in
/-- An interval cut at an inner point. -/
theorem bigSep_Ico_split {a b c : ℕ} (hab : a ≤ b) (hbc : b ≤ c) (Φ : ℕ → sProp 𝕄) :
    bigSep (Finset.Ico a c) Φ = iprop(bigSep (Finset.Ico a b) Φ ∗ bigSep (Finset.Ico b c) Φ) := by
  rw [← Finset.Ico_union_Ico_eq_Ico hab hbc, bigSep_union (Finset.Ico_disjoint_Ico_consecutive a b c)]
  rfl

omit [FloatOps F] in
/-- An interval moved down to start at zero. -/
theorem bigSep_Ico_shift (a n : ℕ) (Φ : ℕ → sProp 𝕄) :
    bigSep (Finset.Ico a (a + n)) Φ = bigSep (Finset.Ico 0 n) (fun k => Φ (a + k)) := by
  have e : Finset.Ico a (a + n) = (Finset.Ico 0 n).map ⟨fun k => a + k, fun _ _ h => Nat.add_left_cancel h⟩ := by
    ext x
    simp only [Finset.mem_Ico, Finset.mem_map, Function.Embedding.coeFn_mk]
    constructor
    · intro h; exact ⟨x - a, by omega, by show a + (x - a) = x; omega⟩
    · rintro ⟨y, hy, rfl⟩; show a ≤ a + y ∧ a + y < a + n; omega
  rw [e, bigSep_map]; rfl

/-! ## From the launch's families to the body's, and back -/

omit [FloatOps F] in
/-- A device's 65 positions: the barrier cell's and the four kinds of DMA cells'. -/
theorem positions_split (c : Dev nD) :
    (positions c : sProp 𝕄) ⊢ iprop(atPos ER (barCell c) 0 ∅ 0 ∗ bigSep (Finset.Ico 0 18) (posYS c) ∗ bigSep (Finset.Ico 0 16) (posYR c)
      ∗ bigSep (Finset.Ico 0 14) (posXS c) ∗ bigSep (Finset.Ico 0 16) (posXR c)) := by
  -- the position of the cell numbered `j` among a device's 65
  have e0 : (positions c : sProp 𝕄)
      = bigSep (Finset.Ico 0 65) (fun j => atPos ER (if j = 0 then barCell c else dcell c (j + 1)) 0 ∅ 0) :=
    bigSep_univ_fin' 65 (fun j => atPos ER (if j = 0 then barCell c else dcell c (j + 1)) 0 ∅ 0)
  have p : bigSep (Finset.Ico 0 65) (fun j => (atPos ER (if j = 0 then barCell c else dcell c (j + 1)) 0 ∅ 0 : sProp 𝕄))
      = iprop(atPos ER (barCell c) 0 ∅ 0
          ∗ bigSep (Finset.Ico 1 65) (fun j => (atPos ER (if j = 0 then barCell c else dcell c (j + 1)) 0 ∅ 0 : sProp 𝕄))) :=
    bigSep_Ico_peel (by omega) _
  -- each kind's interval, moved down to zero: cell `a + k` is DMA cell `a + k + 1`
  have sh : ∀ (a n : ℕ) (Ψ : ℕ → sProp 𝕄), 1 ≤ a → (∀ k, Ψ k = atPos ER (dcell c (a + 1 + k)) 0 ∅ 0) →
      bigSep (Finset.Ico a (a + n)) (fun j => (atPos ER (if j = 0 then barCell c else dcell c (j + 1)) 0 ∅ 0 : sProp 𝕄))
        = bigSep (Finset.Ico 0 n) Ψ := by
    intro a n Ψ ha hΨ
    rw [bigSep_Ico_shift]
    refine bigSep_congr fun k _ => ?_
    rw [hΨ k]
    show atPos ER (if a + k = 0 then barCell c else dcell c (a + k + 1)) 0 ∅ 0 = _
    rw [if_neg (by omega), show a + k + 1 = a + 1 + k by omega]
  have s1 := sh 1 18 (posYS c) (by omega) (fun k => rfl)
  have s2 := sh 19 16 (posYR c) (by omega) (fun k => rfl)
  have s3 := sh 35 14 (posXS c) (by omega) (fun k => rfl)
  have s4 := sh 49 16 (posXR c) (by omega) (fun k => rfl)
  rw [e0, p, bigSep_Ico_split (show 1 ≤ 19 by omega) (show 19 ≤ 65 by omega),
    bigSep_Ico_split (show 19 ≤ 35 by omega) (show 35 ≤ 65 by omega),
    bigSep_Ico_split (show 35 ≤ 49 by omega) (show 49 ≤ 65 by omega), s1, s2, s3, s4]

omit [FloatOps F] in
/-- The tokens of the duties it pays, by kind: the two barrier tokens; its own 18 + 14 send cells'; the `y` partner's 16 receive cells
    of the first buffer and 2 of the second (chunks 14, 15); the `x` partner's 14 of the second. -/
theorem payToks_split (c : Dev nD) :
    (payToks c : sProp 𝕄) ⊢ iprop(dutyTok ER (barCell (yp c)) 0 false ∗ dutyTok ER (barCell (xp c)) 0 true
      ∗ bigSep (Finset.Ico 0 16) (tokYR (yp c)) ∗ bigSep (Finset.Ico 0 2) (fun r => tokXR (yp c) (14 + r))
      ∗ bigSep (Finset.Ico 0 14) (tokXR (xp c)) ∗ bigSep (Finset.Ico 0 18) (tokYS c) ∗ bigSep (Finset.Ico 0 14) (tokXS c)) := by
  rw [← bigSep_univ_fin' 16 (tokYR (yp c)), ← bigSep_univ_fin' 2 (fun r => tokXR (yp c) (14 + r)),
    ← bigSep_univ_fin' 14 (tokXR (xp c)), ← bigSep_univ_fin' 18 (tokYS c), ← bigSep_univ_fin' 14 (tokXS c)]
  unfold payToks tokYR tokXR tokYS tokXS
  iintro H; iexact H

omit [FloatOps F] in
theorem creds_split (c : Dev nD) :
    (creds c : sProp 𝕄) ⊢ iprop(cred (tallyAt (barCell c) () 2) ∗ bigSep (Finset.Ico 0 16) (crYR c) ∗ bigSep (Finset.Ico 0 16) (crXR c)) := by
  rw [← bigSep_univ_fin' 16 (crYR c), ← bigSep_univ_fin' 16 (crXR c)]
  unfold creds crYR crXR
  iintro H; iexact H

/-- What the barrier wait brings: the `y` partner's first buffer in chunks and chunks 14, 15 of its second; chunks 0–13 of the `x` partner's second. -/
theorem barPay_split (c : Dev nD) :
    (iprop(barPayY c ∗ barPayX c) : sProp 𝕄) ⊢ iprop(bigSep (Finset.Ico 0 16) (yDst (yp c)) ∗ bigSep (Finset.Ico 0 2) (fun r => xDst (yp c) (14 + r))
      ∗ bigSep (Finset.Ico 0 14) (xDst (xp c))) := by
  rw [← bigSep_univ_fin' 16 (yDst (yp c)), ← bigSep_univ_fin' 2 (fun r => xDst (yp c) (14 + r)), ← bigSep_univ_fin' 14 (xDst (xp c))]
  unfold barPayY barPayX yDst xDst
  iintro ⟨⟨HA, HB⟩, HC⟩
  isplitl [HA]
  · iexact HA
  isplitl [HB]
  · iexact HB
  iexact HC

omit [FloatOps F] in
/-- The 64 own DMA cells closed at zero, by kind, are the kernel's own semaphores at zero. -/
theorem zeros_join (c : Dev nD) :
    (iprop(bigSep (Finset.Ico 0 18) (zYS c) ∗ bigSep (Finset.Ico 0 16) (zYR c) ∗ bigSep (Finset.Ico 0 14) (zXS c) ∗ bigSep (Finset.Ico 0 16) (zXR c)) : sProp 𝕄)
      ⊢ bigSep Finset.univ fun n : Fin 64 => semVal (dcell c (n.val + 2)) 0 := by
  -- each kind's interval, moved down to zero: index `a + k` is DMA cell `a + 2 + k`
  have sh : ∀ (a n : ℕ) (Ψ : ℕ → sProp 𝕄), (∀ k, Ψ k = semVal (dcell c (a + 2 + k)) 0) →
      bigSep (Finset.Ico a (a + n)) (fun j => (semVal (dcell c (j + 2)) 0 : sProp 𝕄)) = bigSep (Finset.Ico 0 n) Ψ := by
    intro a n Ψ hΨ
    rw [bigSep_Ico_shift]
    refine bigSep_congr fun k _ => ?_
    rw [hΨ k]
    show semVal (dcell c (a + k + 2)) 0 = _
    rw [show a + k + 2 = a + 2 + k by omega]
  have s1 := sh 0 18 (zYS c) (fun k => rfl)
  have s2 := sh 18 16 (zYR c) (fun k => rfl)
  have s3 := sh 34 14 (zXS c) (fun k => rfl)
  have s4 := sh 48 16 (zXR c) (fun k => rfl)
  rw [bigSep_univ_fin' 64 (fun j => semVal (dcell c (j + 2)) 0),
    bigSep_Ico_split (show 0 ≤ 18 by omega) (show 18 ≤ 64 by omega),
    bigSep_Ico_split (show 18 ≤ 34 by omega) (show 34 ≤ 64 by omega),
    bigSep_Ico_split (show 34 ≤ 48 by omega) (show 48 ≤ 64 by omega), s1, s2, s3, s4]

end Cert.KernelIdeal.Hand
end
-- ==== Proof.Body.lean ====
import proofs.«900710_g7700000000000711_dist_ar_v7x_xyz2x2x4_y_m1024_n512_f32_1_alg».proof.Proof.Steps1
import proofs.«900710_g7700000000000711_dist_ar_v7x_xyz2x2x4_y_m1024_n512_f32_1_alg».proof.Proof.Glue

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 2)).fetch t = true := by rw [fin_N t]; rfl

omit [FloatOps F] in
/-- An empty family beside anything. -/
theorem fam_nil (Φ : ℕ → sProp 𝕄) (a : ℕ) (P : sProp 𝕄) : P ⊢ iprop(P ∗ bigSep (Finset.Ico a a) Φ) := by
  rw [bigSep_Ico_self]; exact (sep_emp (PROP := sProp 𝕄)).2
omit [FloatOps F] in
/-- A family one member longer. -/
theorem fam_snoc (Φ : ℕ → sProp 𝕄) (a b : ℕ) (h : a ≤ b) : iprop(Φ b ∗ bigSep (Finset.Ico a b) Φ) ⊢ bigSep (Finset.Ico a (b + 1)) Φ :=
  Entails.of_eq (bigSep_Ico_snoc h Φ).symm
omit [FloatOps F] in
/-- Two adjacent families as one. -/
theorem fam_append (Φ : ℕ → sProp 𝕄) (a b d : ℕ) (hab : a ≤ b) (hbd : b ≤ d) :
    iprop(bigSep (Finset.Ico a b) Φ ∗ bigSep (Finset.Ico b d) Φ) ⊢ bigSep (Finset.Ico a d) Φ :=
  Entails.of_eq (bigSep_Ico_split hab hbd Φ).symm

/-- The library-facing forms of the buffer lemmas, over the body's families. -/
theorem ybuf_join' (c : Dev nD) : bigSep (Finset.Ico 0 16) (yGot m c fullShare)
    ⊢ iprop(∃ f : Buf (Elt F) ((c : Thread nD τ).loc cc0_scratch0), ((c : Thread nD τ).loc cc0_scratch0) ↦{fullShare} f) := ybuf_join m c
theorem xbuf_join' (c : Dev nD) : bigSep (Finset.Ico 0 16) (xGot m c)
    ⊢ iprop(∃ f : Buf (Elt F) ((c : Thread nD τ).loc cc0_scratch1), ((c : Thread nD τ).loc cc0_scratch1) ↦{fullShare} f) := xbuf_join m c
theorem xstage_join' (c : Dev nD) :
    iprop((((c : Thread nD τ).loc cc0_stg0_0) ↦{fullShare.left} xin m c) ∗ bigSep (Finset.Ico 0 16) (ySrc m c) ∗ bigSep (Finset.Ico 0 2) (tSrc m c) ∗ xRest c (xin m c))
      ⊢ (((c : Thread nD τ).loc cc0_stg0_0) ↦{fullShare} xin m c : sProp 𝕄) := xstage_join c (xin m c)

section Script
set_option hygiene false

/-- The transfer of chunk `k` to the `y` partner; `d` is the closed form of the printed device chain. -/
macro "enqY_at" k:num d:ident : tactic => `(tactic| (
  iapply (step_enqY m K c _ (Fin.ext ($d c)) $k (by decide) true true 0 0) $$ [HO HySrc HyDst HtYS HtYR HcYS]
  · sl_close
  iintro ⟨HO, HySrc, HyDst, HtYS, HtYR, HcYS⟩))
macro "enqT_at" r:num d:ident : tactic => `(tactic| (
  iapply (step_enqT m K c _ (Fin.ext ($d c)) $r (by decide) true true 16 0) $$ [HO HtSrc HxDstT HtYS HtXRy HcYS]
  · sl_close
  iintro ⟨HO, HtSrc, HxDstT, HtYS, HtXRy, HcYS⟩))
/-- Trip `k < 14` of the first loop: the wait, the forward, the loads and the store; the chunk's left half-share is kept. -/
macro "trip1F" k:num d:ident : tactic => `(tactic| (
  iapply (step_waitYR m K c $k (by decide) $k (by rfl)) $$ [HO HcYR HpYR HzYR]
  · sl_close
  iintro ⟨HO, HcYR, HpYR, HzYR, Hyk⟩
  iapply (step_enqF m K c _ (Fin.ext ($d c)) $k (by decide) true true 16 2) $$ [HO Hyk HxDstF HtXS HtXRx HcXS]
  · sl_close
  iintro ⟨HO, Hyk, HxDstF, HtXS, HtXRx, HcXS⟩
  iapply (step_mem1 m c $k 0 (by decide) fullShare.left) $$ [HxL Hyk Hout]
  · sl_close
  iintro ⟨HxL, Hyk, Hout⟩
  ihave HyL := (fam_snoc (yGot m c fullShare.left) 0 $k (by decide)) $$ [Hyk HyL]
  · sl_close))
/-- Trips 14 and 15: no forward; the chunk stays whole. -/
macro "trip1L" k:num : tactic => `(tactic| (
  iapply (step_waitYR m K c $k (by decide) 14 (by rfl)) $$ [HO HcYR HpYR HzYR]
  · sl_close
  iintro ⟨HO, HcYR, HpYR, HzYR, Hyk⟩
  iapply (step_mem1 m c $k 0 (by decide) fullShare) $$ [HxL Hyk Hout]
  · sl_close
  iintro ⟨HxL, Hyk, Hout⟩
  ihave HyT := (fam_snoc (yGot m c fullShare) 14 $k (by decide)) $$ [Hyk HyT]
  · sl_close))
/-- Trip `k` of the second loop. -/
macro "trip2" k:num : tactic => `(tactic| (
  iapply (step_waitXR m K c $k (by decide) (by rfl)) $$ [HO HcXR HpXR HzXR]
  · sl_close
  iintro ⟨HO, HcXR, HpXR, HzXR, Hxk⟩
  iapply (step_mem2 m c $k (by decide)) $$ [HxL Hxk Hout]
  · sl_close
  iintro ⟨HxL, Hxk, Hout⟩
  ihave HxG := (fam_snoc (xGot m c) 0 $k (by decide)) $$ [Hxk HxG]
  · sl_close))
macro "waitYS_at" k:num : tactic => `(tactic| (
  iapply (step_waitYS m K c $k (by decide) (by rfl)) $$ [HO HcYS HpYS HzYS HySrcB]
  · sl_close
  iintro ⟨HO, HcYS, HpYS, HzYS, HySrcB⟩))
macro "waitTS_at" r:num : tactic => `(tactic| (
  iapply (step_waitTS m K c $r (by decide) (by rfl)) $$ [HO HcYS HpYS HzYS HtSrcB]
  · sl_close
  iintro ⟨HO, HcYS, HpYS, HzYS, HtSrcB⟩))
macro "waitXS_at" k:num : tactic => `(tactic| (
  iapply (step_waitXS m K c $k (by decide) (by rfl)) $$ [HO HcXS HpXS HzXS HyL HyF]
  · sl_close
  iintro ⟨HO, HcXS, HpXS, HzXS, HyL, HyF⟩))

end Script

set_option maxRecDepth 100000 in
set_option maxHeartbeats 8000000 in
/-- The body on device `c`, from `bodyPre` to `bodyPost`: the two signals and the wait; the eighteen transfers to the `y` partner; the
    sixteen trips of each loop; the thirty-two waits on the send cells; then the buffers put back whole. -/
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        cc0_scratch2 cc0_scratch3 cc0_scratch4 cc0_scratch5) (fun _ => bodyPost m ρ c) := by
  simp only [cc0_body_eq_skeleton, cc0_body_skel,
    k0_part1_eq_skeleton, k0_part1_skel,
    k0_part2_eq_skeleton, k0_part2_skel,
    k0_part3_eq_skeleton, k0_part3_skel,
    k0_part4_eq_skeleton, k0_part4_skel,
    k0_part5_eq_skeleton, k0_part5_skel,
    k0_part6_eq_skeleton, k0_part6_skel,
    k0_part7_eq_skeleton, k0_part7_skel,
    k0_part8_eq_skeleton, k0_part8_skel,
    k0_part9_eq_skeleton, k0_part9_skel,
    k0_part10_eq_skeleton, k0_part10_skel,
    k0_part11_eq_skeleton, k0_part11_skel,
    k0_part12_eq_skeleton, k0_part12_skel,
    k0_part13_eq_skeleton, k0_part13_skel,
    k0_part14_eq_skeleton, k0_part14_skel,
    k0_part15_eq_skeleton, k0_part15_skel,
    k0_part16_eq_skeleton, k0_part16_skel,
    k0_part17_eq_skeleton, k0_part17_skel,
    k0_part18_eq_skeleton, k0_part18_skel,
    k0_part19_eq_skeleton, k0_part19_skel,
    k0_part20_eq_skeleton, k0_part20_skel,
    k0_part21_eq_skeleton, k0_part21_skel,
    k0_part22_eq_skeleton, k0_part22_skel,
    k0_part23_eq_skeleton, k0_part23_skel,
    k0_part24_eq_skeleton, k0_part24_skel,
    k0_part25_eq_skeleton, k0_part25_skel,
    k0_part26_eq_skeleton, k0_part26_skel,
    k0_part27_eq_skeleton, k0_part27_skel,
    k0_part28_eq_skeleton, k0_part28_skel,
    k0_part29_eq_skeleton, k0_part29_skel,
    k0_part30_eq_skeleton, k0_part30_skel,
    k0_part31_eq_skeleton, k0_part31_skel,
    k0_part32_eq_skeleton, k0_part32_skel,
    k0_part33_eq_skeleton, k0_part33_skel,
    k0_part34_eq_skeleton, k0_part34_skel,
    k0_part35_eq_skeleton, k0_part35_skel,
    k0_part36_eq_skeleton, k0_part36_skel,
    k0_part37_eq_skeleton, k0_part37_skel,
    k0_part38_eq_skeleton, k0_part38_skel]
  simp only [semSignalWord, semWaitWord, Prog.lift, Prog.bind_op, Prog.bind_ret, Prog.pure_eq_ret, wp_deviceId]
  unfold bodyPre Φ₀ start ghost
  iintro ⟨⟨⟨⟨%K, #Hrec, Hpos, Htok⟩, Hcr, #Hlev⟩, Hbufs⟩, Ho, ⟨%d0, %g0, %hg0, Hx⟩, ⟨%d1, %g1, %hg1, Hout⟩⟩
  have hx : g0 = xin m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedAt c false false 0 0 0 from rfl]
  -- the launch's families, by kind
  ihave Hpos' := (positions_split c) $$ Hpos
  icases Hpos' with ⟨HpB, HpYS, HpYR, HpXS, HpXR⟩
  ihave Htok' := (payToks_split c) $$ Htok
  icases Htok' with ⟨HtB1, HtB2, HtYR, HtXRy, HtXRx, HtYS, HtXS⟩
  ihave Hcr' := (creds_split c) $$ Hcr
  icases Hcr' with ⟨HcB, HcYR, HcXR⟩
  -- the landing buffers go to the partners; the input's right half-share is cut by rows
  ihave Hg := (bufs_give c) $$ Hbufs
  icases Hg with ⟨HgY, HgX⟩
  ihave Hxs := (xstage_split c (xin m c)) $$ Hx
  icases Hxs with ⟨HxL, HySrc, HtSrc, HxRest⟩
  ihave HO : owesE c (owedAt c false false 0 0 0) $$ [HO]
  · unfold owesE; iexists W; iexact HO
  ihave Hout : outSt m c 0 0 $$ [Hout]
  · unfold outSt; iexists g1; isplitr; · (ipureintro; exact outOK_zero m c g1)
    iexact Hout
  -- the families that start empty
  ihave H2 := (fam_nil (crYS c) 0 _) $$ HO; icases H2 with ⟨HO, HcYS⟩
  ihave H2 := (fam_nil (crXS c) 0 _) $$ HO; icases H2 with ⟨HO, HcXS⟩
  ihave H2 := (fam_nil (zYS c) 0 _) $$ HO; icases H2 with ⟨HO, HzYS⟩
  ihave H2 := (fam_nil (zYR c) 0 _) $$ HO; icases H2 with ⟨HO, HzYR⟩
  ihave H2 := (fam_nil (zXS c) 0 _) $$ HO; icases H2 with ⟨HO, HzXS⟩
  ihave H2 := (fam_nil (zXR c) 0 _) $$ HO; icases H2 with ⟨HO, HzXR⟩
  ihave H2 := (fam_nil (yGot m c fullShare.left) 0 _) $$ HO; icases H2 with ⟨HO, HyL⟩
  ihave H2 := (fam_nil (yGot m c fullShare) 14 _) $$ HO; icases H2 with ⟨HO, HyT⟩
  ihave H2 := (fam_nil (yGot m c fullShare) 0 _) $$ HO; icases H2 with ⟨HO, HyF⟩
  ihave H2 := (fam_nil (xGot m c) 0 _) $$ HO; icases H2 with ⟨HO, HxG⟩
  ihave H2 := (fam_nil (ySrc m c) 0 _) $$ HO; icases H2 with ⟨HO, HySrcB⟩
  ihave H2 := (fam_nil (tSrc m c) 0 _) $$ HO; icases H2 with ⟨HO, HtSrcB⟩
  -- the handshake
  iapply (step_sig1 m K c _ (Fin.ext (k0_dev1_eq c)) false 0 0 0) $$ [HO HtB1 HgY]
  · sl_close
  iintro HO
  iapply (step_sig2 m K c _ (Fin.ext (k0_dev2_eq c)) true 0 0 0) $$ [HO HtB2 HgX]
  · sl_close
  iintro HO
  iapply (step_waitBar m K c) $$ [HcB HO HpB]
  · sl_close
  iintro ⟨HO, HbY, HbX⟩
  ihave Hb := (barPay_split c) $$ [HbY HbX]
  · sl_close
  icases Hb with ⟨HyDst, HxDstT, HxDstF⟩
  -- the eighteen transfers to the `y` partner
  enqY_at 0 k0_dev3_eq
  enqY_at 1 k0_dev4_eq
  enqY_at 2 k0_dev5_eq
  enqY_at 3 k0_dev6_eq
  enqY_at 4 k0_dev7_eq
  enqY_at 5 k0_dev8_eq
  enqY_at 6 k0_dev9_eq
  enqY_at 7 k0_dev10_eq
  enqY_at 8 k0_dev11_eq
  enqY_at 9 k0_dev12_eq
  enqY_at 10 k0_dev13_eq
  enqY_at 11 k0_dev14_eq
  enqY_at 12 k0_dev15_eq
  enqY_at 13 k0_dev16_eq
  enqY_at 14 k0_dev17_eq
  enqY_at 15 k0_dev18_eq
  enqT_at 0 k0_dev19_eq
  enqT_at 1 k0_dev20_eq
  -- the first loop
  trip1F 0 k0_dev21_eq
  trip1F 1 k0_dev22_eq
  trip1F 2 k0_dev23_eq
  trip1F 3 k0_dev24_eq
  trip1F 4 k0_dev25_eq
  trip1F 5 k0_dev26_eq
  trip1F 6 k0_dev27_eq
  trip1F 7 k0_dev28_eq
  trip1F 8 k0_dev29_eq
  trip1F 9 k0_dev30_eq
  trip1F 10 k0_dev31_eq
  trip1F 11 k0_dev32_eq
  trip1F 12 k0_dev33_eq
  trip1F 13 k0_dev34_eq
  trip1L 14
  trip1L 15
  -- nothing is owed any more
  ihave HO := (Entails.of_eq (congrArg (owesE c) (owedAt_done c))) $$ HO
  -- the second loop
  trip2 0
  trip2 1
  trip2 2
  trip2 3
  trip2 4
  trip2 5
  trip2 6
  trip2 7
  trip2 8
  trip2 9
  trip2 10
  trip2 11
  trip2 12
  trip2 13
  trip2 14
  trip2 15
  -- the send cells
  waitYS_at 0
  waitYS_at 1
  waitYS_at 2
  waitYS_at 3
  waitYS_at 4
  waitYS_at 5
  waitYS_at 6
  waitYS_at 7
  waitYS_at 8
  waitYS_at 9
  waitYS_at 10
  waitYS_at 11
  waitYS_at 12
  waitYS_at 13
  waitYS_at 14
  waitYS_at 15
  waitTS_at 0
  waitTS_at 1
  waitXS_at 0
  waitXS_at 1
  waitXS_at 2
  waitXS_at 3
  waitXS_at 4
  waitXS_at 5
  waitXS_at 6
  waitXS_at 7
  waitXS_at 8
  waitXS_at 9
  waitXS_at 10
  waitXS_at 11
  waitXS_at 12
  waitXS_at 13
  -- the body is at its return
  rw [wp_ret]; imodintro
  -- the 64 own cells closed at zero
  ihave Hz := (zeros_join c) $$ [HzYS HzYR HzXS HzXR]
  · sl_close
  -- the first landing buffer: chunks 0–13 with their shares rejoined, chunks 14, 15 never shared; the second
  ihave HyAll := (fam_append (yGot m c fullShare) 0 14 16 (by decide) (by decide)) $$ [HyF HyT]
  · sl_close
  ihave Hyb := (ybuf_join' m c) $$ HyAll
  ihave Hxb := (xbuf_join' m c) $$ HxG
  -- the input's staging buffer whole again
  ihave Hx := (xstage_join' m c) $$ [HxL HySrcB HtSrcB HxRest]
  · sl_close
  -- the result's staging buffer holds the result
  unfold outSt
  icases Hout with ⟨%fo, %hfo, Hout⟩
  have hfo' : fo = outVal m c := out_done m c fo hfo
  subst hfo'
  unfold bodyPost Φ₁ bufs Dat.owesAt Pipeline.owesWithin
  rw [show (dats m ρ 0 c).owed t₀.succ = 0 from rfl]
  unfold owesE
  icases HO with ⟨%W', HO⟩
  isplitl [Hyb Hxb Hz]
  · isplitl [Hyb Hxb]
    · isplitl [Hyb]; · iexact Hyb
      iexact Hxb
    iexact Hz
  isplitl [HO]
  · iexists W'
    isplitr; · (ipureintro; exact fun _ _ => Or.inl trivial)
    iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  exact sound_body m ρ c

end Cert.KernelIdeal.Hand
end
-- ==== Proof.LaunchGhost.lean ====
import proofs.«900710_g7700000000000711_dist_ar_v7x_xyz2x2x4_y_m1024_n512_f32_1_alg».proof.Proof.Body

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch: the cells and the duty tokens -/

/-- The kernel's own (scoped) semaphores: DMA semaphores 2 … 65. -/
abbrev osem : Fin 64 → SemLoc sig := fun n => .dma (dsem (n.val + 2))

theorem ownSemFacts : Pipeline.OwnSemFacts cfg0.spec osem := by decide

theorem kcell_fst (dn : Dev nD × Fin 65) : (kcell dn).1 = (dn.1 : Thread nD τ) := by
  unfold kcell; split <;> rfl

/-- A cell's number among its device's 65. -/
def cellNum (g : GSem nD τ sig) : ℕ := match g.2 with
  | .reg _ => 0
  | .dma j => j.val - 1

theorem cellNum_kcell (dn : Dev nD × Fin 65) : cellNum (kcell dn) = dn.2.val := by
  have hlt : dn.2.val < 65 := dn.2.isLt
  unfold kcell
  split
  · next h => exact h.symm
  · next h =>
    show (dsem (dn.2.val + 1)).val - 1 = _
    rw [dsem_val _ (by omega)]; omega

theorem kcell_injective : Function.Injective (kcell : Dev nD × Fin 65 → GSem nD τ sig) := by
  rintro ⟨c, k⟩ ⟨c', k'⟩ h
  have h1 := congrArg Prod.fst h
  rw [kcell_fst, kcell_fst] at h1
  have h2 := congrArg cellNum h
  rw [cellNum_kcell, cellNum_kcell] at h2
  exact Prod.ext (congrArg (fun t : Thread nD τ => t.1) h1) (Fin.ext h2)

def ringCells : Finset (GSem nD τ sig) := Finset.univ.map ⟨kcell, kcell_injective⟩

theorem kcell_zero (c : Dev nD) : kcell (c, (0 : Fin 65)) = barCell c := rfl
theorem kcell_succ (c : Dev nD) (k : Fin 64) : kcell (c, k.succ) = dcell c (k.val + 2) := by
  unfold kcell; rw [if_neg (by simp)]; rfl

/-- The duties of one device's cells: the barrier cell's two, then one for each receive cell of the first landing buffer,
    for the last two and the first fourteen of the second, for each send cell towards the y partner and towards the x partner. -/
abbrev TokIx : Type := Bool ⊕ (Fin 16 ⊕ (Fin 2 ⊕ (Fin 14 ⊕ (Fin 18 ⊕ Fin 14))))

def tokOf (cj : Dev nD × TokIx) : GSem nD τ sig × ℕ × Bool := match cj.2 with
  | .inl b => (barCell cj.1, 0, b)
  | .inr (.inl k) => (yRecvC cj.1 k.val, 0, false)
  | .inr (.inr (.inl r)) => (xRecvC cj.1 (14 + r.val), 0, false)
  | .inr (.inr (.inr (.inl k))) => (xRecvC cj.1 k.val, 0, false)
  | .inr (.inr (.inr (.inr (.inl k)))) => (ySendC cj.1 k.val, 0, false)
  | .inr (.inr (.inr (.inr (.inr k)))) => (xSendC cj.1 k.val, 0, false)

/-- A duty's number: 0 and 1 for the barrier's, the semaphore's number for a DMA cell's. -/
def tokNum : TokIx → ℕ
  | .inl false => 0
  | .inl true => 1
  | .inr (.inl k) => 20 + k.val
  | .inr (.inr (.inl r)) => 64 + r.val
  | .inr (.inr (.inr (.inl k))) => 50 + k.val
  | .inr (.inr (.inr (.inr (.inl k)))) => 2 + k.val
  | .inr (.inr (.inr (.inr (.inr k)))) => 36 + k.val

theorem tokNum_injective : Function.Injective tokNum := by decide

def tokCode (x : GSem nD τ sig × ℕ × Bool) : ℕ := match x.1.2 with
  | .reg _ => (match x.2.2 with | false => 0 | true => 1)
  | .dma j => j.val

theorem tokCode_tokOf (c : Dev nD) (j : TokIx) : tokCode (tokOf (c, j)) = tokNum j := by
  rcases j with b | k | r | k | k | k
  · cases b <;> rfl
  · show (dsem (20 + k.val)).val = _; rw [dsem_val _ (by have := k.isLt; omega)]; rfl
  · show (dsem (50 + (14 + r.val))).val = _; rw [dsem_val _ (by have := r.isLt; omega)]; show _ = 64 + r.val; omega
  · show (dsem (50 + k.val)).val = _; rw [dsem_val _ (by have := k.isLt; omega)]; rfl
  · show (dsem (2 + k.val)).val = _; rw [dsem_val _ (by have := k.isLt; omega)]; rfl
  · show (dsem (36 + k.val)).val = _; rw [dsem_val _ (by have := k.isLt; omega)]; rfl

theorem tokOf_dev (c : Dev nD) (j : TokIx) : (tokOf (c, j)).1.1.1 = c := by
  rcases j with b | k | r | k | k | k <;> rfl

theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    simp only [tokOf_dev] at this
    exact this
  have h2 := congrArg tokCode h
  rw [tokCode_tokOf, tokCode_tokOf] at h2
  exact Prod.ext h1 (tokNum_injective h2)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-! ## What the launch element deals, and what the global step makes of it -/

omit [FloatOps F] in
theorem bigSep_bool (Φ : Bool → sProp 𝕄) : bigSep Finset.univ Φ = iprop(Φ false ∗ Φ true) :=
  bigSep_univ_eq_bigSepL [false, true] (by decide) (by decide) Φ

/-- The duty tokens of device `c`'s own cells. -/
def toks (c : Dev nD) : sProp 𝕄 :=
  iprop((dutyTok ER (barCell c) 0 false ∗ dutyTok ER (barCell c) 0 true)
    ∗ (bigSep Finset.univ fun k : Fin 16 => dutyTok ER (yRecvC c k.val) 0 false)
    ∗ (bigSep Finset.univ fun r : Fin 2 => dutyTok ER (xRecvC c (14 + r.val)) 0 false)
    ∗ (bigSep Finset.univ fun k : Fin 14 => dutyTok ER (xRecvC c k.val) 0 false)
    ∗ (bigSep Finset.univ fun k : Fin 18 => dutyTok ER (ySendC c k.val) 0 false)
    ∗ (bigSep Finset.univ fun k : Fin 14 => dutyTok ER (xSendC c k.val) 0 false))

omit [FloatOps F] in
theorem toks_eq (c : Dev nD) :
    (bigSep Finset.univ fun j : TokIx => (dutyTok ER (tokOf (c, j)).1 (tokOf (c, j)).2.1 (tokOf (c, j)).2.2 : sProp 𝕄)) = toks c := by
  rw [bigSep_univ_sum, bigSep_univ_sum, bigSep_univ_sum, bigSep_univ_sum, bigSep_univ_sum, bigSep_bool]
  rfl

/-- What the launch element deals device `c` (the theorem's `G`). -/
def G (c : Dev nD) : sProp 𝕄 :=
  iprop((bigSep Finset.univ fun n : Fin 65 => roundState ER (sched m) (kcell (c, n)) 0)
    ∗ (bigSep Finset.univ fun n : Fin 65 => iprop(atPos ER (kcell (c, n)) 0 ∅ 0 ∗ reached ER (kcell (c, n)) 0)) ∗ toks c)

/-- What the global step makes of it (`G'`). -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun n : Fin 65 => Φ (kcell (c, n)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin65 (Φ : Fin 65 → sProp 𝕄) : bigSep Finset.univ Φ = iprop(Φ 0 ∗ bigSep Finset.univ fun k : Fin 64 => Φ k.succ) := by
  rw [Fin.univ_succ, Finset.cons_eq_insert, bigSep_insert (by simp), bigSep_map]; rfl

omit [FloatOps F] in
/-- A device's 65 cells at zero: its barrier semaphore and its own 64. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun n : Fin 65 => semVal (kcell (c, n)) 0 : sProp 𝕄) := by
  rw [unscopedSems0_eq, bigSep_fin65, kcell_zero,
    show (fun k : Fin 64 => (semVal (kcell (c, k.succ)) 0 : sProp 𝕄)) = fun k => semVal ((c : Thread nD τ), osem k) 0 from
      funext fun k => by rw [kcell_succ]]
  iintro ⟨HS, HB⟩
  isplitl [HB]; · iexact HB
  unfold Pipeline.ownSems0; iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n : Fin 65 => iprop(∃ κ : ℕ, cellInv ER (sched m) κ (kcell (c, n))))
          ∗ (bigSep Finset.univ fun n : Fin 65 => iprop(atPos ER (kcell (c, n)) 0 ∅ 0 ∗ reached ER (kcell (c, n)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun n : Fin 65 => semVal (kcell (c, n)) 0) ∗ bigSep Finset.univ fun n : Fin 65 => roundState ER (sched m) (kcell (c, n)) 0)
      ⊢ (|={Set.univ}=> bigSep Finset.univ fun n : Fin 65 => iprop(∃ κ : ℕ, cellInv ER (sched m) κ (kcell (c, n))) : sProp 𝕄) from by
        rw [← bigSep_sep']
        exact (bigSep_mono fun n _ => (Rounds.body_intro ER (sched m) (kcell (c, n))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ positions c ∗ payToks c) ⊢ G' m c := by
  unfold G' ghost
  iintro ⟨#HR, HL⟩
  iexists K
  isplitr; · iexact HR
  iexact HL

omit [FloatOps F] in
theorem around (e : Dev nD ≃ Dev nD) (Φ : Dev nD → sProp 𝕄) : bigSep Finset.univ Φ ⊢ bigSep Finset.univ fun c => Φ (e c) :=
  Entails.of_eq (bigSep_univ_equiv e Φ)

omit [FloatOps F] in
/-- The tokens dealt to their payers: a barrier's `false` token and the receive tokens of the first landing buffer and of the
    second's last two chunks to the y partner, the barrier's `true` token and the other receive tokens of the second to the x partner;
    the send tokens stay. -/
theorem toks_around : (bigSep Finset.univ fun c : Dev nD => (toks c : sProp 𝕄)) ⊢ bigSep Finset.univ fun c : Dev nD => payToks c := by
  unfold toks payToks
  simp only [bigSep_sep']
  iintro ⟨⟨H1, H2⟩, H3, H4, H5, H6, H7⟩
  isplitl [H1]; · iapply (around ypE fun c => (dutyTok ER (barCell c) 0 false : sProp 𝕄)); iexact H1
  isplitl [H2]; · iapply (around xpE fun c => (dutyTok ER (barCell c) 0 true : sProp 𝕄)); iexact H2
  isplitl [H3]; · iapply (around ypE fun c => (bigSep Finset.univ fun k : Fin 16 => dutyTok ER (yRecvC c k.val) 0 false : sProp 𝕄)); iexact H3
  isplitl [H4]; · iapply (around ypE fun c => (bigSep Finset.univ fun r : Fin 2 => dutyTok ER (xRecvC c (14 + r.val)) 0 false : sProp 𝕄)); iexact H4
  isplitl [H5]; · iapply (around xpE fun c => (bigSep Finset.univ fun k : Fin 14 => dutyTok ER (xRecvC c k.val) 0 false : sProp 𝕄)); iexact H5
  isplitl [H6]; · iexact H6
  iexact H7

theorem regroup :
    (bigSep Finset.univ fun c : Dev nD => iprop((bigSep Finset.univ fun n : Fin 65 => iprop(∃ κ : ℕ, cellInv ER (sched m) κ (kcell (c, n))))
          ∗ (bigSep Finset.univ fun n : Fin 65 => iprop(atPos ER (kcell (c, n)) 0 ∅ 0 ∗ reached ER (kcell (c, n)) 0)) ∗ toks c) : sProp 𝕄)
      ⊢ bigSep Finset.univ (G' m) := by
  rw [bigSep_sep', bigSep_sep', ← bigSep_univ_prod (fun dn : Dev nD × Fin 65 => iprop(∃ κ : ℕ, cellInv ER (sched m) κ (kcell dn))),
    bigSep_congr (s := Finset.univ) (fun (c : Dev nD) _ => bigSep_sep' Finset.univ (fun n : Fin 65 => (atPos ER (kcell (c, n)) 0 ∅ 0 : sProp 𝕄)) (fun n => reached ER (kcell (c, n)) 0)),
    bigSep_sep', ← bigSep_univ_prod (fun dn : Dev nD × Fin 65 => (reached ER (kcell dn) 0 : sProp 𝕄))]
  iintro ⟨HI, ⟨Hat, #HR⟩, Htok⟩
  ihave HK := (BI.bigSep_exists_pi Finset.univ (fun (dn : Dev nD × Fin 65) (κ : ℕ) => (cellInv ER (sched m) κ (kcell dn) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Hand
end
-- ==== Proof.LaunchCred.lean ====
import proofs.«900710_g7700000000000711_dist_ar_v7x_xyz2x2x4_y_m1024_n512_f32_1_alg».proof.Proof.Body

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit

What the devices owe at launch, summed per cell: a device's barrier cell is owed one unit by each partner; each receive cell of
its first landing buffer a chunk's credit by its y partner; the receive cells of its second landing buffer a chunk's credit
each, the first fourteen by its x partner, the last two by its y partner. -/

omit [FloatOps F] in
theorem O₀_eq : (O₀ : Dev nD → CellTallies nD τ sig Unit) = fun d =>
    tallyAt (barCell (yp d)) () 1 + tallyAt (barCell (xp d)) () 1
      + (∑ k ∈ Finset.Ico 0 16, tallyAt (yRecvC (yp d) k) () N32)
      + (∑ r ∈ Finset.Ico 0 2, tallyAt (xRecvC (yp d) (14 + r)) () N32)
      + (∑ k ∈ Finset.Ico 0 14, tallyAt (xRecvC (xp d) k) () N32) := by
  funext d; unfold O₀ owedAt; rw [if_neg Bool.false_ne_true, if_neg Bool.false_ne_true]

omit [FloatOps F] in
/-- A family by number over the first `n` numbers is the family over `Fin n`. -/
theorem bigSep_fin_Ico (n : ℕ) (Ψ : ℕ → sProp 𝕄) : bigSep (Finset.Ico 0 n) Ψ = bigSep Finset.univ fun k : Fin n => Ψ k.val := by
  have h : Finset.Ico 0 n = (Finset.univ : Finset (Fin n)).map Fin.valEmbedding := by
    ext t
    simp only [Finset.mem_Ico, Finset.mem_map, Finset.mem_univ, true_and, Fin.valEmbedding_apply]
    constructor
    · rintro ⟨-, h⟩; exact ⟨⟨t, h⟩, rfl⟩
    · rintro ⟨k, rfl⟩; exact ⟨Nat.zero_le _, k.isLt⟩
  rw [h, bigSep_map]; rfl

omit [FloatOps F] in
/-- Sixteen numbers are the first fourteen and the last two. -/
theorem bigSep_fin16_split (Ψ : ℕ → sProp 𝕄) :
    (bigSep Finset.univ fun k : Fin 16 => Ψ k.val) = iprop((bigSep Finset.univ fun k : Fin 14 => Ψ k.val) ∗ bigSep Finset.univ fun r : Fin 2 => Ψ (14 + r.val)) := by
  rw [bigSep_univ_equiv (finSumFinEquiv : Fin 14 ⊕ Fin 2 ≃ Fin 16) (fun k : Fin 16 => Ψ k.val), bigSep_univ_sum]
  rfl

omit [FloatOps F] in
theorem cred_bar (c : Dev nD) :
    iprop(Pipeline.launchCred (fun d => tallyAt (barCell (yp d)) () 1) c ∗ Pipeline.launchCred (fun d => tallyAt (barCell (xp d)) () 1) c)
      ⊢ (cred (tallyAt (barCell c) () 2) : sProp 𝕄) := by
  rw [show (tallyAt (barCell c) () 2 : CellTallies nD τ sig Unit) = tallyAt (barCell c) () 1 + tallyAt (barCell c) () 1 from (tallyAt_add _ _ 1 1).symm]
  iintro ⟨HA, HB⟩
  iapply (cred_add _ _).2
  isplitl [HA]
  · iapply (Pipeline.launchCred_tallyAt (.reg barS) yp yp yp_yp yp_yp () 1 c); iexact HA
  · iapply (Pipeline.launchCred_tallyAt (.reg barS) xp xp xp_xp xp_xp () 1 c); iexact HB

omit [FloatOps F] in
theorem cred_y (c : Dev nD) :
    (bigSep (Finset.Ico 0 16) fun k => Pipeline.launchCred (fun d => tallyAt (yRecvC (yp d) k) () N32) c : sProp 𝕄)
      ⊢ bigSep Finset.univ fun k : Fin 16 => cred (tallyAt (yRecvC c k.val) () N32) := by
  rw [bigSep_fin_Ico]
  exact bigSep_mono fun k _ => Pipeline.launchCred_tallyAt (.dma (dsem (20 + k.val))) yp yp yp_yp yp_yp () N32 c

omit [FloatOps F] in
theorem cred_x (c : Dev nD) :
    iprop((bigSep (Finset.Ico 0 2) fun r => Pipeline.launchCred (fun d => tallyAt (xRecvC (yp d) (14 + r)) () N32) c)
        ∗ bigSep (Finset.Ico 0 14) fun k => Pipeline.launchCred (fun d => tallyAt (xRecvC (xp d) k) () N32) c)
      ⊢ (bigSep Finset.univ fun k : Fin 16 => cred (tallyAt (xRecvC c k.val) () N32) : sProp 𝕄) := by
  rw [bigSep_fin16_split (fun t => cred (tallyAt (xRecvC c t) () N32)), bigSep_fin_Ico, bigSep_fin_Ico]
  have hF : (bigSep Finset.univ fun k : Fin 14 => Pipeline.launchCred (fun d => tallyAt (xRecvC (xp d) k.val) () N32) c : sProp 𝕄)
      ⊢ bigSep Finset.univ fun k : Fin 14 => cred (tallyAt (xRecvC c k.val) () N32) :=
    bigSep_mono fun k _ => Pipeline.launchCred_tallyAt (.dma (dsem (50 + k.val))) xp xp xp_xp xp_xp () N32 c
  have hT : (bigSep Finset.univ fun r : Fin 2 => Pipeline.launchCred (fun d => tallyAt (xRecvC (yp d) (14 + r.val)) () N32) c : sProp 𝕄)
      ⊢ bigSep Finset.univ fun r : Fin 2 => cred (tallyAt (xRecvC c (14 + r.val)) () N32) :=
    bigSep_mono fun r _ => Pipeline.launchCred_tallyAt (.dma (dsem (50 + (14 + r.val)))) yp yp yp_yp yp_yp () N32 c
  iintro ⟨HT, HF⟩
  isplitl [HF]
  · iapply hF; iexact HF
  · iapply hT; iexact HT

omit [FloatOps F] in
/-- The launch credit a device is dealt is the credit of its own receive cells. -/
theorem creds_intro (c : Dev nD) : (Pipeline.launchCred O₀ c : sProp 𝕄) ⊢ creds c := by
  rw [O₀_eq, Pipeline.launchCred_add, Pipeline.launchCred_add, Pipeline.launchCred_add, Pipeline.launchCred_add,
    Pipeline.launchCred_sum, Pipeline.launchCred_sum, Pipeline.launchCred_sum]
  unfold creds
  iintro ⟨⟨⟨⟨HA, HB⟩, HY⟩, HT⟩, HF⟩
  isplitl [HA HB]
  · iapply (cred_bar c); isplitl [HA] <;> iassumption
  isplitl [HY]
  · iapply (cred_y c); iexact HY
  · iapply (cred_x c); isplitl [HT] <;> iassumption

end Cert.KernelIdeal.Hand
end
-- ==== Proof.Launch.lean ====
import proofs.«900710_g7700000000000711_dist_ar_v7x_xyz2x2x4_y_m1024_n512_f32_1_alg».proof.Proof.LaunchGhost
import proofs.«900710_g7700000000000711_dist_ar_v7x_xyz2x2x4_y_m1024_n512_f32_1_alg».proof.Proof.LaunchCred
import proofs.«900710_g7700000000000711_dist_ar_v7x_xyz2x2x4_y_m1024_n512_f32_1_alg».proof.Proof.Gen.KernelIdeal.Points

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m ρ 0 c).share w = fullShare := by unfold Dat.share; split <;> rfl

omit [FloatOps F] in
theorem L_of_ne (g : GSem nD τ sig) (h : g.1.2 ≠ .tc) : L g = ∅ := if_neg h

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ bufs Pipeline.ownSems0
  iintro ⟨Hb, Hz⟩
  isplitr; · iempintro
  isplitl [Hz]; · iexact Hz
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every device's arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of sixteen devices, from any memory with zero counters: every weakly fair execution of @main
    terminates, and every final state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = m ((c : Thread nD τ).loc main_arg0) :=
  (dats (F := F) m ρ 0 c).arrAt_in (0 : Fin 2) rfl _

/-- The result array after the run holds the sum of the device's block and its `y` partner's. -/
theorem finalA_out (c : Dev nD) : finalA m ρ c (1 : Fin 2) = outVal m c := by
  unfold finalA
  have h := (dats (F := F) m ρ 0 c).arrAt_succ (1 : Fin 2) t₀
  rw [flush0_1 t₀, if_pos rfl] at h
  refine (show (dats m ρ 0 c).arrAt (1 : Fin 2) cfg0.N = (dats m ρ 0 c).arrAt (1 : Fin 2) (t₀.val + 1) from rfl).trans (h.trans ?_)
  exact Memref.write_access_unit_zero_univ (Elt F) main_v1 (funext fun a => Nat.zero_mul _) _ _ _

/-- info: 'Cert.KernelIdeal.Hand.finalA_x' depends on axioms: [propext, Classical.choice, Quot.sound] -/
#guard_msgs in #print axioms finalA_x
/-- info: 'Cert.KernelIdeal.Hand.finalA_out' depends on axioms: [propext, Classical.choice, Quot.sound] -/
#guard_msgs in #print axioms finalA_out

/-- The run with its values named: each device's result is its block plus its `y` partner's, its input unchanged. -/
theorem kernel_run : θ_run defs (onTc (τ := τ) (main (F := F))) ⟨m, fun _ => 0, ρ⟩ (fun r => ∀ c : Dev nD,
    r.2.mem ((c.tc : Thread nD τ).loc main_v1) = outVal m c
    ∧ r.2.mem ((c.tc : Thread nD τ).loc main_arg0) = m ((c.tc : Thread nD τ).loc main_arg0)) :=
  (θ_run defs _ _).mono (fun _ h c => ⟨((h c) (1 : Fin 2)).trans (finalA_out m ρ c), ((h c) (0 : Fin 2)).trans (finalA_x m ρ c)⟩) (run_main m ρ)

end Cert.KernelIdeal.Hand
end
-- ==== Proof.RefValue.lean ====
import proofs.«900710_g7700000000000711_dist_ar_v7x_xyz2x2x4_y_m1024_n512_f32_1_alg».proof.Proof.Gen.ReferenceIdeal.Run
import proofs.«900710_g7700000000000711_dist_ar_v7x_xyz2x2x4_y_m1024_n512_f32_1_alg».proof.Proof.Gen.ReferenceIdeal.Read

/-! The reference's value: the whole array is cut in two halves of 1024 rows, and the result is their sum, row by row. -/

noncomputable section

namespace Cert.RefValue

open Idealize.ShloMosaic Cert.ReferenceIdeal Cert.ReferenceIdeal.Gen

/-- Row `1024 b + i₀`, column `i₁` of the whole array: where entry `i` of half `b` lies. -/
def rowOf (b : ℕ) (i : (⟨2, ![1024, 512]⟩ : Shape).Idx) : (⟨2, ![2048, 512]⟩ : Shape).Idx := fun a => match a with
  | ⟨0, _⟩ => ⟨(1024 * b + (i 0).val) % 2048, by show _ < 2048; exact Nat.mod_lt _ (by decide)⟩
  | ⟨1, _⟩ => ⟨(i 1).val, by have h : (i 1).val < 512 := (i 1).isLt; exact h⟩

/-- The sum of the two halves of the whole array, entry by entry. -/
def sumHalves (X : (⟨2, ![2048, 512]⟩ : Shape).Idx → EReal) : (⟨2, ![1024, 512]⟩ : Shape).Idx → EReal :=
  fun i => X (rowOf 0 i) + X (rowOf 1 i)

/-- The reshape puts entry `(k, i₀, i₁)` at row `1024 k + i₀`, column `i₁`. -/
theorem idx_half (i : S1024x512.Idx) (k : Fin 2) :
    Read.idx_main_v0 (Read.idx_main_v1 i k) = rowOf k.val i := by
  have h0 : (i 0).val < 1024 := (i 0).isLt
  have h1 : (i 1).val < 512 := (i 1).isLt
  have hk : k.val < 2 := k.isLt
  funext a
  match a with
  | ⟨0, _⟩ =>
    apply Fin.ext
    show ((k.val * 1024 + (i 0).val) * 512 + (i 1).val) / 512 = (1024 * k.val + (i 0).val) % 2048
    omega
  | ⟨1, _⟩ =>
    apply Fin.ext
    show ((k.val * 1024 + (i 0).val) * 512 + (i 1).val) % 512 = (i 1).val
    omega

/-- The reference's result: zero plus the sum over the two halves, which is the sum of the two halves. -/
theorem ref_eq (X : (⟨S2048x512, .f32⟩ : BufTy).Contents (Elt Ideal)) :
    Read.val_main_v1 (F := Ideal) X = sumHalves X := by
  funext i
  rw [Read.val_main_v1_apply, Read.val_main_cst_apply, Fin.sum_univ_two, Read.val_main_v0_apply, Read.val_main_v0_apply,
    idx_half, idx_half]
  show Ideal.ofBits .f32 0x00000000#32 + (X (rowOf 0 i) + X (rowOf 1 i)) = X (rowOf 0 i) + X (rowOf 1 i)
  rw [Ideal.ofBits_zero_f32, zero_add]

/-- info: 'Cert.RefValue.ref_eq' depends on axioms: [propext, Classical.choice, Quot.sound] -/
#guard_msgs in #print axioms ref_eq

end Cert.RefValue

end
-- ==== Proof.Alg.lean ====
import proofs.«900710_g7700000000000711_dist_ar_v7x_xyz2x2x4_y_m1024_n512_f32_1_alg».proof.Proof.Sched
import proofs.«900710_g7700000000000711_dist_ar_v7x_xyz2x2x4_y_m1024_n512_f32_1_alg».proof.Proof.RefValue
import Idealize.ShloMosaic.Lib.Layout

/-! The kernel's result against the whole array: every device ends with the sum of the two halves of the whole array,
    whichever half it holds itself. -/

noncomputable section

namespace Cert.KernelIdeal.Hand

open Cert.KernelIdeal Cert.KernelIdeal.Gen
open Idealize.ShloMosaic
open Idealize.ShloMosaic.TcCoe
open Idealize.SL.Sem
open Cert.RefValue (rowOf sumHalves)

/-! ## Which half a device holds

The input is cut in two along the mesh's `y` axis: device `d = 8x + 4y + z` holds half `y = (d / 4) % 2`. Flipping `y`
gives the other half, flipping `x` the same one. -/

def yb (d : Dev nD) : ℕ := (d.val / 4) % 2

theorem yb_le (d : Dev nD) : yb d ≤ 1 := by unfold yb; omega
theorem yb_yp (c : Dev nD) : yb (yp c) = 1 - yb c := by revert c; decide
theorem yb_xp (c : Dev nD) : yb (xp c) = yb c := by revert c; decide

/-- The block coordinate the layout names for device `d` along the rows is its `y` coordinate, -/
theorem meshBlock_rows (d : Dev nD) :
    ((Layout.meshBlock [2, 2, 4] ![[1], []] d) (0 : Fin 2)).val = yb d := by revert d; decide
/-- and along the columns there is one block. -/
theorem meshBlock_cols (d : Dev nD) :
    ((Layout.meshBlock [2, 2, 4] ![[1], []] d) (1 : Fin 2)).val = 0 := by revert d; decide

section
variable {F : FTy → Type} [FloatOps F]

/-- The input's window is the whole array, so a device's block as its staging buffer holds it is its argument array. -/
theorem xin_eq (m : (ℓ : Loc nD τ sig) → Buf (Elt F) ℓ) (d : Dev nD) :
    xin m d = m ((d : Thread nD τ).loc main_arg0) := by
  unfold xin
  first
  | exact Memref.read_access_unit_zero (Elt F) main_arg0 (funext fun a => by fin_cases a <;> rfl) _ _
  | (trace "unit_zero failed"; exact Memref.read_access_whole (Elt F) main_arg0 _)
  | (trace "whole failed"; rfl)
end

/-! ## The kernel's result is the sum of the two halves -/

section
variable (m : (ℓ : Loc nD τ sig) → Buf (Elt Ideal) ℓ) (X : (⟨2, ![2048, 512]⟩ : Shape).Idx → EReal)

/-- Every device's argument array is its block of the whole array `X`. -/
def Agree : Prop := ∀ c : Dev nD,
  m ((c.tc : Thread nD τ).loc main_arg0)
    = Layout.blockN ⟨2, ![1024, 512]⟩ ⟨2, ![2048, 512]⟩ (Layout.meshBlock [2, 2, 4] ![[1], []] c) X

/-- Entry `i` of device `d`'s block is entry `i` of half `y` of the whole array. -/
theorem xin_apply (hag : Agree m X) (d : Dev nD) (i : S1024x512.Idx) :
    xin m d i = X (rowOf (yb d) i) := by
  rw [xin_eq]
  have h := congrFun (hag d) i
  refine h.trans ?_
  have h0 : (i 0).val < 1024 := (i 0).isLt
  have hy := yb_le d
  show X _ = X _
  refine congrArg X (funext fun a => ?_)
  match a with
  | ⟨0, _⟩ =>
    apply Fin.ext
    show ((Layout.meshBlock [2, 2, 4] ![[1], []] d) (0 : Fin 2)).val * 1024 + (i 0).val = (1024 * yb d + (i 0).val) % 2048
    rw [meshBlock_rows]; omega
  | ⟨1, _⟩ =>
    apply Fin.ext
    show ((Layout.meshBlock [2, 2, 4] ![[1], []] d) (1 : Fin 2)).val * 512 + (i 1).val = (i 1).val
    rw [meshBlock_cols]; omega

/-- The other summand is the other half's entry, whichever way it travelled: the `y` partner holds the other half, and
    so does the `x` partner's `y` partner. -/
theorem parVal_apply (hag : Agree m X) (c : Dev nD) (i : S1024x512.Idx) :
    parVal m c i = X (rowOf (1 - yb c) i) := by
  have e1 : xin m (yp c) i = X (rowOf (1 - yb c) i) := by rw [xin_apply m X hag, yb_yp]
  have e2 : xin m (yp (xp c)) i = X (rowOf (1 - yb c) i) := by rw [xin_apply m X hag, yb_yp, yb_xp]
  unfold parVal
  split_ifs <;> assumption

/-- On every device the kernel's result is the sum of the two halves of the whole array: its own half plus the other,
    in that order, which on the devices holding the second half is the sum the other way round. -/
theorem outVal_eq (hag : Agree m X) (c : Dev nD) : outVal m c = sumHalves X := by
  funext i
  show (show EReal from xin m c i) + (show EReal from parVal m c i) = _
  rw [parVal_apply m X hag, xin_apply m X hag]
  unfold sumHalves
  have hy := yb_le c
  rcases (by omega : yb c = 0 ∨ yb c = 1) with h | h <;> rw [h]
  · exact add_comm (G := EReal) _ _
end

/-- info: 'Cert.KernelIdeal.Hand.outVal_eq' depends on axioms: [propext, Classical.choice, Quot.sound] -/
#guard_msgs in #print axioms outVal_eq

end Cert.KernelIdeal.Hand
end
-- ==== Proof.lean ====
/- The claim, on a 2×2×4 mesh of sixteen devices. The whole array of 2048 rows is cut in two halves of 1024 rows along the
   mesh's `y` axis, so device `8x + 4y + z` holds half `y`. Each device exchanges its half with its `y` partner (one half of the
   rows directly, the other half relayed by the `x` partner, which holds the same half as the device itself) and adds what it
   receives to its own rows: every device ends with half 0 plus half 1 of the whole array. The reference reshapes the whole
   array to 2×1024×512 and sums over the first axis from zero: the same sum, entry by entry, by commutativity of addition on
   the extended reals. The three frames are the runs with the result's value dropped; the ideal pass rewrote nothing. -/
import proofs.«900710_g7700000000000711_dist_ar_v7x_xyz2x2x4_y_m1024_n512_f32_1_alg».proof.Defs
import proofs.«900710_g7700000000000711_dist_ar_v7x_xyz2x2x4_y_m1024_n512_f32_1_alg».proof.Proof.Gen.Kernel
import proofs.«900710_g7700000000000711_dist_ar_v7x_xyz2x2x4_y_m1024_n512_f32_1_alg».proof.Proof.Gen.Kernel.Skeleton
import proofs.«900710_g7700000000000711_dist_ar_v7x_xyz2x2x4_y_m1024_n512_f32_1_alg».proof.Proof.Gen.Kernel.Launch
import proofs.«900710_g7700000000000711_dist_ar_v7x_xyz2x2x4_y_m1024_n512_f32_1_alg».proof.Proof.Gen.Kernel.Points
import proofs.«900710_g7700000000000711_dist_ar_v7x_xyz2x2x4_y_m1024_n512_f32_1_alg».proof.Proof.Gen.Kernel.Frame
import proofs.«900710_g7700000000000711_dist_ar_v7x_xyz2x2x4_y_m1024_n512_f32_1_alg».proof.Proof.Gen.KernelIdeal
import proofs.«900710_g7700000000000711_dist_ar_v7x_xyz2x2x4_y_m1024_n512_f32_1_alg».proof.Proof.Gen.KernelIdeal.Skeleton
import proofs.«900710_g7700000000000711_dist_ar_v7x_xyz2x2x4_y_m1024_n512_f32_1_alg».proof.Proof.Gen.KernelIdeal.Launch
import proofs.«900710_g7700000000000711_dist_ar_v7x_xyz2x2x4_y_m1024_n512_f32_1_alg».proof.Proof.Gen.KernelIdeal.Points
import proofs.«900710_g7700000000000711_dist_ar_v7x_xyz2x2x4_y_m1024_n512_f32_1_alg».proof.Proof.Gen.KernelIdeal.Frame
import proofs.«900710_g7700000000000711_dist_ar_v7x_xyz2x2x4_y_m1024_n512_f32_1_alg».proof.Proof.Gen.ReferenceIdeal
import proofs.«900710_g7700000000000711_dist_ar_v7x_xyz2x2x4_y_m1024_n512_f32_1_alg».proof.Proof.Gen.Pre_finite_inputs_Kernel
import proofs.«900710_g7700000000000711_dist_ar_v7x_xyz2x2x4_y_m1024_n512_f32_1_alg».proof.Proof.Gen.Pre_finite_inputs_ReferenceIdeal
import Idealize.ShloMosaic.Adequacy
import Idealize.ShloMosaic.Init
import proofs.«900710_g7700000000000711_dist_ar_v7x_xyz2x2x4_y_m1024_n512_f32_1_alg».proof.Proof.Launch
import proofs.«900710_g7700000000000711_dist_ar_v7x_xyz2x2x4_y_m1024_n512_f32_1_alg».proof.Proof.Bits.Launch
import proofs.«900710_g7700000000000711_dist_ar_v7x_xyz2x2x4_y_m1024_n512_f32_1_alg».proof.Proof.RefValue
import proofs.«900710_g7700000000000711_dist_ar_v7x_xyz2x2x4_y_m1024_n512_f32_1_alg».proof.Proof.Alg

noncomputable section

namespace Cert.Proof

open Idealize.ShloMosaic Idealize.SL.Sem

/-- The idealized kernel runs and leaves its argument arrays as they were: its run with the result's value dropped. -/
theorem frame_KernelIdeal : Cert.frame_KernelIdeal := fun m g _ =>
  (θ_run Cert.KernelIdeal.defs _ _).mono (fun _ h c => (h c).2) (Cert.KernelIdeal.Hand.kernel_run (F := Ideal) m g)

/-- The reference runs and leaves its argument array as it was: its run with the result's value dropped. -/
theorem frame_ReferenceIdeal : Cert.frame_ReferenceIdeal := fun m g _ =>
  (θ_run Cert.ReferenceIdeal.defs _ _).mono (fun _ h c => (h c).2) (Cert.ReferenceIdeal.Value.run (F := Ideal) m g)

/-- No operation was rewritten by the ideal pass. -/
theorem preserves : Cert.preserves_Kernel_KernelIdeal := trivial

/-- Over the extended reals, from memories where each device holds its half of the reference's whole array: every device's
    result ends as the sum of the two halves, which is what the reference's reshape-and-reduce computes. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Hand.kernel_run (F := Ideal) m g)
    rw [Cert.RefValue.ref_eq]
    exact Cert.KernelIdeal.Hand.outVal_eq m _ hagree c
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

/-- The word-level kernel runs and leaves its argument arrays as they were: its run with the result's value dropped. -/
theorem frame_Kernel : Cert.frame_Kernel := fun m g _ =>
  (θ_run Cert.Kernel.defs _ _).mono (fun _ h c => (h c).2) (Cert.Kernel.Hand.kernel_run (F := Bits) m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, preserves, algebraic⟩

end Cert.Proof

end
